-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_v53 : IVec S1x1600000 32 := (extractStridedSlice S1x1600000 ![0, 0] · slices_S2x1600000_S1x1600000_0_0) main_arg1
  let main_v54 : IVec S1600000 32 := shapeCast S1600000 main_v53 shapeCasts_S1x1600000_S1600000
  let main_c_19 : IVec S_ 32 := constantI S_ 32 100000#32
  let main_v55 : IVec S1600000 32 := broadcastInDim S1600000 ![] bcast_S_S1600000 main_c_19
  let main_v56 : IVec S1600000 1 := cmpi .slt main_v54 main_v55
  let main_v57 : IVec S1600000 1 := andi main_v52 main_v56
  let main_c_20 : IVec S_ 1 := constantI S_ 1 1#1
  let main_v58 : IVec S_ 1 := (fun x v => Host.reduce IntOp.andi x v reducesTo_S1600000_S_d0 h_S_) main_v57 main_c_20
  let main_v59 : IVec S_ 1 := andi main_v48 main_v58
  main_v59

def fn_part2 {F : FTy → Type} [FloatOps F] (main_arg1 : IVec S2x1600000 32) (main_arg8 : FVec F S64x40 .f32) (main_arg9 : FVec F S64x40 .f32) (main_arg10 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 4294867296#32
  fn_part3 (F := F) main_arg1 main_v48 main_v50 main_c_18

def fn_part1 {F : FTy → Type} [FloatOps F] (main_arg1 : IVec S2x1600000 32) (main_arg5 : FVec F S64x64 .f32) (main_arg6 : FVec F S64x64 .f32) (main_arg7 : FVec F S64 .f32) (main_arg8 : FVec F S64x40 .f32) (main_arg9 : FVec F S64x40 .f32) (main_arg10 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S64x40 .f32) (main_arg9 : FVec F S64x40 .f32) (main_arg10 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S100000x40 : Shape := ⟨2, ![100000, 40]⟩
abbrev S4000x40 : Shape := ⟨2, ![4000, 40]⟩
abbrev S1600000x40 : Shape := ⟨2, ![1600000, 40]⟩
abbrev S1x40 : Shape := ⟨2, ![1, 40]⟩
abbrev S4000 : Shape := ⟨1, ![4000]⟩

abbrev nBuf : Space → Nat
  | .hbm => 122
  | .vmem => 37
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S64x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x64, .f32⟩
  | .hbm, ⟨47, _⟩ => ⟨S1600000x64, .i1⟩
  | .hbm, ⟨48, _⟩ => ⟨S_, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S64x64, .bf16⟩
  | .hbm, ⟨57, _⟩ => ⟨S64x64, .bf16⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1, .i32⟩
  | .hbm, ⟨68, _⟩ => ⟨S_, .i32⟩
  | .hbm, ⟨69, _⟩ => ⟨S1600000x1, .i32⟩
  | .hbm, ⟨70, _⟩ => ⟨S1600000x1, .i1⟩
  | .hbm, ⟨71, _⟩ => ⟨S1x1, .i32⟩
  | .hbm, ⟨72, _⟩ => ⟨S1600000x1, .i32⟩
  | .hbm, ⟨73, _⟩ => ⟨S1600000x1, .i1⟩
  | .hbm, ⟨74, _⟩ => ⟨S1600000x1, .i1⟩
  | .hbm, ⟨75, _⟩ => ⟨S_, .i1⟩
  | .hbm, ⟨76, _⟩ => ⟨S1600000, .i1⟩
  | .hbm, ⟨77, _⟩ => ⟨S1600000x64, .f32⟩
  | .hbm, ⟨78, _⟩ => ⟨S1600000x64, .i1⟩
  | .hbm, ⟨79, _⟩ => ⟨S_, .f32⟩
  | .hbm, ⟨80, _⟩ => ⟨S1600000x64, .f32⟩
  | .hbm, ⟨81, _⟩ => ⟨S1600000x64, .f32⟩
  | .hbm, ⟨82, _⟩ => ⟨S_, .f32⟩
  | .hbm, ⟨83, _⟩ => ⟨S100000x64, .f32⟩
  | .hbm, ⟨84, _⟩ => ⟨S1600000x1, .i32⟩
  | .hbm, ⟨85, _⟩ => ⟨S100000x64, .f32⟩
  | .hbm, ⟨86, _⟩ => ⟨S1x64, .f32⟩
  | .hbm, ⟨87, _⟩ => ⟨S64x64, .bf16⟩
  | .hbm, ⟨88, _⟩ => ⟨S64x64, .bf16⟩
  | .hbm, ⟨89, _⟩ => ⟨S100000x64, .f32⟩
  | .hbm, ⟨90, _⟩ => ⟨S64x40, .bf16⟩
  | .hbm, ⟨91, _⟩ => ⟨S100000x40, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1, .i32⟩
  | .hbm, ⟨101, _⟩ => ⟨S_, .i32⟩
  | .hbm, ⟨102, _⟩ => ⟨S1600000x1, .i32⟩
  | .hbm, ⟨103, _⟩ => ⟨S1600000x1, .i1⟩
  | .hbm, ⟨104, _⟩ => ⟨S1x1, .i32⟩
  | .hbm, ⟨105, _⟩ => ⟨S1600000x1, .i32⟩
  | .hbm, ⟨106, _⟩ => ⟨S1600000x1, .i1⟩
  | .hbm, ⟨107, _⟩ => ⟨S1600000x1, .i1⟩
  | .hbm, ⟨108, _⟩ => ⟨S_, .i1⟩
  | .hbm, ⟨109, _⟩ => ⟨S1600000, .i1⟩
  | .hbm, ⟨110, _⟩ => ⟨S1600000x40, .f32⟩
  | .hbm, ⟨111, _⟩ => ⟨S1600000x40, .i1⟩
  | .hbm, ⟨112, _⟩ => ⟨S_, .f32⟩
  | .hbm, ⟨113, _⟩ => ⟨S1600000x40, .f32⟩
  | .hbm, ⟨114, _⟩ => ⟨S1600000x40, .f32⟩
  | .hbm, ⟨115, _⟩ => ⟨S_, .f32⟩
  | .hbm, ⟨116, _⟩ => ⟨S100000x40, .f32⟩
  | .hbm, ⟨117, _⟩ => ⟨S1600000x1, .i32⟩
  | .hbm, ⟨118, _⟩ => ⟨S100000x40, .f32⟩
  | .hbm, ⟨119, _⟩ => ⟨S1x40, .f32⟩
  | .hbm, ⟨120, _⟩ => ⟨S64x40, .bf16⟩
  | .hbm, ⟨121, _⟩ => ⟨S100000x40, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S4000x1, .f32⟩
  | .local _ .vmem, ⟨8, _⟩ => ⟨S4000x1, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S64x64, .bf16⟩
  | .local _ .vmem, ⟨16, _⟩ => ⟨S64x64, .bf16⟩
  | .local _ .vmem, ⟨17, _⟩ => ⟨S1x64, .f32⟩
  | .local _ .vmem, ⟨18, _⟩ => ⟨S4000x1, .f32⟩
  | .local _ .vmem, ⟨19, _⟩ => ⟨S4000x1, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S4000x64, .f32⟩
  | .local _ .vmem, ⟨24, _⟩ => ⟨S64x40, .bf16⟩
  | .local _ .vmem, ⟨25, _⟩ => ⟨S4000x40, .f32⟩
  | .local _ .vmem, ⟨26, _⟩ => ⟨S4000x40, .f32⟩
  | .local _ .vmem, ⟨27, _⟩ => ⟨S4000x40, .f32⟩
  | .local _ .vmem, ⟨28, _⟩ => ⟨S4000x40, .f32⟩
  | .local _ .vmem, ⟨29, _⟩ => ⟨S4000x64, .f32⟩
  | .local _ .vmem, ⟨30, _⟩ => ⟨S4000x64, .f32⟩
  | .local _ .vmem, ⟨31, _⟩ => ⟨S64x40, .bf16⟩
  | .local _ .vmem, ⟨32, _⟩ => ⟨S1x40, .f32⟩
  | .local _ .vmem, ⟨33, _⟩ => ⟨S4000x1, .f32⟩
  | .local _ .vmem, ⟨34, _⟩ => ⟨S4000x1, .f32⟩
  | .local _ .vmem, ⟨35, _⟩ => ⟨S4000x40, .f32⟩
  | .local _ .vmem, ⟨36, _⟩ => ⟨S4000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_cst_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v21 : Ref sig .tc := ⟨.hbm, 81, rfl⟩
abbrev main_cst_4 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v31 : Ref sig .tc := ⟨.hbm, 114, rfl⟩
abbrev main_cst_5 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x40 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4000x40 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S4000x40_S4000x40_0_0 : ∀ a, (![0, 0] : Fin 2 → Nat) a + S4000x40.size a ≤ S4000x40.size a
  h_S4000x40 : 0 < S4000x40.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  broadcasts_S4000x1_S4000x40 : S4000x1.Broadcasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x1.size a ≤ S100000x1.size a
  hwx1_5 : ∀ i : grid1.Coords, EltTy.bits .f32 = 32 ∨ (Rect.block (s := S100000x1) S4000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x64.size a ≤ S100000x64.size a
  hwx1_6 : ∀ i : grid1.Coords, EltTy.bits .f32 = 32 ∨ (Rect.block (s := S100000x64) S4000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .bf16 = 32 ∨ (Rect.block (s := S64x40) S64x40.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x40.size a ≤ S100000x40.size a
  hwx3_0 : ∀ i : grid3.Coords, EltTy.bits .f32 = 32 ∨ (Rect.block (s := S100000x40) S4000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x40.size a ≤ S64x40.size a
  hwx3_2 : ∀ i : grid3.Coords, EltTy.bits .bf16 = 32 ∨ (Rect.block (s := S64x40) S64x40.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x1.size a ≤ S100000x1.size a
  hwx3_4 : ∀ i : grid3.Coords, EltTy.bits .f32 = 32 ∨ (Rect.block (s := S100000x1) S4000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x40.size a ≤ S100000x40.size a
  hwx3_5 : ∀ i : grid3.Coords, EltTy.bits .f32 = 32 ∨ (Rect.block (s := S100000x40) S4000x40.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v16) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S4000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v28) S4000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S4000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36) S64x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S4000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v37) S4000x40.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 132
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64x64, .f32⟩
  | 4 => ⟨S64, .f32⟩
  | 5 => ⟨S64x64, .f32⟩
  | 6 => ⟨S64x64, .f32⟩
  | 7 => ⟨S64, .f32⟩
  | 8 => ⟨S64x40, .f32⟩
  | 9 => ⟨S64x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x64, .f32⟩
  | 24 => ⟨S_, .f32⟩
  | 25 => ⟨S100000x64, .f32⟩
  | 26 => ⟨S1600000x1, .i32⟩
  | 27 => ⟨S100000x64, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x64, .f32⟩
  | 73 => ⟨S100000x64, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x64, .f32⟩
  | 107 => ⟨S100000x64, .f32⟩
  | 108 => ⟨S100000x40, .f32⟩
  | 109 => ⟨S100000x40, .f32⟩
  | 110 => ⟨S100000x40, .f32⟩
  | 111 => ⟨S1x40, .f32⟩
  | 112 => ⟨S100000x40, .f32⟩
  | 113 => ⟨S100000x40, .f32⟩
  | 114 => ⟨S_, .f32⟩
  | 115 => ⟨S100000x40, .f32⟩
  | 116 => ⟨S100000x40, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x40, .f32⟩
  | 124 => ⟨S100000x40, .f32⟩
  | 125 => ⟨S100000x40, .f32⟩
  | 126 => ⟨S_, .f32⟩
  | 127 => ⟨S100000, .f32⟩
  | _ => ⟨S100000x64, .f32⟩

abbrev hbmTy0_1 (i : Nat) : BufTy := match i % 128 with
  | 0 => ⟨S100000x1, .f32⟩
  | 1 => ⟨S100000x1, .f32⟩
  | 2 => ⟨S100000x40, .f32⟩
  | 3 => ⟨S100000x40, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_v81 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v82 : Ref sig .tc := ⟨.hbm, 131, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Spec.lean ====
/-
  The mathematics of a three-layer mean-aggregating graph network on 100000 nodes and 1600000 directed edges,
  written once, at the extended reals, with no program in sight.

  An edge e carries a source word and a destination word.  A negative source word is wrapped once by the
  number of nodes (numpy's convention) and the row it names is read clamped into the table; edge e feeds
  node n when its destination word, read signed, is n.  A node's degree is the number of edges that feed it,
  its divisor the degree or one, whichever is larger.  A layer takes the node table h to
      relu ( (sum over feeding edges of h at the edge's source row) / divisor · Wl  +  h · Wr  +  b ),
  and the network ends in a row-wise log-softmax.

  Two ways of computing a layer are stated: the plain one (divide the aggregated row by the divisor, then
  multiply by Wl) and the two that a tiled implementation uses — multiply the aggregated row by the
  reciprocal of the divisor (layers one and two), and, for the last layer, project the table by Wl FIRST and
  aggregate the projected rows.  Their equality is proved in the companion module on the algebra.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The number of nodes and of edges. -/
abbrev NN : Nat := 100000
abbrev NE : Nat := 1600000

/-- An extended real that is a real number. -/
def IsReal (a : EReal) : Prop := ∃ r : ℝ, a = (r : EReal)

/-- A table all of whose entries are real numbers. -/
def IsReal2 {A B : Nat} (f : Fin A → Fin B → EReal) : Prop := ∀ a b, IsReal (f a b)
def IsReal1 {A : Nat} (f : Fin A → EReal) : Prop := ∀ a, IsReal (f a)

/-- A negative index word is wrapped once by the number of nodes. -/
def wrapW (w : BitVec 32) : BitVec 32 := Scalar.select (IntOp.cmpi .slt w 0#32) (IntOp.addi w 100000#32) w

/-- The row a table read takes for a start word: the word read signed and clamped into the table. -/
def rowOf (w : BitVec 32) : Fin NN := ⟨min w.toInt.toNat 99999, by show _ < 100000; omega⟩

/-- The source row of edge e. -/
def srcRow (src : Fin NE → BitVec 32) (e : Fin NE) : Fin NN := rowOf (wrapW (src e))

/-- A source word names a row of the table, directly or after one wrap. -/
def SrcInRange (src : Fin NE → BitVec 32) : Prop := ∀ e, -100000 ≤ (src e).toInt ∧ (src e).toInt < 100000

/-- The edges that feed node n: those whose destination word, read signed, is n. -/
def inEdges (dst : Fin NE → BitVec 32) (n : Fin NN) : Finset (Fin NE) :=
  Finset.univ.filter fun e => (dst e).toInt = (n.val : ℤ)

/-- The degree of node n. -/
def deg (dst : Fin NE → BitVec 32) (n : Fin NN) : EReal := ∑ _e ∈ inEdges dst n, (1 : EReal)

/-- The divisor of node n: its degree, or one for an isolated node. -/
def dmax (dst : Fin NE → BitVec 32) (n : Fin NN) : EReal := max (deg dst n) 1

/-- The sum, over the edges that feed node n, of column c of the table at the edge's source row. -/
def aggr {C : Nat} (src dst : Fin NE → BitVec 32) (h : Fin NN → Fin C → EReal) (n : Fin NN) (c : Fin C) : EReal :=
  ∑ e ∈ inEdges dst n, h (srcRow src e) c

/-- A table times a matrix. -/
def tmul {K C : Nat} (A : Fin NN → Fin K → EReal) (W : Fin K → Fin C → EReal) (n : Fin NN) (c : Fin C) : EReal :=
  ∑ k : Fin K, A n k * W k c

/-- THE LAYER, the plain way: the aggregated row divided by the divisor, times Wl; plus the node's own row times
    Wr; plus the bias; clipped below at zero. -/
def layerR {C : Nat} (src dst : Fin NE → BitVec 32) (h : Fin NN → Fin 64 → EReal) (Wl Wr : Fin 64 → Fin C → EReal)
    (b : Fin C → EReal) (n : Fin NN) (c : Fin C) : EReal :=
  max ((∑ k : Fin 64, Ideal.div (aggr src dst h n k) (dmax dst n) * Wl k c) + (∑ k : Fin 64, h n k * Wr k c) + b c) 0

/-- The layer with the aggregated row TIMES THE RECIPROCAL of the divisor. -/
def layerK {C : Nat} (src dst : Fin NE → BitVec 32) (h : Fin NN → Fin 64 → EReal) (Wl Wr : Fin 64 → Fin C → EReal)
    (b : Fin C → EReal) (n : Fin NN) (c : Fin C) : EReal :=
  max ((∑ k : Fin 64, (aggr src dst h n k * Ideal.div 1 (dmax dst n)) * Wl k c) + (∑ k : Fin 64, h n k * Wr k c) + b c) 0

/-- The layer with the table PROJECTED by Wl before it is aggregated, then scaled by the reciprocal of the divisor. -/
def layerP {C : Nat} (src dst : Fin NE → BitVec 32) (h : Fin NN → Fin 64 → EReal) (Wl Wr : Fin 64 → Fin C → EReal)
    (b : Fin C → EReal) (n : Fin NN) (c : Fin C) : EReal :=
  max ((aggr src dst (tmul h Wl) n c * Ideal.div 1 (dmax dst n)) + (∑ k : Fin 64, h n k * Wr k c) + b c) 0

/-- A row's largest entry (from minus infinity). -/
def rowMax (h : Fin NN → Fin 40 → EReal) (n : Fin NN) : EReal :=
  (Finset.univ : Finset (Fin 40)).fold max ⊥ (fun c => h n c)

/-- The row-wise log-softmax: shift by the row's maximum, subtract the logarithm of the sum of exponentials. -/
def lsm (h : Fin NN → Fin 40 → EReal) (n : Fin NN) (c : Fin 40) : EReal :=
  (h n c - rowMax h n) - Ideal.log (∑ c' : Fin 40, Ideal.exp (h n c' - rowMax h n))

/-- The network, the plain way. -/
def outR (src dst : Fin NE → BitVec 32) (x : Fin NN → Fin 64 → EReal)
    (Wl1 Wr1 : Fin 64 → Fin 64 → EReal) (b1 : Fin 64 → EReal)
    (Wl2 Wr2 : Fin 64 → Fin 64 → EReal) (b2 : Fin 64 → EReal)
    (Wl3 Wr3 : Fin 64 → Fin 40 → EReal) (b3 : Fin 40 → EReal) : Fin NN → Fin 40 → EReal :=
  lsm (layerR src dst (layerR src dst (layerR src dst x Wl1 Wr1 b1) Wl2 Wr2 b2) Wl3 Wr3 b3)

/-- The network, the tiled way. -/
def outK (src dst : Fin NE → BitVec 32) (x : Fin NN → Fin 64 → EReal)
    (Wl1 Wr1 : Fin 64 → Fin 64 → EReal) (b1 : Fin 64 → EReal)
    (Wl2 Wr2 : Fin 64 → Fin 64 → EReal) (b2 : Fin 64 → EReal)
    (Wl3 Wr3 : Fin 64 → Fin 40 → EReal) (b3 : Fin 40 → EReal) : Fin NN → Fin 40 → EReal :=
  lsm (layerP src dst (layerK src dst (layerK src dst x Wl1 Wr1 b1) Wl2 Wr2 b2) Wl3 Wr3 b3)

/-! ## Arrays as tables -/

/-- A rank-two array read as a table, and a table laid out as an array. -/
def cur2 {A B : Nat} (x : (⟨2, ![A, B]⟩ : Shape).Idx → EReal) (a : Fin A) (b : Fin B) : EReal := x (ix2 a b)
def arr2 {A B : Nat} (f : Fin A → Fin B → EReal) : (⟨2, ![A, B]⟩ : Shape).Idx → EReal := fun i => f (i 0) (i 1)
/-- A rank-one array read as a row. -/
def cur1 {A : Nat} (x : (⟨1, ![A]⟩ : Shape).Idx → EReal) (a : Fin A) : EReal := x (ix1 a)

theorem arr2_ix2 {A B : Nat} (f : Fin A → Fin B → EReal) (a : Fin A) (b : Fin B) : arr2 f (ix2 a b) = f a b := rfl
theorem cur2_arr2 {A B : Nat} (f : Fin A → Fin B → EReal) : cur2 (arr2 f) = f := rfl
theorem arr2_cur2 {A B : Nat} (x : (⟨2, ![A, B]⟩ : Shape).Idx → EReal) : arr2 (cur2 x) = x := by
  funext i; exact congrArg x (eq_ix2 i).symm

/-- The source and destination words of the edges, out of the two-row edge array. -/
def srcOf (ei : (⟨2, ![2, 1600000]⟩ : Shape).Idx → BitVec 32) (e : Fin NE) : BitVec 32 := ei (ix2 (0 : Fin 2) e)
def dstOf (ei : (⟨2, ![2, 1600000]⟩ : Shape).Idx → BitVec 32) (e : Fin NE) : BitVec 32 := ei (ix2 (1 : Fin 2) e)

/-! ## Three bit patterns -/

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

end Cert.Sage

end
-- ==== Proof.KArr.lean ====
/-
  Names, at their literal array types, for the buffers of the tiled program that the value proof speaks of:
  a core's contents of one buffer, read as a function from the buffer's index set to the extended reals (or,
  for the two index buffers and the edge array, to 32-bit words).
-/
import proofs.«425072_j22376779612323_3_alg».proof.Proof.Gen.KernelIdeal.Frame
import proofs.«425072_j22376779612323_3_alg».proof.Proof.Spec

noncomputable section

namespace Cert.KernelIdeal.SageK

open Cert.KernelIdeal Cert.KernelIdeal.Gen Cert.Sage
open Idealize.ShloMosaic Idealize.ShloMosaic.TcCoe Idealize.ShloMosaic.ValueIdx Idealize.SL.Sem

/-- A core's buffer contents at some boundary of the program (a region's entry or exit). -/
abbrev Entry := (c : Dev nD) → (b : Ref sig .tc) → Buf (Elt Ideal) ((c : Thread nD τ).loc b)

/-- the node table (argument 0). -/
abbrev a_arg0 (V : Entry) (c : Dev nD) : S100000x64.Idx → EReal := V c main_arg0
/-- the edge array (argument 1): row 0 the source words, row 1 the destination words. -/
abbrev a_ei (V : Entry) (c : Dev nD) : S2x1600000.Idx → BitVec 32 := V c main_arg1
/-- layer 1's Wl. -/
abbrev a_arg2 (V : Entry) (c : Dev nD) : S64x64.Idx → EReal := V c main_arg2
/-- layer 1's Wr. -/
abbrev a_arg3 (V : Entry) (c : Dev nD) : S64x64.Idx → EReal := V c main_arg3
/-- layer 1's bias. -/
abbrev a_arg4 (V : Entry) (c : Dev nD) : S64.Idx → EReal := V c main_arg4
/-- layer 2's Wl. -/
abbrev a_arg5 (V : Entry) (c : Dev nD) : S64x64.Idx → EReal := V c main_arg5
/-- layer 2's Wr. -/
abbrev a_arg6 (V : Entry) (c : Dev nD) : S64x64.Idx → EReal := V c main_arg6
/-- layer 2's bias. -/
abbrev a_arg7 (V : Entry) (c : Dev nD) : S64.Idx → EReal := V c main_arg7
/-- layer 3's Wl. -/
abbrev a_arg8 (V : Entry) (c : Dev nD) : S64x40.Idx → EReal := V c main_arg8
/-- layer 3's Wr. -/
abbrev a_arg9 (V : Entry) (c : Dev nD) : S64x40.Idx → EReal := V c main_arg9
/-- layer 3's bias. -/
abbrev a_arg10 (V : Entry) (c : Dev nD) : S40.Idx → EReal := V c main_arg10
/-- the source words. -/
abbrev a_v1 (V : Entry) (c : Dev nD) : S1600000.Idx → BitVec 32 := V c main_v1
/-- the destination words. -/
abbrev a_v3 (V : Entry) (c : Dev nD) : S1600000.Idx → BitVec 32 := V c main_v3
/-- the reciprocal-divisor column. -/
abbrev a_v12 (V : Entry) (c : Dev nD) : S100000x1.Idx → EReal := V c main_v12
/-- the rows taken for layer 1. -/
abbrev a_v13 (V : Entry) (c : Dev nD) : S1600000x64.Idx → EReal := V c main_v13
/-- layer 1's aggregated table. -/
abbrev a_v16 (V : Entry) (c : Dev nD) : S100000x64.Idx → EReal := V c main_v16
/-- layer 1's bias as a row. -/
abbrev a_v17 (V : Entry) (c : Dev nD) : S1x64.Idx → EReal := V c main_v17
/-- layer 1's Wl in the narrow format. -/
abbrev a_v18 (V : Entry) (c : Dev nD) : S64x64.Idx → EReal := V c main_v18
/-- layer 1's Wr in the narrow format. -/
abbrev a_v19 (V : Entry) (c : Dev nD) : S64x64.Idx → EReal := V c main_v19
/-- layer 1's output. -/
abbrev a_v20 (V : Entry) (c : Dev nD) : S100000x64.Idx → EReal := V c main_v20
/-- the rows taken for layer 2. -/
abbrev a_v21 (V : Entry) (c : Dev nD) : S1600000x64.Idx → EReal := V c main_v21
/-- layer 2's aggregated table. -/
abbrev a_v24 (V : Entry) (c : Dev nD) : S100000x64.Idx → EReal := V c main_v24
/-- layer 2's bias as a row. -/
abbrev a_v25 (V : Entry) (c : Dev nD) : S1x64.Idx → EReal := V c main_v25
/-- layer 2's Wl in the narrow format. -/
abbrev a_v26 (V : Entry) (c : Dev nD) : S64x64.Idx → EReal := V c main_v26
/-- layer 2's Wr in the narrow format. -/
abbrev a_v27 (V : Entry) (c : Dev nD) : S64x64.Idx → EReal := V c main_v27
/-- layer 2's output. -/
abbrev a_v28 (V : Entry) (c : Dev nD) : S100000x64.Idx → EReal := V c main_v28
/-- layer 3's Wl in the narrow format. -/
abbrev a_v29 (V : Entry) (c : Dev nD) : S64x40.Idx → EReal := V c main_v29
/-- layer 2's output projected by layer 3's Wl. -/
abbrev a_v30 (V : Entry) (c : Dev nD) : S100000x40.Idx → EReal := V c main_v30
/-- the projected rows taken for layer 3. -/
abbrev a_v31 (V : Entry) (c : Dev nD) : S1600000x40.Idx → EReal := V c main_v31
/-- layer 3's aggregated projected table. -/
abbrev a_v34 (V : Entry) (c : Dev nD) : S100000x40.Idx → EReal := V c main_v34
/-- layer 3's bias as a row. -/
abbrev a_v35 (V : Entry) (c : Dev nD) : S1x40.Idx → EReal := V c main_v35
/-- layer 3's Wr in the narrow format. -/
abbrev a_v36 (V : Entry) (c : Dev nD) : S64x40.Idx → EReal := V c main_v36
/-- the result. -/
abbrev a_v37 (V : Entry) (c : Dev nD) : S100000x40.Idx → EReal := V c main_v37

end Cert.KernelIdeal.SageK

end
-- ==== Proof.KCarried.lean ====
/-
  What every boundary of the tiled program keeps, from the first host stretch on: the eleven argument arrays as
  launched, the source and destination words of the edges (rows 0 and 1 of the edge array), and the column of
  reciprocals of the divisors, 1 / max(deg n, 1).  None of these is written again by any later operation or
  kernel, so each stage of the program finds them as the first stretch left them.
-/
import proofs.«425072_j22376779612323_3_alg».proof.Proof.KArr
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- Argument `main_arg0` as launched, at its literal array type. -/
abbrev m_arg0 (c : Dev nD) : S100000x64.Idx → EReal := m ((c.tc : Thread nD τ).loc main_arg0)
/-- Argument `main_arg1` as launched, at its literal array type. -/
abbrev m_ei (c : Dev nD) : S2x1600000.Idx → BitVec 32 := m ((c.tc : Thread nD τ).loc main_arg1)
/-- Argument `main_arg2` as launched, at its literal array type. -/
abbrev m_arg2 (c : Dev nD) : S64x64.Idx → EReal := m ((c.tc : Thread nD τ).loc main_arg2)
/-- Argument `main_arg3` as launched, at its literal array type. -/
abbrev m_arg3 (c : Dev nD) : S64x64.Idx → EReal := m ((c.tc : Thread nD τ).loc main_arg3)
/-- Argument `main_arg4` as launched, at its literal array type. -/
abbrev m_arg4 (c : Dev nD) : S64.Idx → EReal := m ((c.tc : Thread nD τ).loc main_arg4)
/-- Argument `main_arg5` as launched, at its literal array type. -/
abbrev m_arg5 (c : Dev nD) : S64x64.Idx → EReal := m ((c.tc : Thread nD τ).loc main_arg5)
/-- Argument `main_arg6` as launched, at its literal array type. -/
abbrev m_arg6 (c : Dev nD) : S64x64.Idx → EReal := m ((c.tc : Thread nD τ).loc main_arg6)
/-- Argument `main_arg7` as launched, at its literal array type. -/
abbrev m_arg7 (c : Dev nD) : S64.Idx → EReal := m ((c.tc : Thread nD τ).loc main_arg7)
/-- Argument `main_arg8` as launched, at its literal array type. -/
abbrev m_arg8 (c : Dev nD) : S64x40.Idx → EReal := m ((c.tc : Thread nD τ).loc main_arg8)
/-- Argument `main_arg9` as launched, at its literal array type. -/
abbrev m_arg9 (c : Dev nD) : S64x40.Idx → EReal := m ((c.tc : Thread nD τ).loc main_arg9)
/-- Argument `main_arg10` as launched, at its literal array type. -/
abbrev m_arg10 (c : Dev nD) : S40.Idx → EReal := m ((c.tc : Thread nD τ).loc main_arg10)

/-- A family of per-core valuations read at the TensorCore's references. -/
abbrev Vof (W : Dev nD → Valuation τ sig (Elt Ideal)) : Entry := fun c b => W c b

/-- The source and destination words of the edges of core c's edge array. -/
abbrev srcW (c : Dev nD) : Fin NE → BitVec 32 := srcOf (m_ei m c)
abbrev dstW (c : Dev nD) : Fin NE → BitVec 32 := dstOf (m_ei m c)

/-- THE CARRIED FACTS at a boundary with contents `V`, on core c. -/
structure Carried (V : Entry) (c : Dev nD) : Prop where
  arg0 : a_arg0 V c = m_arg0 m c
  ei : a_ei V c = m_ei m c
  arg2 : a_arg2 V c = m_arg2 m c
  arg3 : a_arg3 V c = m_arg3 m c
  arg4 : a_arg4 V c = m_arg4 m c
  arg5 : a_arg5 V c = m_arg5 m c
  arg6 : a_arg6 V c = m_arg6 m c
  arg7 : a_arg7 V c = m_arg7 m c
  arg8 : a_arg8 V c = m_arg8 m c
  arg9 : a_arg9 V c = m_arg9 m c
  arg10 : a_arg10 V c = m_arg10 m c
  src : a_v1 V c = fun i => srcW m c (i 0)
  dst : a_v3 V c = fun i => dstW m c (i 0)
  rdiv : a_v12 V c = fun i => Ideal.div 1 (dmax (dstW m c) (i 0))

end Cert.KernelIdeal.SageK

end
-- ==== Proof.LibRowOps.lean ====
/-
  Row gathers and row scatter-adds read at an index.

  `x[idx]` along the leading axis of an [N, C] table, with one start word per result row (start indices [E, 1],
  result [E, C]): result element (e, c) is the table at (the start word of e read signed and clamped into
  [0, N - 1], c).  The accumulating scatter of [E, C] update rows into an [N, C] operand by one destination word
  per update row (indices [E, 1]): operand element (n, c) gains the sum of the updates' column c over the rows
  whose destination word, read signed and NOT clamped, is n; a row whose word is outside [0, N) is dropped.
  The same for a vector operand [N] and scalar updates [E].
-/
import Idealize.ShloMosaic.PureOps.Ideal
import Idealize.ShloMosaic.Lib.ValueIdx

noncomputable section

namespace Idealize.ShloMosaic.RowOps

open Idealize.ShloMosaic Idealize.ShloMosaic.ValueIdx

/-- The dimension numbers of a row gather: operand [N, C], start indices [E, 1], result [E, C]. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the table at the clamped start row of e, column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- The dimension numbers of a row scatter: operand [N, C], scatter indices [E, 1], updates [E, C]. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis a row scatter's landing coordinate (start plus window) of update row p is the destination word
    of p read signed: the axis is in the index map and is an inserted axis (window coordinate 0). -/
theorem rowScatter_land0 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 0 + ((rowScatter N E C wf).window (ix2 p q) 0 : ℤ)
      = (idx (ix2 p (0 : Fin 1))).toInt := by
  have hw : (rowScatter N E C wf).window (ix2 p q) 0 = 0 := by
    unfold ScatterDims.window
    rw [dif_neg (show (0 : Fin 2) ∉ Shape.kept (⟨2, ![N, C]⟩ : Shape) ([0] : List (Fin 2)) by simp [Shape.kept])]
  rw [hw]
  unfold ScatterDims.start
  rw [dif_pos (show (0 : Fin 2) ∈ ([0] : List (Fin 2)) from List.mem_singleton.mpr rfl)]
  have hsi : (rowScatter N E C wf).siIdx (ix2 p q) ⟨List.idxOf (0 : Fin 2) (rowScatter N E C wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- On the column axis a row scatter's landing coordinate of update element (p, q) is q: the axis is not in the index
    map (start 0) and is the one window axis. -/
theorem rowScatter_land1 {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) :
    (rowScatter N E C wf).start (ix2 p q) idx 1 + ((rowScatter N E C wf).window (ix2 p q) 1 : ℤ) = (q.val : ℤ) := by
  have hs : (rowScatter N E C wf).start (ix2 p q) idx 1 = 0 := by
    unfold ScatterDims.start
    rw [dif_neg (show (1 : Fin 2) ∉ ([0] : List (Fin 2)) by decide)]
  have hw : (rowScatter N E C wf).window (ix2 p q) 1 = q.val := by
    unfold ScatterDims.window
    rw [dif_pos (show (1 : Fin 2) ∈ Shape.kept (⟨2, ![N, C]⟩ : Shape) ([0] : List (Fin 2)) by simp [Shape.kept, List.mem_finRange])]
    rfl
  rw [hs, hw, Int.zero_add]

/-- Where an update element of a row scatter lands: element (p, q) lands on operand element (n, c) exactly when q = c
    and the destination word of row p, read signed, is n. -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (p : Fin E) (q : Fin C) (n : Fin N) (c : Fin C) :
    (rowScatter N E C wf).resultIdx? (ix2 p q) idx = some (ix2 n c)
      ↔ (q = c ∧ (idx (ix2 p (0 : Fin 1))).toInt = (n.val : ℤ)) := by
  have h0 := rowScatter_land0 wf idx p q
  have h1 := rowScatter_land1 wf idx p q
  unfold ScatterDims.resultIdx?
  split
  · rename_i h
    rw [Option.some.injEq]
    constructor
    · intro hf
      have e0 : ((rowScatter N E C wf).start (ix2 p q) idx 0 + ((rowScatter N E C wf).window (ix2 p q) 0 : ℤ)).toNat = n.val :=
        congrArg Fin.val (congrFun hf 0)
      have e1 : ((rowScatter N E C wf).start (ix2 p q) idx 1 + ((rowScatter N E C wf).window (ix2 p q) 1 : ℤ)).toNat = c.val :=
        congrArg Fin.val (congrFun hf 1)
      have p0 := (h 0).1
      rw [h0] at e0 p0
      rw [h1] at e1
      refine ⟨Fin.ext (by omega), by omega⟩
    · rintro ⟨hq, hn⟩
      funext a
      refine Fin.ext ?_
      match a with
      | ⟨0, _⟩ =>
        show ((rowScatter N E C wf).start (ix2 p q) idx 0 + ((rowScatter N E C wf).window (ix2 p q) 0 : ℤ)).toNat = n.val
        rw [h0, hn]; simp
      | ⟨1, _⟩ =>
        show ((rowScatter N E C wf).start (ix2 p q) idx 1 + ((rowScatter N E C wf).window (ix2 p q) 1 : ℤ)).toNat = c.val
        rw [h1, hq]; simp
  · rename_i h
    constructor
    · intro hf; exact absurd hf (by simp)
    · rintro ⟨hq, hn⟩
      exfalso
      apply h
      intro a
      match a with
      | ⟨0, _⟩ =>
        show 0 ≤ (rowScatter N E C wf).start (ix2 p q) idx 0 + ((rowScatter N E C wf).window (ix2 p q) 0 : ℤ)
          ∧ (rowScatter N E C wf).start (ix2 p q) idx 0 + ((rowScatter N E C wf).window (ix2 p q) 0 : ℤ) < (N : ℤ)
        rw [h0, hn]
        have := n.isLt
        omega
      | ⟨1, _⟩ =>
        show 0 ≤ (rowScatter N E C wf).start (ix2 p q) idx 1 + ((rowScatter N E C wf).window (ix2 p q) 1 : ℤ)
          ∧ (rowScatter N E C wf).start (ix2 p q) idx 1 + ((rowScatter N E C wf).window (ix2 p q) 1 : ℤ) < (C : ℤ)
        rw [h1]
        have := q.isLt
        omega

/-- THE ROW SCATTER-ADD READ AT (n, c): the operand's element plus the updates' column c summed over the rows sent to n. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : ℤ)),
          upd (ix2 e c) := by
  unfold Ideal.hostScatterAdd
  congr 1
  refine Finset.sum_nbij' (fun j => (j 0 : Fin E)) (fun e => ix2 e c) ?_ ?_ ?_ ?_ ?_
  · intro j hj
    obtain ⟨p, q, rfl⟩ : ∃ (p : Fin E) (q : Fin C), j = ix2 p q := ⟨j 0, j 1, eq_ix2 j⟩
    rw [Finset.mem_filter] at hj
    exact Finset.mem_filter.mpr ⟨Finset.mem_univ _, ((rowScatter_resultIdx?_eq_some_iff wf idx p q n c).mp hj.2).2⟩
  · intro e he
    rw [Finset.mem_filter] at he ⊢
    exact ⟨Finset.mem_univ _, (rowScatter_resultIdx?_eq_some_iff wf idx e c n c).mpr ⟨rfl, he.2⟩⟩
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl
  · intro e _
    rfl
  · intro j hj
    obtain ⟨p, q, rfl⟩ : ∃ (p : Fin E) (q : Fin C), j = ix2 p q := ⟨j 0, j 1, eq_ix2 j⟩
    rw [Finset.mem_filter] at hj
    obtain ⟨rfl, _⟩ := (rowScatter_resultIdx?_eq_some_iff wf idx p q n c).mp hj.2
    rfl

/-- The dimension numbers of a scatter into a vector: operand [N], scatter indices [E, 1], updates [E]. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A vector scatter's landing coordinate (start plus window) of update position p is the destination word of p read
    signed: the one operand axis is in the index map and is an inserted axis (window coordinate 0). -/
theorem vecScatter_land {N E w : Nat}
    (wf : ScatterDims.WF ⟨1, ![N]⟩ ⟨2, ![E, 1]⟩ ⟨1, ![E]⟩ [] [0] [0] 1)
    (idx : IVec ⟨2, ![E, 1]⟩ w) (p : Fin E) :
    (vecScatter N E wf).start (ix1 p) idx 0 + ((vecScatter N E wf).window (ix1 p) 0 : ℤ)
      = (idx (ix2 p (0 : Fin 1))).toInt := by
  have hw : (vecScatter N E wf).window (ix1 p) 0 = 0 := by
    unfold ScatterDims.window
    rw [dif_neg (show (0 : Fin 1) ∉ Shape.kept (⟨1, ![N]⟩ : Shape) ([0] : List (Fin 1)) by simp [Shape.kept])]
  rw [hw]
  unfold ScatterDims.start
  rw [dif_pos (show (0 : Fin 1) ∈ ([0] : List (Fin 1)) from List.mem_singleton.mpr rfl)]
  have hsi : (vecScatter N E wf).siIdx (ix1 p) ⟨List.idxOf (0 : Fin 1) (vecScatter N E wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  simp

/-- Where an update of a vector scatter lands: position p lands on operand element n exactly when the destination
    word of p, read signed, is n. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (p : Fin E) (n : Fin N) :
    (vecScatter N E wf).resultIdx? (ix1 p) idx = some (ix1 n)
      ↔ (idx (ix2 p (0 : Fin 1))).toInt = (n.val : ℤ) := by
  have h0 := vecScatter_land wf idx p
  unfold ScatterDims.resultIdx?
  split
  · rename_i h
    rw [Option.some.injEq]
    constructor
    · intro hf
      have e0 : ((vecScatter N E wf).start (ix1 p) idx 0 + ((vecScatter N E wf).window (ix1 p) 0 : ℤ)).toNat = n.val :=
        congrArg Fin.val (congrFun hf 0)
      have p0 := (h 0).1
      rw [h0] at e0 p0
      omega
    · intro hn
      funext a
      refine Fin.ext ?_
      match a with
      | ⟨0, _⟩ =>
        show ((vecScatter N E wf).start (ix1 p) idx 0 + ((vecScatter N E wf).window (ix1 p) 0 : ℤ)).toNat = n.val
        rw [h0, hn]; simp
  · rename_i h
    constructor
    · intro hf; exact absurd hf (by simp)
    · intro hn
      exfalso
      apply h
      intro a
      match a with
      | ⟨0, _⟩ =>
        show 0 ≤ (vecScatter N E wf).start (ix1 p) idx 0 + ((vecScatter N E wf).window (ix1 p) 0 : ℤ)
          ∧ (vecScatter N E wf).start (ix1 p) idx 0 + ((vecScatter N E wf).window (ix1 p) 0 : ℤ) < (N : ℤ)
        rw [h0, hn]
        have := n.isLt
        omega

/-- THE VECTOR SCATTER-ADD READ AT n: the operand's element plus the updates summed over the positions sent to n. -/
theorem vecScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e (0 : Fin 1))).toInt = (n.val : ℤ)),
          upd (ix1 e) := by
  unfold Ideal.hostScatterAdd
  congr 1
  refine Finset.sum_nbij' (fun j => (j 0 : Fin E)) (fun e => ix1 e) ?_ ?_ ?_ ?_ ?_
  · intro j hj
    obtain ⟨p, rfl⟩ : ∃ (p : Fin E), j = ix1 p := ⟨j 0, eq_ix1 j⟩
    rw [Finset.mem_filter] at hj
    exact Finset.mem_filter.mpr ⟨Finset.mem_univ _, (vecScatter_resultIdx?_eq_some_iff wf idx p n).mp hj.2⟩
  · intro e he
    rw [Finset.mem_filter] at he ⊢
    exact ⟨Finset.mem_univ _, (vecScatter_resultIdx?_eq_some_iff wf idx e n).mpr he.2⟩
  · intro j _
    exact (eq_ix1 j).symm
  · intro e _
    rfl
  · intro j _
    exact congrArg upd (eq_ix1 j)

end Idealize.ShloMosaic.RowOps

end
-- ==== Proof.KStage0.lean ====
/-
  The first host stretch: it cuts the edge array into its source and destination words, counts each node's
  incoming edges by an accumulating scatter of ones, clamps the count below at one and takes the reciprocal.
  It writes none of the arguments.  So after it the carried facts hold.
-/
import proofs.«425072_j22376779612323_3_alg».proof.Proof.KCarried
import proofs.«425072_j22376779612323_3_alg».proof.Proof.LibRowOps
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)
/-! ## The buffers the first stretch leaves alone -/

/-- The buffers the first stretch writes. -/
abbrev st0_wr : List (Ref sig .tc) :=
  [main_v0, main_v1, main_v2, main_v3, main_cst, main_v4, main_cst_0, main_v5, main_v6, main_v7, main_cst_1, main_v8,
    main_v9, main_cst_2, main_v10, main_v11, main_v12]

/-- A buffer the first stretch does not write keeps its contents. -/
theorem st0_keep (X : Valuation τ sig (Elt Ideal)) (r : Ref sig .tc) (hr : r ∉ st0_wr) :
    StableHlo.after (hostOps0 (F := Ideal)) X (Proc.devRef .tc r) = X (Proc.devRef .tc r) := by
  refine StableHlo.after_of_forall_not_mem (b := Proc.devRef .tc r) _ _ (List.forall_iff_forall_mem.mp ?_)
  simp only [hostOps0, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (fun e => hr (by rw [e]; decide))

/-! ## The words of the edges: a row of the edge array, flattened -/

/-- Row r of the two-row edge array as a vector of 1600000 words. -/
def st0_rowVec0 (ei : IVec S2x1600000 32) : IVec S1600000 32 :=
  shapeCast S1600000 (extractStridedSlice S1x1600000 ![0, 0] ei slices_S2x1600000_S1x1600000_0_0) shapeCasts_S1x1600000_S1600000
def st0_rowVec1 (ei : IVec S2x1600000 32) : IVec S1600000 32 :=
  shapeCast S1600000 (extractStridedSlice S1x1600000 ![1, 0] ei slices_S2x1600000_S1x1600000_1_0) shapeCasts_S1x1600000_S1600000

/-- Element e of the flattened row 0 is the edge array at (0, e). -/
theorem st0_rowVec0_apply (ei : IVec S2x1600000 32) (i : S1600000.Idx) :
    st0_rowVec0 ei i = ei (ix2 (0 : Fin 2) (i 0)) := by
  unfold st0_rowVec0
  generalize hy : extractStridedSlice S1x1600000 ![0, 0] ei slices_S2x1600000_S1x1600000_0_0 = y
  refine (shapeCast_apply y shapeCasts_S1x1600000_S1600000 i (ix2 (0 : Fin 1) (i 0)) ?_).trans ?_
  · rewrite [Shape.rowMajor_val_two, Shape.rowMajor_val_one]
    show 0 * 1600000 + (i 0).val = (i 0).val
    omega
  · subst hy
    exact extractStridedSlice_apply ![0, 0] ei slices_S2x1600000_S1x1600000_0_0 (ix2 (0 : Fin 1) (i 0))
      (ix2 (0 : Fin 2) (i 0)) (fun a => match a with
        | ⟨0, _⟩ => by show (0 : Nat) = 0 + 0; rfl
        | ⟨1, _⟩ => by show (i 0).val = 0 + (i 0).val; omega)

/-- Element e of the flattened row 1 is the edge array at (1, e). -/
theorem st0_rowVec1_apply (ei : IVec S2x1600000 32) (i : S1600000.Idx) :
    st0_rowVec1 ei i = ei (ix2 (1 : Fin 2) (i 0)) := by
  unfold st0_rowVec1
  generalize hy : extractStridedSlice S1x1600000 ![1, 0] ei slices_S2x1600000_S1x1600000_1_0 = y
  refine (shapeCast_apply y shapeCasts_S1x1600000_S1600000 i (ix2 (0 : Fin 1) (i 0)) ?_).trans ?_
  · rewrite [Shape.rowMajor_val_two, Shape.rowMajor_val_one]
    show 0 * 1600000 + (i 0).val = (i 0).val
    omega
  · subst hy
    exact extractStridedSlice_apply ![1, 0] ei slices_S2x1600000_S1x1600000_1_0 (ix2 (0 : Fin 1) (i 0))
      (ix2 (1 : Fin 2) (i 0)) (fun a => match a with
        | ⟨0, _⟩ => by show (1 : Nat) = 1 + 0; rfl
        | ⟨1, _⟩ => by show (i 0).val = 0 + (i 0).val; omega)

/-! ## The reciprocal-divisor column -/

/-- The accumulating scatter into a vector read at node n: the operand's element plus the updates of the edges whose
    destination word, read signed, is n. -/
theorem st0_vecScatterAdd_apply (x : FVec Ideal S100000 .f32) (idx : IVec S1600000x1 32) (upd : FVec Ideal S1600000 .f32)
    (n : Fin 100000) :
    Host.scatterAdd (F := Ideal) scatter_S100000_S1600000x1_S1600000_n_0_0_1 x idx upd (ix1 n)
      = x (ix1 n) + ∑ e ∈ Finset.univ.filter (fun e : Fin 1600000 => (idx (ix2 e (0 : Fin 1))).toInt = (n.val : ℤ)),
          upd (ix1 e) := by
  have hd : scatter_S100000_S1600000x1_S1600000_n_0_0_1
      = RowOps.vecScatter 100000 1600000 scatter_S100000_S1600000x1_S1600000_n_0_0_1_wf := rfl
  unfold Host.scatterAdd
  rw [Ideal.hostScatterAdd_def, hd]
  exact RowOps.vecScatterAdd_apply _ x idx upd n

/-- The count of incoming edges per node: ones scattered, accumulating, by the destination words into zeros. -/
def st0_cnt (dv : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dv)
    (broadcastInDim S1600000 ![] bcast_S_S1600000 (constant (F := Ideal) S_ .f32 0x3F800000#32))

/-- One over the count clamped below at one. -/
def st0_rdiv (dv : IVec S1600000 32) : FVec Ideal S100000 .f32 :=
  Host.divf (F := Ideal)
    (broadcastInDim S100000 ![] bcast_S_S100000 (constant (F := Ideal) S_ .f32 0x3F800000#32))
    (maximumf (st0_cnt dv)
      (broadcastInDim S100000 ![] bcast_S_S100000 (constant (F := Ideal) S_ .f32 0x3F800000#32)))

/-- A vector laid out as a one-column table reads, at (e, 0), the vector at e. -/
theorem st0_col_apply (dv : IVec S1600000 32) (e : Fin 1600000) :
    broadcastInDim S1600000x1 ![0] bcast_S1600000_S1600000x1_0 dv (ix2 e (0 : Fin 1)) = dv (ix1 e) :=
  broadcastInDim_apply _ bcast_S1600000_S1600000x1_0 dv (ix2 e (0 : Fin 1)) (ix1 e) (fun a => match a with
    | ⟨0, _⟩ => by
      show e.val = if (1600000 : Nat) = 1 then 0 else e.val
      rw [if_neg (by decide)])

/-- The count at node n is the node's degree. -/
theorem st0_cnt_apply (dv : IVec S1600000 32) (n : Fin 100000) :
    st0_cnt dv (ix1 n) = deg (fun e => dv (ix1 e)) n := by
  unfold st0_cnt
  rw [st0_vecScatterAdd_apply, broadcastInDim_scalar_apply, constant_apply, Ideal.ofBits_zero_f32, zero_add]
  unfold deg inEdges
  refine Finset.sum_congr (Finset.filter_congr fun e _ => by rw [st0_col_apply]) fun e _ => ?_
  rw [broadcastInDim_scalar_apply, constant_apply, Cert.Sage.ofBits_one]

/-- The reciprocal at node n is one over the node's divisor. -/
theorem st0_rdiv_apply (dv : IVec S1600000 32) (n : Fin 100000) :
    st0_rdiv dv (ix1 n) = Ideal.div 1 (dmax (fun e => dv (ix1 e)) n) := by
  unfold st0_rdiv
  rw [hostDivf_apply, maximumf_apply, st0_cnt_apply, broadcastInDim_scalar_apply, constant_apply, Cert.Sage.ofBits_one]
  rfl

/-- The reciprocals as a one-column table read, at (n, 0), the reciprocal at n. -/
theorem st0_rdivCol_apply (y : FVec Ideal S100000 .f32) (n : Fin 100000) (z : Fin 1) :
    shapeCast S100000x1 y shapeCasts_S100000_S100000x1 (ix2 n z) = y (ix1 n) := by
  refine shapeCast_apply y shapeCasts_S100000_S100000x1 (ix2 n z) (ix1 n) ?_
  rewrite [Shape.rowMajor_val_two, Shape.rowMajor_val_one]
  have h1 : z.val < 1 := z.isLt
  show n.val = n.val * 1 + z.val
  omega

/-! ## What the first stretch writes, as terms of the launch contents -/

theorem st0_v1_term (X : Valuation τ sig (Elt Ideal)) :
    (StableHlo.after (hostOps0 (F := Ideal)) X (Proc.devRef .tc main_v1) : IVec S1600000 32)
      = st0_rowVec0 (X (Proc.devRef .tc main_arg1)) := by
  after_results
  rfl

theorem st0_v3_term (X : Valuation τ sig (Elt Ideal)) :
    (StableHlo.after (hostOps0 (F := Ideal)) X (Proc.devRef .tc main_v3) : IVec S1600000 32)
      = st0_rowVec1 (X (Proc.devRef .tc main_arg1)) := by
  after_results
  rfl

theorem st0_v12_term (X : Valuation τ sig (Elt Ideal)) :
    (StableHlo.after (hostOps0 (F := Ideal)) X (Proc.devRef .tc main_v12) : FVec Ideal S100000x1 .f32)
      = shapeCast S100000x1 (st0_rdiv (st0_rowVec1 (X (Proc.devRef .tc main_arg1)))) shapeCasts_S100000_S100000x1 := by
  after_results
  rfl

/-- After the first host stretch the carried facts hold. -/
theorem carried_W1 (c : Dev nD) : Carried m (Vof (W1 (F := Ideal) m ρ)) c where
  arg0 := st0_keep _ main_arg0 (by decide)
  ei := st0_keep _ main_arg1 (by decide)
  arg2 := st0_keep _ main_arg2 (by decide)
  arg3 := st0_keep _ main_arg3 (by decide)
  arg4 := st0_keep _ main_arg4 (by decide)
  arg5 := st0_keep _ main_arg5 (by decide)
  arg6 := st0_keep _ main_arg6 (by decide)
  arg7 := st0_keep _ main_arg7 (by decide)
  arg8 := st0_keep _ main_arg8 (by decide)
  arg9 := st0_keep _ main_arg9 (by decide)
  arg10 := st0_keep _ main_arg10 (by decide)
  src := by
    refine (st0_v1_term (W0 m ρ c)).trans ?_
    funext i
    exact st0_rowVec0_apply _ i
  dst := by
    refine (st0_v3_term (W0 m ρ c)).trans ?_
    funext i
    exact st0_rowVec1_apply _ i
  rdiv := by
    refine (st0_v12_term (W0 m ρ c)).trans ?_
    funext i
    obtain ⟨n, z, rfl⟩ : ∃ (n : Fin 100000) (z : Fin 1), i = ix2 n z := ⟨i 0, i 1, eq_ix2 i⟩
    rw [st0_rdivCol_apply, st0_rdiv_apply]
    refine congrArg (fun d => Ideal.div 1 (dmax d n)) ?_
    funext e
    exact st0_rowVec1_apply _ (ix1 e)

end Cert.KernelIdeal.SageK

end
-- ==== Proof.KReg0.lean ====
/-
  The first layer's tile kernel, read as a value.  Grid point t of 25 takes rows 4000 t … 4000 t + 3999 of the
  aggregated table, of the node table and of the reciprocal-divisor column, and the two whole 64 x 64 matrices
  and the bias row; it stores, for row r and column j of its tile,
      max ( sum_k (agg[r,k] · rdiv[r]) · Wl[k,j]  +  sum_k x[r,k] · Wr[k,j]  +  b[j] , 0 ).
  The tiles partition the rows, so the output array after the 25 points is that formula at every (n, j).
-/
import proofs.«425072_j22376779612323_3_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-- Region 0's output array after its 25 grid points. -/
abbrev r0_out (V : Entry) (c : Dev nD) : S100000x64.Idx → EReal := (dat0 (F := Ideal) V c).arrAt 6 cfg0.N

namespace Reg0

/-- A column [a,1] broadcast to [a,b] reads, at (p, c), the column's entry of row p. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis -/

theorem lhs_dot_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_dot_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_dot_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_dot_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The tile's matrix product into a zero accumulator, at row r and column j: the sum over the 64 inner positions. -/
theorem tile_matmul_apply (lhs : FVec Ideal S4000x64 .bf16) (rhs : FVec Ideal S64x64 .bf16) (r : Fin 4000) (j : Fin 64) :
    matmul dot_S4000x64_S64x64_S4000x64_1_0_0_1_n_n none lhs rhs (constant (F := Ideal) S4000x64 .f32 0x00000000#32) (ix2 r j)
      = ∑ k : Fin 64, lhs (ix2 r k) * rhs (ix2 k j) := by
  show FloatOps.matmul dot_S4000x64_S64x64_S4000x64_1_0_0_1_n_n none lhs rhs (constant (F := Ideal) S4000x64 .f32 0x00000000#32) (ix2 r j) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 r j) ((ValueIdx.contrEquiv1 dot_S4000x64_S64x64_S4000x64_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S4000x64_S64x64_S4000x64_1_0_0_1_n_n.rhsIdx (ix2 r j) ((ValueIdx.contrEquiv1 dot_S4000x64_S64x64_S4000x64_1_0_0_1_n_n 64 rfl rfl).symm k) = ix2 k j := funext fun a => Fin.ext (by
    match a with
    | ⟨0, _⟩ => exact (rhs_dot_0 _ _).trans hk
    | ⟨1, _⟩ => exact rhs_dot_1 _ _)
  rw [el, er]

/-- The tile's stored value at row r and column j, from the loaded blocks. -/
theorem tile0_apply (x0 : Vec Ideal S4000x64 .f32) (x5 : Vec Ideal S4000x1 .f32) (x1 : Vec Ideal S4000x64 .f32)
    (x2 : Vec Ideal S64x64 .bf16) (x3 : Vec Ideal S64x64 .bf16) (x4 : Vec Ideal S1x64 .f32) (r : Fin 4000) (j : Fin 64) :
    k0_pay1 (F := Ideal) x0 x5 x1 x2 x3 x4 (ix2 r j)
      = max ((∑ k : Fin 64, (x0 (ix2 r k) * x5 (ix2 r (0 : Fin 1))) * x2 (ix2 k j))
            + (∑ k : Fin 64, x1 (ix2 r k) * x3 (ix2 k j))
            + x4 (ix2 (0 : Fin 1) j)) 0 := by
  unfold k0_pay1
  simp only [shapeCast_self]
  rw [maximumf_apply, addf_apply, addf_apply, tile_matmul_apply, tile_matmul_apply, broadcast_apply, broadcastTo_1b_ab_apply]
  simp only [truncf_apply, mulf_apply, bcast_col_apply]
  show max _ (Ideal.ofBits .f32 0x00000000#32) = _
  rw [Ideal.ofBits_zero_f32]

theorem zero_offsets : (![0, 0] : Fin 2 → Nat) = fun _ => 0 := funext fun a => by fin_cases a <;> rfl

/-- The layer's formula at row n and column j of the arrays the region is entered with. -/
def layerAt (V : Entry) (c : Dev nD) (n : Fin 100000) (j : Fin 64) : EReal :=
  max ((∑ k : Fin 64, (a_v16 V c (ix2 n k) * a_v12 V c (ix2 n (0 : Fin 1))) * a_v18 V c (ix2 k j))
        + (∑ k : Fin 64, a_arg0 V c (ix2 n k) * a_v19 V c (ix2 k j))
        + a_v17 V c (ix2 (0 : Fin 1) j)) 0

/-- The whole output array the tiles are blocks of. -/
def layerArr (V : Entry) (c : Dev nD) : S100000x64.Idx → EReal := fun i => layerAt V c (i 0) (i 1)

/-- The block index maps over the 25 grid points: the three row-tiled inputs and the output sit at block row t,
    block column 0; the two matrices and the bias row are their arrays' one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The aggregated table's block at point t: row r of the block is row 4000 t + r of the array. -/
theorem blk_agg (V : Entry) (c : Dev nD) (t : Fin cfg0.N) (r : Fin 4000) (k : Fin 64) (n : Fin 100000)
    (hn : n.val = t.val * 4000 + r.val) :
    (iblk0 (F := Ideal) V c 0 t : Vec Ideal S4000x64 .f32) (ix2 r k) = a_v16 V c (ix2 n k) := by
  obtain ⟨e00, e01, -⟩ := idx_facts t
  show V c main_v16 (((cfg0.win 0).blk t).view.emb (ix2 r k)) = V c main_v16 (ix2 n k)
  refine congrArg (V c main_v16) (funext fun a => Fin.ext ?_)
  match a with
  | ⟨0, _⟩ => show win0_0.index t (0 : Fin 2) * 4000 + 1 * r.val = n.val; omega
  | ⟨1, _⟩ => show win0_0.index t (1 : Fin 2) * 64 + 1 * k.val = k.val; omega

/-- The node table's block at point t: row r of the block is row 4000 t + r of the array. -/
theorem blk_x (V : Entry) (c : Dev nD) (t : Fin cfg0.N) (r : Fin 4000) (k : Fin 64) (n : Fin 100000)
    (hn : n.val = t.val * 4000 + r.val) :
    (iblk0 (F := Ideal) V c 1 t : Vec Ideal S4000x64 .f32) (ix2 r k) = a_arg0 V c (ix2 n k) := by
  obtain ⟨-, -, e10, e11, -⟩ := idx_facts t
  show V c main_arg0 (((cfg0.win 1).blk t).view.emb (ix2 r k)) = V c main_arg0 (ix2 n k)
  refine congrArg (V c main_arg0) (funext fun a => Fin.ext ?_)
  match a with
  | ⟨0, _⟩ => show win0_1.index t (0 : Fin 2) * 4000 + 1 * r.val = n.val; omega
  | ⟨1, _⟩ => show win0_1.index t (1 : Fin 2) * 64 + 1 * k.val = k.val; omega

/-- The left matrix's block at every point is the whole matrix. -/
theorem blk_wl (V : Entry) (c : Dev nD) (t : Fin cfg0.N) (k : Fin 64) (j : Fin 64) :
    (iblk0 (F := Ideal) V c 2 t : Vec Ideal S64x64 .bf16) (ix2 k j) = a_v18 V c (ix2 k j) := by
  obtain ⟨-, -, -, -, e20, e21, -⟩ := idx_facts t
  show V c main_v18 (((cfg0.win 2).blk t).view.emb (ix2 k j)) = V c main_v18 (ix2 k j)
  refine congrArg (V c main_v18) (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- The right matrix's block at every point is the whole matrix. -/
theorem blk_wr (V : Entry) (c : Dev nD) (t : Fin cfg0.N) (k : Fin 64) (j : Fin 64) :
    (iblk0 (F := Ideal) V c 3 t : Vec Ideal S64x64 .bf16) (ix2 k j) = a_v19 V c (ix2 k j) := by
  obtain ⟨-, -, -, -, -, -, e30, e31, -⟩ := idx_facts t
  show V c main_v19 (((cfg0.win 3).blk t).view.emb (ix2 k j)) = V c main_v19 (ix2 k j)
  refine congrArg (V c main_v19) (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- The bias row's block at every point is the whole row. -/
theorem blk_b (V : Entry) (c : Dev nD) (t : Fin cfg0.N) (j : Fin 64) :
    (iblk0 (F := Ideal) V c 4 t : Vec Ideal S1x64 .f32) (ix2 (0 : Fin 1) j) = a_v17 V c (ix2 (0 : Fin 1) j) := by
  obtain ⟨-, -, -, -, -, -, -, -, e40, e41, -⟩ := idx_facts t
  show V c main_v17 (((cfg0.win 4).blk t).view.emb (ix2 (0 : Fin 1) j)) = V c main_v17 (ix2 (0 : Fin 1) j)
  refine congrArg (V c main_v17) (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 64 + 1 * j.val = j.val; omega

/-- The reciprocal-divisor column's block at point t: row r of the block is row 4000 t + r of the column. -/
theorem blk_rdiv (V : Entry) (c : Dev nD) (t : Fin cfg0.N) (r : Fin 4000) (n : Fin 100000)
    (hn : n.val = t.val * 4000 + r.val) :
    (iblk0 (F := Ideal) V c 5 t : Vec Ideal S4000x1 .f32) (ix2 r (0 : Fin 1)) = a_v12 V c (ix2 n (0 : Fin 1)) := by
  obtain ⟨-, -, -, -, -, -, -, -, -, -, e50, e51, -⟩ := idx_facts t
  show V c main_v12 (((cfg0.win 5).blk t).view.emb (ix2 r (0 : Fin 1))) = V c main_v12 (ix2 n (0 : Fin 1))
  refine congrArg (V c main_v12) (funext fun a => Fin.ext ?_)
  match a with
  | ⟨0, _⟩ => show win0_5.index t (0 : Fin 2) * 4000 + 1 * r.val = n.val; omega
  | ⟨1, _⟩ => show win0_5.index t (1 : Fin 2) * 1 + 1 * (0 : Fin 1).val = (0 : Fin 1).val; omega

/-- What grid point t writes back is block t of the layer's formula on the whole arrays. -/
theorem flushed_eq (V : Entry) (c : Dev nD) (t : Fin cfg0.N) :
    (dat0 (F := Ideal) V c).flushed 6 t = ((cfg0.win 6).blk t).view.read (Elt Ideal) (layerArr V c) := by
  show (cfg0.win 6).cut (grid0.coords t) ((dat0 (F := Ideal) V c).after 6 t) = _
  rw [after0_6]
  unfold out0_6
  rw [View.canon_unit_zero zero_offsets]
  simp only [View.ld_unit_zero (S := S4000x64) zero_offsets, View.ld_unit_zero (S := S4000x1) zero_offsets, View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  obtain ⟨-, -, -, -, -, -, -, -, -, -, -, -, e60, e61⟩ := idx_facts t
  have ht : t.val < 25 := t.isLt
  have hr : r.val < 4000 := r.isLt
  obtain ⟨n, hn⟩ : ∃ n : Fin 100000, n.val = t.val * 4000 + r.val := ⟨⟨t.val * 4000 + r.val, by omega⟩, rfl⟩
  have hemb : ((cfg0.win 6).blk t).view.emb (ix2 r j) = ix2 n j := by
    funext a; apply Fin.ext
    match a with
    | ⟨0, _⟩ => show win0_6.index t (0 : Fin 2) * 4000 + 1 * r.val = n.val; omega
    | ⟨1, _⟩ => show win0_6.index t (1 : Fin 2) * 64 + 1 * j.val = j.val; omega
  show k0_pay1 (F := Ideal) (iblk0 V c 0 t) (iblk0 V c 5 t) (iblk0 V c 1 t) (iblk0 V c 2 t) (iblk0 V c 3 t) (iblk0 V c 4 t) (ix2 r j)
      = layerArr V c (((cfg0.win 6).blk t).view.emb (ix2 r j))
  rw [hemb]
  refine (tile0_apply (iblk0 V c 0 t) (iblk0 V c 5 t) (iblk0 V c 1 t) (iblk0 V c 2 t) (iblk0 V c 3 t) (iblk0 V c 4 t) r j).trans ?_
  show _ = layerAt V c n j
  unfold layerAt
  refine congrArg₂ max (congrArg₂ (· + ·) (congrArg₂ (· + ·) (Finset.sum_congr rfl fun k _ => ?_) (Finset.sum_congr rfl fun k _ => ?_)) ?_) rfl
  · rw [blk_agg V c t r k n hn, blk_rdiv V c t r n hn, blk_wl V c t k j]
  · rw [blk_x V c t r k n hn, blk_wr V c t k j]
  · exact blk_b V c t j

/-- An index of the output array is in point t's block iff each coordinate is in the block's range on its axis. -/
theorem mem_blk (t : Fin cfg0.N) (i : S100000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v20).slice (win0_6.rect t)).set ↔ _
  rw [View.set_slice_whole, Rect.mem_set_unit]
  exact Iff.rfl

/-- The 25 tiles cover the rows: row n is in the tile of point n / 4000. -/
theorem covered (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : grid0.N = 25 := N_0
  obtain ⟨t, ht⟩ : ∃ t : Fin cfg0.N, t.val = (i 0).val / 4000 :=
    ⟨⟨(i 0).val / 4000, by show (i 0).val / 4000 < grid0.N; rw [hN]; omega⟩, rfl⟩
  obtain ⟨-, -, -, -, -, -, -, -, -, -, -, -, e60, e61⟩ := idx_facts t
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 64 ≤ (i 1).val ∧ (i 1).val < win0_6.index t (1 : Fin 2) * 64 + 64; omega

/-- The output array after the 25 points is the layer's formula everywhere. -/
theorem final (V : Entry) (c : Dev nD) : (dat0 (F := Ideal) V c).arrAt 6 cfg0.N = layerArr V c :=
  (dat0 (F := Ideal) V c).arrAt_eq_of_cover 6 (layerArr V c) (fun t _ => flushed_eq V c t) covered

end Reg0

/-- REGION 0's output array at row n and column j, from the arrays the region is entered with. -/
theorem reg0_value (V : Entry) (c : Dev nD) (n : Fin 100000) (j : Fin 64) :
    r0_out V c (ix2 n j)
      = max ((∑ k : Fin 64, (a_v16 V c (ix2 n k) * a_v12 V c (ix2 n (0 : Fin 1))) * a_v18 V c (ix2 k j))
            + (∑ k : Fin 64, a_arg0 V c (ix2 n k) * a_v19 V c (ix2 k j))
            + a_v17 V c (ix2 (0 : Fin 1) j)) 0 :=
  congrFun (Reg0.final V c) (ix2 n j)

end Cert.KernelIdeal.SageK

end
-- ==== Proof.KTake.lean ====
/-
  The take-and-aggregate step of the tiled program, as a value.  The program reads the rows of a node table named
  by the edges' source words: a negative word is wrapped once by the number of nodes; the wrapped word is tested
  against [0, 99999]; the row it names (clamped) is gathered; where the test fails the row is replaced by a fill
  value.  Then the taken rows are summed into the nodes named by the destination words.  When every source word w
  has -100000 <= w < 100000 the wrapped word passes the test, so the taken rows are the gathered rows, and the sum
  is the aggregation of the table over each node's incoming edges.  Stated for tables of 64 and of 40 columns.
-/
import proofs.«425072_j22376779612323_3_alg».proof.Proof.KArr
import proofs.«425072_j22376779612323_3_alg».proof.Proof.LibRowOps
import Idealize.ShloMosaic.Lib.ReduceAll
import Idealize.ShloMosaic.Lib.StableHlo.Predicate
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-! ## Reading the pieces at an index -/

/-- A vector laid along the rows of a rectangle reads, at (e, k), the vector at e. -/
theorem rows_apply {α : Type} {C : Nat} (h : S1600000.BroadcastsInDim ⟨2, ![1600000, C]⟩ ![0])
    (v : S1600000.Idx → α) (e : Fin NE) (k : Fin C) :
    broadcastInDim ⟨2, ![1600000, C]⟩ ![0] h v (ix2 e k) = v (ix1 e) :=
  broadcastInDim_apply _ h v (ix2 e k) (ix1 e) (fun a => match a with
    | ⟨0, _⟩ => by show e.val = if (1600000 : Nat) = 1 then 0 else e.val; rw [if_neg (by decide)])

/-- The wrapped word of edge e: the source word, plus the number of nodes when it is negative. -/
theorem wrapV_apply (s : IVec S1600000 32) (h : S_.BroadcastsInDim S1600000 ![]) (hu : 0 < S_.numel) (e : Fin NE) :
    select (cmpi .slt s (broadcastInDim S1600000 ![] h (constantI S_ 32 0#32)))
      (addi s (broadcastInDim S1600000 ![] h (constantI S_ 32 100000#32))) s (ix1 e) = wrapW (s (ix1 e)) := by
  have h0 := StableHlo.Predicate.bcast_scalar h hu (constantI S_ 32 0#32) (ix1 e)
  have h1 := StableHlo.Predicate.bcast_scalar h hu (constantI S_ 32 100000#32) (ix1 e)
  generalize broadcastInDim S1600000 ![] h (constantI S_ 32 0#32) = b0 at h0
  generalize broadcastInDim S1600000 ![] h (constantI S_ 32 100000#32) = b1 at h1
  show Scalar.select (IntOp.cmpi .slt (s (ix1 e)) (b0 (ix1 e))) (IntOp.addi (s (ix1 e)) (b1 (ix1 e))) (s (ix1 e)) = _
  rw [h0, h1]
  rfl

/-- A word w with -100000 ≤ w < 100000, wrapped once when negative, lies in [0, 99999]. -/
theorem wrapW_range (w : BitVec 32) (h1 : -100000 ≤ w.toInt) (h2 : w.toInt < 100000) :
    0 ≤ (wrapW w).toInt ∧ (wrapW w).toInt ≤ 99999 := by
  unfold wrapW
  have z0 : (0#32 : BitVec 32).toInt = 0 := by decide
  have z1 : (100000#32 : BitVec 32).toInt = 100000 := by decide
  by_cases hneg : w.toInt < 0
  · have hc : IntOp.cmpi .slt w 0#32 = 1#1 := IntOp.cmpi_slt.2 (by rw [z0]; exact hneg)
    rw [hc, select_one]
    have ha : (IntOp.addi w 100000#32).toInt = w.toInt + 100000 := by
      show (w + 100000#32).toInt = _
      rw [BitVec.toInt_add, z1]
      exact Int.bmod_eq_of_le (by omega) (by omega)
    rw [ha]
    omega
  · have hc : IntOp.cmpi .slt w 0#32 = 0#1 := eq_zero_of_ne_one (fun h => hneg (by have := IntOp.cmpi_slt.1 h; rwa [z0] at this))
    rw [hc, select_zero]
    omega

/-- A conjunction folded from 1 over entries that are all 1 is 1. -/
theorem foldl_andi_one {ι : Type} (f : ι → BitVec 1) (hf : ∀ i, f i = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_one f hf l

/-- A reduction by conjunction, from 1, of an array whose entries are all 1 is 1 everywhere. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x hx _

/-- The range test passes at every edge when every tested word lies in [0, 99999]. -/
theorem ok_one (idx : IVec S1600000x1 32)
    (hidx : ∀ (e : Fin NE) (z : Fin 1), 0 ≤ (idx (ix2 e z)).toInt ∧ (idx (ix2 e z)).toInt ≤ 99999)
    (hb0 : S_.BroadcastsInDim S1600000x1 ![]) (hb1 : S1.BroadcastsInDim S1x1 ![1])
    (hb2 : S1x1.BroadcastsInDim S1600000x1 ![0, 1])
    (hr : S1600000x1.ReducesTo [1] S1600000) (hu : 0 < S_.numel) (j : S1600000.Idx) :
    Host.reduce IntOp.andi
      (andi (cmpi .sge idx (broadcastInDim S1600000x1 ![] hb0 (constantI S_ 32 0#32)))
            (cmpi .sle idx (broadcastInDim S1600000x1 ![0, 1] hb2
              (broadcastInDim S1x1 ![1] hb1 (constantI S1 32 99999#32)))))
      (constantI S_ 1 1#1) hr hu j = 1#1 := by
  refine reduce_andi_one _ _ hr hu j rfl (fun i => ?_)
  obtain ⟨e, z, rfl⟩ : ∃ (e : Fin NE) (z : Fin 1), i = ix2 e z := ⟨i 0, i 1, eq_ix2 i⟩
  obtain ⟨h0, h9⟩ := hidx e z
  have z0 : (0#32 : BitVec 32).toInt = 0 := by decide
  have z9 : (99999#32 : BitVec 32).toInt = 99999 := by decide
  have c1 : IntOp.cmpi .sge (idx (ix2 e z)) 0#32 = 1#1 := IntOp.cmpi_sge.2 (by rw [z0]; exact h0)
  have c2 : IntOp.cmpi .sle (idx (ix2 e z)) 99999#32 = 1#1 := IntOp.cmpi_sle.2 (by rw [z9]; exact h9)
  exact IntOp.andi_eq_one.2 ⟨c1, c2⟩

/-! ## The take stretch and the scatter stretch, for a table of any width -/

/-- THE TAKE: when the index column holds the wrapped source words and these are in range, the selected row of
    edge e is the table's row at the edge's source row. -/
theorem take_full {C : Nat} (x : FVec Ideal ⟨2, ![100000, C]⟩ .f32) (s : IVec S1600000 32)
    (hs : SrcInRange (fun e => s (ix1 e)))
    (idx : IVec S1600000x1 32) (hidx : ∀ (e : Fin NE) (z : Fin 1), idx (ix2 e z) = wrapW (s (ix1 e)))
    (hb : S1600000.BroadcastsInDim ⟨2, ![1600000, C]⟩ ![0])
    (hb0 : S_.BroadcastsInDim S1600000x1 ![]) (hb1 : S1.BroadcastsInDim S1x1 ![1])
    (hb2 : S1x1.BroadcastsInDim S1600000x1 ![0, 1])
    (hr : S1600000x1.ReducesTo [1] S1600000) (hu : 0 < S_.numel)
    (wf : GatherDims.WF ⟨2, ![100000, C]⟩ ⟨2, ![1600000, 1]⟩ ⟨2, ![1600000, C]⟩ [1] [0] [] [0] [] 1 ![1, C])
    (fill : FVec Ideal ⟨2, ![1600000, C]⟩ .f32) (e : Fin NE) (k : Fin C) :
    select (broadcastInDim ⟨2, ![1600000, C]⟩ ![0] hb
        (Host.reduce IntOp.andi
          (andi (cmpi .sge idx (broadcastInDim S1600000x1 ![] hb0 (constantI S_ 32 0#32)))
                (cmpi .sle idx (broadcastInDim S1600000x1 ![0, 1] hb2
                  (broadcastInDim S1x1 ![1] hb1 (constantI S1 32 99999#32)))))
          (constantI S_ 1 1#1) hr hu))
      (Host.gather (RowOps.rowGather 100000 1600000 C wf) x idx) fill (ix2 e k)
      = x (ix2 (srcRow (fun e => s (ix1 e)) e) k) := by
  have hok := ok_one idx (fun e z => by rw [hidx e z]; exact wrapW_range _ (hs e).1 (hs e).2) hb0 hb1 hb2 hr hu (ix1 e)
  rw [select_apply, rows_apply hb _ e k, hok, select_one]
  refine (RowOps.rowGather_apply (by decide) wf x idx e k).trans ?_
  refine congrArg (fun r : Fin 100000 => x (ix2 r k)) (Fin.ext ?_)
  show min (idx (ix2 e (0 : Fin 1))).toInt.toNat (100000 - 1) = min (wrapW (s (ix1 e))).toInt.toNat 99999
  rw [hidx]

/-- The host's accumulating scatter, at the extended reals, is the sum it names. -/
theorem scatterAdd_ideal {s si su : Shape} (d : ScatterDims s si su) {w : Nat} (v : FVec Ideal s .f32) (idx : IVec si w)
    (upd : FVec Ideal su .f32) : Host.scatterAdd d v idx upd = Ideal.hostScatterAdd d v idx upd := rfl

/-- The aggregation read at (n, k): the table's column k summed over the source rows of the edges that feed n. -/
theorem aggr_read {C : Nat} (src dst : Fin NE → BitVec 32) (x : FVec Ideal ⟨2, ![100000, C]⟩ .f32) (n : Fin NN) (k : Fin C) :
    arr2 (aggr src dst (cur2 x)) (ix2 n k)
      = ∑ e ∈ Finset.univ.filter (fun e : Fin NE => (dst e).toInt = (n.val : ℤ)), x (ix2 (srcRow src e) k) := rfl

/-- The array of zeros reads zero everywhere. -/
theorem zeros_apply {t : Shape} (hb : S_.BroadcastsInDim t ![]) (hu : 0 < S_.numel) (j : t.Idx) :
    broadcastInDim t ![] hb (constant (F := Ideal) S_ .f32 0x00000000#32) j = (0 : EReal) :=
  (StableHlo.Predicate.bcast_scalar hb hu _ _).trans Ideal.ofBits_zero_f32

/-- THE SCATTER-ADD of rows that are the table's rows at the edges' source rows, into zeros, by the destination
    words: the aggregation of the table over each node's incoming edges. -/
theorem agg_full {C : Nat} (tk : FVec Ideal ⟨2, ![1600000, C]⟩ .f32) (x : FVec Ideal ⟨2, ![100000, C]⟩ .f32)
    (s d : IVec S1600000 32)
    (htk : ∀ (e : Fin NE) (k : Fin C), tk (ix2 e k) = x (ix2 (srcRow (fun e => s (ix1 e)) e) k))
    (hb : S_.BroadcastsInDim ⟨2, ![100000, C]⟩ ![]) (hu : 0 < S_.numel)
    (hc : S1600000.BroadcastsInDim S1600000x1 ![0])
    (wf : ScatterDims.WF ⟨2, ![100000, C]⟩ ⟨2, ![1600000, 1]⟩ ⟨2, ![1600000, C]⟩ [1] [0] [0] 1) :
    Host.scatterAdd (RowOps.rowScatter 100000 1600000 C wf)
      (broadcastInDim ⟨2, ![100000, C]⟩ ![] hb (constant S_ .f32 0x00000000#32))
      (broadcastInDim S1600000x1 ![0] hc d) tk
    = arr2 (aggr (fun e => s (ix1 e)) (fun e => d (ix1 e)) (cur2 x)) := by
  funext i
  obtain ⟨n, k, rfl⟩ : ∃ (n : Fin NN) (k : Fin C), i = ix2 n k := ⟨i 0, i 1, eq_ix2 i⟩
  rw [scatterAdd_ideal, aggr_read, RowOps.rowScatterAdd_apply, zeros_apply hb hu, zero_add]
  refine Finset.sum_congr (Finset.filter_congr (fun e _ => ?_)) (fun e _ => htk e k)
  rw [rows_apply (C := 1) hc d e 0]

/-- The rows the program takes from a table of 64 columns for given source words: the words wrapped once when
    negative, the wrapped words tested against the table's row range, the named rows gathered, and a row whose
    test fails replaced by the fill value — the program's take stretch as one term of the table and the words. -/
def takeK64 (x : FVec Ideal S100000x64 .f32) (s : IVec S1600000 32) : FVec Ideal S1600000x64 .f32 :=
  let idx : IVec S1600000x1 32 := broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
  select
    (broadcastInDim S1600000x64 ![0] bcast_S1600000_S1600000x64_0
      (Host.reduce IntOp.andi
        (andi (cmpi .sge idx (broadcastInDim S1600000x1 ![] bcast_S_S1600000x1 (constantI S_ 32 0#32)))
              (cmpi .sle idx (broadcastInDim S1600000x1 ![0, 1] bcast_S1x1_S1600000x1_0_1
                (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x idx)
    (broadcastInDim S1600000x64 ![] bcast_S_S1600000x64 (constant S_ .f32 0x7FC00000#32))

/-- When every source word names a row (directly or after one wrap) no row is replaced: the taken row of edge e
    is the table's row at the edge's source row. -/
theorem takeK64_apply (x : FVec Ideal S100000x64 .f32) (s : IVec S1600000 32)
    (hs : SrcInRange (fun e => s (ix1 e))) (e : Fin NE) (k : Fin 64) :
    takeK64 x s (ix2 e k) = x (ix2 (srcRow (fun e => s (ix1 e)) e) k) := by
  unfold takeK64
  dsimp only
  refine take_full x s hs _ (fun e z => ?_) bcast_S1600000_S1600000x64_0 bcast_S_S1600000x1 bcast_S1_S1x1_1
    bcast_S1x1_S1600000x1_0_1 reducesTo_S1600000x1_S1600000_d1 h_S_
    gather_S100000x64_S1600000x1_S1600000x64_1_0_n_n_0_1_164_wf _ e k
  exact (rows_apply (C := 1) _ _ e z).trans (wrapV_apply s _ h_S_ e)

/-- The taken rows summed into their destination nodes: the program's scatter stretch after its take stretch. -/
def aggK64 (x : FVec Ideal S100000x64 .f32) (s d : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (takeK64 x s)

/-- It is the aggregation of the table over each node's incoming edges. -/
theorem aggK64_eq (x : FVec Ideal S100000x64 .f32) (s d : IVec S1600000 32)
    (hs : SrcInRange (fun e => s (ix1 e))) :
    aggK64 x s d = arr2 (aggr (fun e => s (ix1 e)) (fun e => d (ix1 e)) (cur2 x)) := by
  unfold aggK64
  exact agg_full (takeK64 x s) x s d (takeK64_apply x s hs) bcast_S_S100000x64 h_S_ bcast_S1600000_S1600000x1_0
    scatter_S100000x64_S1600000x1_S1600000x64_1_0_0_1_wf

/-- The rows the program takes from a table of 40 columns for given source words: the words wrapped once when
    negative, the wrapped words tested against the table's row range, the named rows gathered, and a row whose
    test fails replaced by the fill value — the program's take stretch as one term of the table and the words. -/
def takeK40 (x : FVec Ideal S100000x40 .f32) (s : IVec S1600000 32) : FVec Ideal S1600000x40 .f32 :=
  let idx : IVec S1600000x1 32 := broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
  select
    (broadcastInDim S1600000x40 ![0] bcast_S1600000_S1600000x40_0
      (Host.reduce IntOp.andi
        (andi (cmpi .sge idx (broadcastInDim S1600000x1 ![] bcast_S_S1600000x1 (constantI S_ 32 0#32)))
              (cmpi .sle idx (broadcastInDim S1600000x1 ![0, 1] bcast_S1x1_S1600000x1_0_1
                (broadcastInDim S1x1 ![1] bcast_S1_S1x1_1 (constantI S1 32 99999#32)))))
        (constantI S_ 1 1#1) reducesTo_S1600000x1_S1600000_d1 h_S_))
    (Host.gather gather_S100000x40_S1600000x1_S1600000x40_1_0_n_n_0_1_140 x idx)
    (broadcastInDim S1600000x40 ![] bcast_S_S1600000x40 (constant S_ .f32 0x7FC00000#32))

/-- When every source word names a row (directly or after one wrap) no row is replaced: the taken row of edge e
    is the table's row at the edge's source row. -/
theorem takeK40_apply (x : FVec Ideal S100000x40 .f32) (s : IVec S1600000 32)
    (hs : SrcInRange (fun e => s (ix1 e))) (e : Fin NE) (k : Fin 40) :
    takeK40 x s (ix2 e k) = x (ix2 (srcRow (fun e => s (ix1 e)) e) k) := by
  unfold takeK40
  dsimp only
  refine take_full x s hs _ (fun e z => ?_) bcast_S1600000_S1600000x40_0 bcast_S_S1600000x1 bcast_S1_S1x1_1
    bcast_S1x1_S1600000x1_0_1 reducesTo_S1600000x1_S1600000_d1 h_S_
    gather_S100000x40_S1600000x1_S1600000x40_1_0_n_n_0_1_140_wf _ e k
  exact (rows_apply (C := 1) _ _ e z).trans (wrapV_apply s _ h_S_ e)

/-- The taken rows summed into their destination nodes: the program's scatter stretch after its take stretch. -/
def aggK40 (x : FVec Ideal S100000x40 .f32) (s d : IVec S1600000 32) : FVec Ideal S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 d)
    (takeK40 x s)

/-- It is the aggregation of the table over each node's incoming edges. -/
theorem aggK40_eq (x : FVec Ideal S100000x40 .f32) (s d : IVec S1600000 32)
    (hs : SrcInRange (fun e => s (ix1 e))) :
    aggK40 x s d = arr2 (aggr (fun e => s (ix1 e)) (fun e => d (ix1 e)) (cur2 x)) := by
  unfold aggK40
  exact agg_full (takeK40 x s) x s d (takeK40_apply x s hs) bcast_S_S100000x40 h_S_ bcast_S1600000_S1600000x1_0
    scatter_S100000x40_S1600000x1_S1600000x40_1_0_0_1_wf

end Cert.KernelIdeal.SageK

end
-- ==== Proof.KCarryThrough.lean ====
/-
  The carried facts pass through the program.  No host stretch after the first and no tile kernel writes an
  argument array, the source or destination words, or the reciprocal-divisor column: a stretch leaves a buffer it
  does not write as it found it, and a tile kernel leaves every buffer that is not its output window's array as it
  found it (an input window's array included).  So the facts that hold after the first stretch hold at every later
  boundary.
-/
import proofs.«425072_j22376779612323_3_alg».proof.Proof.KCarried
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

namespace Through

/-- The carried facts speak of fourteen buffers only: a boundary that agrees on them with one where the facts hold
    has the facts too. -/
theorem transfer {V V' : Entry} {c : Dev nD} (h : Carried m V c)
    (e0 : a_arg0 V' c = a_arg0 V c) (e1 : a_ei V' c = a_ei V c) (e2 : a_arg2 V' c = a_arg2 V c)
    (e3 : a_arg3 V' c = a_arg3 V c) (e4 : a_arg4 V' c = a_arg4 V c) (e5 : a_arg5 V' c = a_arg5 V c)
    (e6 : a_arg6 V' c = a_arg6 V c) (e7 : a_arg7 V' c = a_arg7 V c) (e8 : a_arg8 V' c = a_arg8 V c)
    (e9 : a_arg9 V' c = a_arg9 V c) (e10 : a_arg10 V' c = a_arg10 V c)
    (es : a_v1 V' c = a_v1 V c) (ed : a_v3 V' c = a_v3 V c) (er : a_v12 V' c = a_v12 V c) : Carried m V' c :=
  ⟨e0.trans h.arg0, e1.trans h.ei, e2.trans h.arg2, e3.trans h.arg3, e4.trans h.arg4, e5.trans h.arg5,
    e6.trans h.arg6, e7.trans h.arg7, e8.trans h.arg8, e9.trans h.arg9, e10.trans h.arg10,
    es.trans h.src, ed.trans h.dst, er.trans h.rdiv⟩

end Through

/-- A buffer that no operation of a host stretch writes is after the stretch as before it: every operation's one
    written buffer is another reference. -/
local macro "kept_through " ops:ident : tactic => `(tactic| (
  refine StableHlo.after_of_forall_not_mem _ _ (List.forall_iff_forall_mem.mp ?_)
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Through the first take stretch. -/
theorem carried_W2 (c : Dev nD) (h : Carried m (Vof (W1 (F := Ideal) m ρ)) c) : Carried m (Vof (W2 (F := Ideal) m ρ)) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, W2]; kept_through hostOps0_1)
/-- Through the first scatter stretch: region 0's entry. -/
theorem carried_V3 (c : Dev nD) (h : Carried m (Vof (W2 (F := Ideal) m ρ)) c) : Carried m (V3 (F := Ideal) m ρ) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, V3, W3]; kept_through hostOps0_2)
/-- Through region 0. -/
theorem carried_V4 (c : Dev nD) (h : Carried m (V3 (F := Ideal) m ρ) c) : Carried m (V4 (F := Ideal) m ρ) c := by
  refine Through.transfer m h ?_ ?_ ?_ ?_ ?_ ?_ ?_ ?_ ?_ ?_ ?_ ?_ ?_ ?_ <;> dsimp only [a_arg0, a_ei, a_arg2, a_arg3, a_arg4, a_arg5, a_arg6, a_arg7, a_arg8, a_arg9, a_arg10, a_v1, a_v3, a_v12, V4, V3]
  · exact (W4_arr (F := Ideal) m ρ c 1).trans (((dat0 (F := Ideal) (V3 (F := Ideal) m ρ) c).arrAt_in 1 rfl _).trans (A_eq0 (F := Ideal) (V3 (F := Ideal) m ρ) c 1))
  · exact W4_of_ne (F := Ideal) m ρ c main_arg1 (by decide)
  · exact W4_of_ne (F := Ideal) m ρ c main_arg2 (by decide)
  · exact W4_of_ne (F := Ideal) m ρ c main_arg3 (by decide)
  · exact W4_of_ne (F := Ideal) m ρ c main_arg4 (by decide)
  · exact W4_of_ne (F := Ideal) m ρ c main_arg5 (by decide)
  · exact W4_of_ne (F := Ideal) m ρ c main_arg6 (by decide)
  · exact W4_of_ne (F := Ideal) m ρ c main_arg7 (by decide)
  · exact W4_of_ne (F := Ideal) m ρ c main_arg8 (by decide)
  · exact W4_of_ne (F := Ideal) m ρ c main_arg9 (by decide)
  · exact W4_of_ne (F := Ideal) m ρ c main_arg10 (by decide)
  · exact W4_of_ne (F := Ideal) m ρ c main_v1 (by decide)
  · exact W4_of_ne (F := Ideal) m ρ c main_v3 (by decide)
  · exact (W4_arr (F := Ideal) m ρ c 5).trans (((dat0 (F := Ideal) (V3 (F := Ideal) m ρ) c).arrAt_in 5 rfl _).trans (A_eq0 (F := Ideal) (V3 (F := Ideal) m ρ) c 5))
/-- Through the second take stretch. -/
theorem carried_W5 (c : Dev nD) (h : Carried m (V4 (F := Ideal) m ρ) c) : Carried m (Vof (W5 (F := Ideal) m ρ)) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, W5, V4]; kept_through hostOps1)
/-- Through the second scatter stretch: region 1's entry. -/
theorem carried_V6 (c : Dev nD) (h : Carried m (Vof (W5 (F := Ideal) m ρ)) c) : Carried m (V6 (F := Ideal) m ρ) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, V6, W6]; kept_through hostOps1_1)
/-- Through region 1. -/
theorem carried_V7 (c : Dev nD) (h : Carried m (V6 (F := Ideal) m ρ) c) : Carried m (V7 (F := Ideal) m ρ) c := by
  refine Through.transfer m h ?_ ?_ ?_ ?_ ?_ ?_ ?_ ?_ ?_ ?_ ?_ ?_ ?_ ?_ <;> dsimp only [a_arg0, a_ei, a_arg2, a_arg3, a_arg4, a_arg5, a_arg6, a_arg7, a_arg8, a_arg9, a_arg10, a_v1, a_v3, a_v12, V7, V6]
  · exact W7_of_ne (F := Ideal) m ρ c main_arg0 (by decide)
  · exact W7_of_ne (F := Ideal) m ρ c main_arg1 (by decide)
  · exact W7_of_ne (F := Ideal) m ρ c main_arg2 (by decide)
  · exact W7_of_ne (F := Ideal) m ρ c main_arg3 (by decide)
  · exact W7_of_ne (F := Ideal) m ρ c main_arg4 (by decide)
  · exact W7_of_ne (F := Ideal) m ρ c main_arg5 (by decide)
  · exact W7_of_ne (F := Ideal) m ρ c main_arg6 (by decide)
  · exact W7_of_ne (F := Ideal) m ρ c main_arg7 (by decide)
  · exact W7_of_ne (F := Ideal) m ρ c main_arg8 (by decide)
  · exact W7_of_ne (F := Ideal) m ρ c main_arg9 (by decide)
  · exact W7_of_ne (F := Ideal) m ρ c main_arg10 (by decide)
  · exact W7_of_ne (F := Ideal) m ρ c main_v1 (by decide)
  · exact W7_of_ne (F := Ideal) m ρ c main_v3 (by decide)
  · exact (W7_arr (F := Ideal) m ρ c 5).trans (((dat1 (F := Ideal) (V6 (F := Ideal) m ρ) c).arrAt_in 5 rfl _).trans (A_eq1 (F := Ideal) (V6 (F := Ideal) m ρ) c 5))
/-- Through the one-operation stretch before the projection: region 2's entry. -/
theorem carried_V8 (c : Dev nD) (h : Carried m (V7 (F := Ideal) m ρ) c) : Carried m (V8 (F := Ideal) m ρ) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, V8, W8, V7]; kept_through hostOps2)
/-- Through region 2. -/
theorem carried_V9 (c : Dev nD) (h : Carried m (V8 (F := Ideal) m ρ) c) : Carried m (V9 (F := Ideal) m ρ) c := by
  refine Through.transfer m h ?_ ?_ ?_ ?_ ?_ ?_ ?_ ?_ ?_ ?_ ?_ ?_ ?_ ?_ <;> dsimp only [a_arg0, a_ei, a_arg2, a_arg3, a_arg4, a_arg5, a_arg6, a_arg7, a_arg8, a_arg9, a_arg10, a_v1, a_v3, a_v12, V9, V8]
  · exact W9_of_ne (F := Ideal) m ρ c main_arg0 (by decide)
  · exact W9_of_ne (F := Ideal) m ρ c main_arg1 (by decide)
  · exact W9_of_ne (F := Ideal) m ρ c main_arg2 (by decide)
  · exact W9_of_ne (F := Ideal) m ρ c main_arg3 (by decide)
  · exact W9_of_ne (F := Ideal) m ρ c main_arg4 (by decide)
  · exact W9_of_ne (F := Ideal) m ρ c main_arg5 (by decide)
  · exact W9_of_ne (F := Ideal) m ρ c main_arg6 (by decide)
  · exact W9_of_ne (F := Ideal) m ρ c main_arg7 (by decide)
  · exact W9_of_ne (F := Ideal) m ρ c main_arg8 (by decide)
  · exact W9_of_ne (F := Ideal) m ρ c main_arg9 (by decide)
  · exact W9_of_ne (F := Ideal) m ρ c main_arg10 (by decide)
  · exact W9_of_ne (F := Ideal) m ρ c main_v1 (by decide)
  · exact W9_of_ne (F := Ideal) m ρ c main_v3 (by decide)
  · exact W9_of_ne (F := Ideal) m ρ c main_v12 (by decide)
/-- Through the third take stretch. -/
theorem carried_W10 (c : Dev nD) (h : Carried m (V9 (F := Ideal) m ρ) c) : Carried m (Vof (W10 (F := Ideal) m ρ)) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, W10, V9]; kept_through hostOps3)
/-- Through the third scatter stretch: region 3's entry. -/
theorem carried_V11 (c : Dev nD) (h : Carried m (Vof (W10 (F := Ideal) m ρ)) c) : Carried m (V11 (F := Ideal) m ρ) c := by
  refine Through.transfer m h ?_ ?_ ?_ ?_ ?_ ?_ ?_ ?_ ?_ ?_ ?_ ?_ ?_ ?_ <;>
    (dsimp only [a_arg0, a_ei, a_arg2, a_arg3, a_arg4, a_arg5, a_arg6, a_arg7, a_arg8, a_arg9, a_arg10, a_v1, a_v3, a_v12, Vof, V11, W11]; kept_through hostOps3_1)

end Cert.KernelIdeal.SageK

end
-- ==== Proof.LibTypedRef.lean ====
/-
  A typed reference's two transports are inverse.

  A typed reference `x` to a buffer of a tensor value of type `T` carries contents at `T` to contents of the buffer
  (`x.toBuf`) and back (`x.ofBuf`), each a transport along `x.ty_eq : x.ref.ty = T`. Going there and back is the
  identity, whatever the reference: replacing `T` by the buffer's type makes both transports the identity.
  A program that inlines a called function reads each of the callee's values through such a pair.
-/
import Idealize.ShloMosaic.Lib.StableHlo

namespace Cert.Lib.TypedRef

open Idealize.ShloMosaic

/-- Contents carried to a typed reference's buffer and back are the contents. -/
theorem ofBuf_toBuf {sig : RefSig} {T : BufTy} {Val : EltTy → Type} (x : StableHlo.TRef sig T) (v : T.Contents Val) :
    x.ofBuf (x.toBuf v) = v := by
  obtain ⟨r, hty, h1, h2⟩ := x
  subst hty
  rfl

/-- Contents of the buffer carried to the value's type and back are the contents. -/
theorem toBuf_ofBuf {sig : RefSig} {T : BufTy} {Val : EltTy → Type} (x : StableHlo.TRef sig T) (v : x.ref.ty.Contents Val) :
    x.toBuf (x.ofBuf v) = v := by
  obtain ⟨r, hty, h1, h2⟩ := x
  subst hty
  rfl

end Cert.Lib.TypedRef
-- ==== Proof.KStage1.lean ====
/-
  The first layer of the tiled program: the rows named by the source words are taken from the node table (a
  row whose wrapped word is outside the table is replaced by a fill value — no edge is, when every source word
  names a row), the taken rows are summed into their destination nodes, and the tile kernel turns the
  aggregated table, the node table, the two matrices, the bias and the reciprocal-divisor column into the
  layer's output.  The carried facts pass through unchanged.
-/
import proofs.«425072_j22376779612323_3_alg».proof.Proof.KCarried
import proofs.«425072_j22376779612323_3_alg».proof.Proof.LibRowOps
import proofs.«425072_j22376779612323_3_alg».proof.Proof.KReg0
import proofs.«425072_j22376779612323_3_alg».proof.Proof.KTake
import proofs.«425072_j22376779612323_3_alg».proof.Proof.KCarryThrough
import proofs.«425072_j22376779612323_3_alg».proof.Proof.LibTypedRef
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-! ## The two host stretches of the layer, from any contents -/

set_option maxHeartbeats 1000000 in
/-- The take stretch leaves in its result buffer the rows taken from the node table by the source words: the
    stretch's operations composed are the take, the typed references' transports being identities. -/
theorem ops01_v13 (V : Valuation τ sig (Elt Ideal)) :
    (StableHlo.after hostOps0_1 V (Proc.devRef .tc main_v13) : S1600000x64.Idx → EReal)
      = takeK64 (V (Proc.devRef .tc main_arg0)) (V (Proc.devRef .tc main_v1)) := by
  after_results_simp
  simp only [Cert.Lib.TypedRef.ofBuf_toBuf, Cert.Lib.TypedRef.toBuf_ofBuf]
  simp only [StableHlo.TRef.ofBuf, StableHlo.TRef.toBuf, cast_eq]
  unfold takeK64
  dsimp only

/-- The scatter stretch sums the taken rows into a zero table by the destination words. -/
theorem ops02_v16 (V : Valuation τ sig (Elt Ideal)) :
    (StableHlo.after hostOps0_2 V (Proc.devRef .tc main_v16) : S100000x64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v13)) := by
  after_results

/-- It lays the bias out as a row. -/
theorem ops02_v17 (V : Valuation τ sig (Elt Ideal)) :
    (StableHlo.after hostOps0_2 V (Proc.devRef .tc main_v17) : S1x64.Idx → EReal)
      = shapeCast S1x64 (V (Proc.devRef .tc main_arg4) : S64.Idx → EReal) shapeCasts_S64_S1x64 := by
  after_results
  rfl

/-- It passes the two matrices through the narrowing, which is the identity on extended reals. -/
theorem ops02_v18 (V : Valuation τ sig (Elt Ideal)) :
    (StableHlo.after hostOps0_2 V (Proc.devRef .tc main_v18) : S64x64.Idx → EReal) = V (Proc.devRef .tc main_arg2) := by
  after_results
  rfl

theorem ops02_v19 (V : Valuation τ sig (Elt Ideal)) :
    (StableHlo.after hostOps0_2 V (Proc.devRef .tc main_v19) : S64x64.Idx → EReal) = V (Proc.devRef .tc main_arg3) := by
  after_results
  rfl

/-! ## The layer's kernel's arrays at its entry -/

variable (m : (ℓ : Loc nD τ sig) → Buf (Elt Ideal) ℓ) (ρ : Dev nD → PrngReg)

/-- The aggregated table: the node table summed over each node's incoming edges. -/
theorem v16_V3 (c : Dev nD) (hsrc : SrcInRange (srcW m c)) (h : Carried m (Vof (W1 (F := Ideal) m ρ)) c) :
    a_v16 (V3 (F := Ideal) m ρ) c = arr2 (aggr (srcW m c) (dstW m c) (cur2 (m_arg0 m c))) := by
  have e3 : (W2 (F := Ideal) m ρ c (Proc.devRef .tc main_v3) : S1600000.Idx → BitVec 32) = fun i => dstW m c (i 0) :=
    (carried_W2 m ρ c h).dst
  have e1 : (W1 (F := Ideal) m ρ c (Proc.devRef .tc main_v1) : S1600000.Idx → BitVec 32) = fun i => srcW m c (i 0) := h.src
  have e0 : (W1 (F := Ideal) m ρ c (Proc.devRef .tc main_arg0) : S100000x64.Idx → EReal) = m_arg0 m c := h.arg0
  have e13 : (W2 (F := Ideal) m ρ c (Proc.devRef .tc main_v13) : S1600000x64.Idx → EReal)
      = takeK64 (m_arg0 m c) (fun i => srcW m c (i 0)) := by
    refine (ops01_v13 (W1 (F := Ideal) m ρ c)).trans ?_
    rw [e0, e1]
    rfl
  refine (ops02_v16 (W2 (F := Ideal) m ρ c)).trans ?_
  rw [e3, e13]
  exact aggK64_eq (m_arg0 m c) (fun i => srcW m c (i 0)) (fun i => dstW m c (i 0)) hsrc

/-- The bias row. -/
theorem v17_V3 (c : Dev nD) (h : Carried m (Vof (W1 (F := Ideal) m ρ)) c) (j : Fin 64) :
    a_v17 (V3 (F := Ideal) m ρ) c (ix2 (0 : Fin 1) j) = cur1 (m_arg4 m c) j := by
  have e4 : (W2 (F := Ideal) m ρ c (Proc.devRef .tc main_arg4) : S64.Idx → EReal) = m_arg4 m c := (carried_W2 m ρ c h).arg4
  refine (congrFun (ops02_v17 (W2 (F := Ideal) m ρ c)) (ix2 (0 : Fin 1) j)).trans ?_
  rw [e4]
  exact shapeCast_a_1a_apply (m_arg4 m c) shapeCasts_S64_S1x64 0 j

/-- The two matrices. -/
theorem v18_V3 (c : Dev nD) (h : Carried m (Vof (W1 (F := Ideal) m ρ)) c) : a_v18 (V3 (F := Ideal) m ρ) c = m_arg2 m c :=
  (ops02_v18 (W2 (F := Ideal) m ρ c)).trans (carried_W2 m ρ c h).arg2

theorem v19_V3 (c : Dev nD) (h : Carried m (Vof (W1 (F := Ideal) m ρ)) c) : a_v19 (V3 (F := Ideal) m ρ) c = m_arg3 m c :=
  (ops02_v19 (W2 (F := Ideal) m ρ c)).trans (carried_W2 m ρ c h).arg3

/-- LAYER ONE: from the carried facts after the first stretch, the carried facts at region 0's exit and the
    layer's output there. -/
theorem stage1 (c : Dev nD) (hsrc : SrcInRange (srcW m c)) (h : Carried m (Vof (W1 (F := Ideal) m ρ)) c) :
    Carried m (V4 (F := Ideal) m ρ) c
    ∧ a_v20 (V4 (F := Ideal) m ρ) c
        = arr2 (layerK (srcW m c) (dstW m c) (cur2 (m_arg0 m c)) (cur2 (m_arg2 m c)) (cur2 (m_arg3 m c)) (cur1 (m_arg4 m c))) := by
  have h3 : Carried m (V3 (F := Ideal) m ρ) c := carried_V3 m ρ c (carried_W2 m ρ c h)
  refine ⟨carried_V4 m ρ c h3, ?_⟩
  have e20 : a_v20 (V4 (F := Ideal) m ρ) c = r0_out (V3 (F := Ideal) m ρ) c := W4_arr m ρ c 6
  rw [e20]
  funext i
  obtain ⟨n, j, rfl⟩ : ∃ (n : Fin 100000) (j : Fin 64), i = ix2 n j := ⟨i 0, i 1, eq_ix2 i⟩
  refine (reg0_value (V3 (F := Ideal) m ρ) c n j).trans ?_
  rw [v16_V3 m ρ c hsrc h, h3.rdiv, v18_V3 m ρ c h, h3.arg0, v19_V3 m ρ c h, v17_V3 m ρ c h j]
  rfl

end Cert.KernelIdeal.SageK

end
-- ==== Proof.KReg1.lean ====
/-
  The second layer's tile kernel, read as a value: the first layer's kernel on the second layer's arrays.  Grid
  point t of 25 takes rows 4000 t … 4000 t + 3999; for row r and column j of its tile it stores
      max ( sum_k (agg[r,k] · rdiv[r]) · Wl[k,j]  +  sum_k h[r,k] · Wr[k,j]  +  b[j] , 0 ),
  and the tiles partition the rows.
-/
import proofs.«425072_j22376779612323_3_alg».proof.Proof.KArr
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-- Region 1's output array after its 25 grid points. -/
abbrev r1_out (V : Entry) (c : Dev nD) : S100000x64.Idx → EReal := (dat1 (F := Ideal) V c).arrAt 6 cfg1.N

namespace Reg1

/-- A column [a,1] broadcast to [a,b] reads, at (p, c), the column's entry of row p. -/
theorem bcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction's operand indices, axis by axis -/

theorem lhs_dot_0 (i : S4000x64.Idx) (q : dot_S4000x64_S64x64_S4000x64_1_0_0_1_n_n.contr.Idx) :
    (dot_S4000x64_S64x64_S4000x64_1_0_0_1_n_n.lhsIdx i q 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem lhs_dot_1 (i : S4000x64.Idx) (q : dot_S4000x64_S64x64_S4000x64_1_0_0_1_n_n.contr.Idx) :
    (dot_S4000x64_S64x64_S4000x64_1_0_0_1_n_n.lhsIdx i q 1).val = (q ⟨0, by decide⟩).val :=
  dot_S4000x64_S64x64_S4000x64_1_0_0_1_n_n.lhsIdx_val_of_single rfl i q
theorem rhs_dot_0 (i : S4000x64.Idx) (q : dot_S4000x64_S64x64_S4000x64_1_0_0_1_n_n.contr.Idx) :
    (dot_S4000x64_S64x64_S4000x64_1_0_0_1_n_n.rhsIdx i q 0).val = (q ⟨0, by decide⟩).val :=
  dot_S4000x64_S64x64_S4000x64_1_0_0_1_n_n.rhsIdx_val_of_single rfl i q
theorem rhs_dot_1 (i : S4000x64.Idx) (q : dot_S4000x64_S64x64_S4000x64_1_0_0_1_n_n.contr.Idx) :
    (dot_S4000x64_S64x64_S4000x64_1_0_0_1_n_n.rhsIdx i q 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- The tile's matrix product into a zero accumulator, at row r and column j: the sum over the 64 inner positions. -/
theorem tile_matmul_apply (lhs : FVec Ideal S4000x64 .bf16) (rhs : FVec Ideal S64x64 .bf16) (r : Fin 4000) (j : Fin 64) :
    matmul dot_S4000x64_S64x64_S4000x64_1_0_0_1_n_n none lhs rhs (constant (F := Ideal) S4000x64 .f32 0x00000000#32) (ix2 r j)
      = ∑ k : Fin 64, lhs (ix2 r k) * rhs (ix2 k j) := by
  show FloatOps.matmul dot_S4000x64_S64x64_S4000x64_1_0_0_1_n_n none lhs rhs (constant (F := Ideal) S4000x64 .f32 0x00000000#32) (ix2 r j) = _
  rw [Ideal.matmul_constant_zero_apply, ← Equiv.sum_comp (ValueIdx.contrEquiv1 dot_S4000x64_S64x64_S4000x64_1_0_0_1_n_n 64 rfl rfl).symm]
  refine Finset.sum_congr rfl fun k _ => ?_
  have hk := ValueIdx.contrEquiv1_symm_val dot_S4000x64_S64x64_S4000x64_1_0_0_1_n_n 64 rfl rfl k
  have el : dot_S4000x64_S64x64_S4000x64_1_0_0_1_n_n.lhsIdx (ix2 r j) ((ValueIdx.contrEquiv1 dot_S4000x64_S64x64_S4000x64_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S4000x64_S64x64_S4000x64_1_0_0_1_n_n.rhsIdx (ix2 r j) ((ValueIdx.contrEquiv1 dot_S4000x64_S64x64_S4000x64_1_0_0_1_n_n 64 rfl rfl).symm k) = ix2 k j := funext fun a => Fin.ext (by
    match a with
    | ⟨0, _⟩ => exact (rhs_dot_0 _ _).trans hk
    | ⟨1, _⟩ => exact rhs_dot_1 _ _)
  rw [el, er]

/-- The tile's stored value at row r and column j, from the loaded blocks. -/
theorem tile1_apply (x0 : Vec Ideal S4000x64 .f32) (x5 : Vec Ideal S4000x1 .f32) (x1 : Vec Ideal S4000x64 .f32)
    (x2 : Vec Ideal S64x64 .bf16) (x3 : Vec Ideal S64x64 .bf16) (x4 : Vec Ideal S1x64 .f32) (r : Fin 4000) (j : Fin 64) :
    k1_pay1 (F := Ideal) x0 x5 x1 x2 x3 x4 (ix2 r j)
      = max ((∑ k : Fin 64, (x0 (ix2 r k) * x5 (ix2 r (0 : Fin 1))) * x2 (ix2 k j))
            + (∑ k : Fin 64, x1 (ix2 r k) * x3 (ix2 k j))
            + x4 (ix2 (0 : Fin 1) j)) 0 := by
  unfold k1_pay1
  simp only [shapeCast_self]
  rw [maximumf_apply, addf_apply, addf_apply, tile_matmul_apply, tile_matmul_apply, broadcast_apply, broadcastTo_1b_ab_apply]
  simp only [truncf_apply, mulf_apply, bcast_col_apply]
  show max _ (Ideal.ofBits .f32 0x00000000#32) = _
  rw [Ideal.ofBits_zero_f32]

theorem zero_offsets : (![0, 0] : Fin 2 → Nat) = fun _ => 0 := funext fun a => by fin_cases a <;> rfl

/-- The layer's formula at row n and column j of the arrays the region is entered with. -/
def layerAt (V : Entry) (c : Dev nD) (n : Fin 100000) (j : Fin 64) : EReal :=
  max ((∑ k : Fin 64, (a_v24 V c (ix2 n k) * a_v12 V c (ix2 n (0 : Fin 1))) * a_v26 V c (ix2 k j))
        + (∑ k : Fin 64, a_v20 V c (ix2 n k) * a_v27 V c (ix2 k j))
        + a_v25 V c (ix2 (0 : Fin 1) j)) 0

/-- The whole output array the tiles are blocks of. -/
def layerArr (V : Entry) (c : Dev nD) : S100000x64.Idx → EReal := fun i => layerAt V c (i 0) (i 1)

/-- The block index maps over the 25 grid points: the three row-tiled inputs and the output sit at block row t,
    block column 0; the two matrices and the bias row are their arrays' one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The aggregated table's block at point t: row r of the block is row 4000 t + r of the array. -/
theorem blk_agg (V : Entry) (c : Dev nD) (t : Fin cfg1.N) (r : Fin 4000) (k : Fin 64) (n : Fin 100000)
    (hn : n.val = t.val * 4000 + r.val) :
    (iblk1 (F := Ideal) V c 0 t : Vec Ideal S4000x64 .f32) (ix2 r k) = a_v24 V c (ix2 n k) := by
  obtain ⟨e00, e01, -⟩ := idx_facts t
  show V c main_v24 (((cfg1.win 0).blk t).view.emb (ix2 r k)) = V c main_v24 (ix2 n k)
  refine congrArg (V c main_v24) (funext fun a => Fin.ext ?_)
  match a with
  | ⟨0, _⟩ => show win1_0.index t (0 : Fin 2) * 4000 + 1 * r.val = n.val; omega
  | ⟨1, _⟩ => show win1_0.index t (1 : Fin 2) * 64 + 1 * k.val = k.val; omega

/-- The first layer's output's block at point t: row r of the block is row 4000 t + r of the array. -/
theorem blk_x (V : Entry) (c : Dev nD) (t : Fin cfg1.N) (r : Fin 4000) (k : Fin 64) (n : Fin 100000)
    (hn : n.val = t.val * 4000 + r.val) :
    (iblk1 (F := Ideal) V c 1 t : Vec Ideal S4000x64 .f32) (ix2 r k) = a_v20 V c (ix2 n k) := by
  obtain ⟨-, -, e10, e11, -⟩ := idx_facts t
  show V c main_v20 (((cfg1.win 1).blk t).view.emb (ix2 r k)) = V c main_v20 (ix2 n k)
  refine congrArg (V c main_v20) (funext fun a => Fin.ext ?_)
  match a with
  | ⟨0, _⟩ => show win1_1.index t (0 : Fin 2) * 4000 + 1 * r.val = n.val; omega
  | ⟨1, _⟩ => show win1_1.index t (1 : Fin 2) * 64 + 1 * k.val = k.val; omega

/-- The left matrix's block at every point is the whole matrix. -/
theorem blk_wl (V : Entry) (c : Dev nD) (t : Fin cfg1.N) (k : Fin 64) (j : Fin 64) :
    (iblk1 (F := Ideal) V c 2 t : Vec Ideal S64x64 .bf16) (ix2 k j) = a_v26 V c (ix2 k j) := by
  obtain ⟨-, -, -, -, e20, e21, -⟩ := idx_facts t
  show V c main_v26 (((cfg1.win 2).blk t).view.emb (ix2 k j)) = V c main_v26 (ix2 k j)
  refine congrArg (V c main_v26) (funext fun a => Fin.ext ?_)
  match a with
  | ⟨0, _⟩ => show win1_2.index t (0 : Fin 2) * 64 + 1 * k.val = k.val; omega
  | ⟨1, _⟩ => show win1_2.index t (1 : Fin 2) * 64 + 1 * j.val = j.val; omega

/-- The right matrix's block at every point is the whole matrix. -/
theorem blk_wr (V : Entry) (c : Dev nD) (t : Fin cfg1.N) (k : Fin 64) (j : Fin 64) :
    (iblk1 (F := Ideal) V c 3 t : Vec Ideal S64x64 .bf16) (ix2 k j) = a_v27 V c (ix2 k j) := by
  obtain ⟨-, -, -, -, -, -, e30, e31, -⟩ := idx_facts t
  show V c main_v27 (((cfg1.win 3).blk t).view.emb (ix2 k j)) = V c main_v27 (ix2 k j)
  refine congrArg (V c main_v27) (funext fun a => Fin.ext ?_)
  match a with
  | ⟨0, _⟩ => show win1_3.index t (0 : Fin 2) * 64 + 1 * k.val = k.val; omega
  | ⟨1, _⟩ => show win1_3.index t (1 : Fin 2) * 64 + 1 * j.val = j.val; omega

/-- The bias row's block at every point is the whole row. -/
theorem blk_b (V : Entry) (c : Dev nD) (t : Fin cfg1.N) (j : Fin 64) :
    (iblk1 (F := Ideal) V c 4 t : Vec Ideal S1x64 .f32) (ix2 (0 : Fin 1) j) = a_v25 V c (ix2 (0 : Fin 1) j) := by
  obtain ⟨-, -, -, -, -, -, -, -, e40, e41, -⟩ := idx_facts t
  show V c main_v25 (((cfg1.win 4).blk t).view.emb (ix2 (0 : Fin 1) j)) = V c main_v25 (ix2 (0 : Fin 1) j)
  refine congrArg (V c main_v25) (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 64 + 1 * j.val = j.val; omega

/-- The reciprocal-divisor column's block at point t: row r of the block is row 4000 t + r of the column. -/
theorem blk_rdiv (V : Entry) (c : Dev nD) (t : Fin cfg1.N) (r : Fin 4000) (n : Fin 100000)
    (hn : n.val = t.val * 4000 + r.val) :
    (iblk1 (F := Ideal) V c 5 t : Vec Ideal S4000x1 .f32) (ix2 r (0 : Fin 1)) = a_v12 V c (ix2 n (0 : Fin 1)) := by
  obtain ⟨-, -, -, -, -, -, -, -, -, -, e50, e51, -⟩ := idx_facts t
  show V c main_v12 (((cfg1.win 5).blk t).view.emb (ix2 r (0 : Fin 1))) = V c main_v12 (ix2 n (0 : Fin 1))
  refine congrArg (V c main_v12) (funext fun a => Fin.ext ?_)
  match a with
  | ⟨0, _⟩ => show win1_5.index t (0 : Fin 2) * 4000 + 1 * r.val = n.val; omega
  | ⟨1, _⟩ => show win1_5.index t (1 : Fin 2) * 1 + 1 * (0 : Fin 1).val = (0 : Fin 1).val; omega

/-- What grid point t writes back is block t of the layer's formula on the whole arrays. -/
theorem flushed_eq (V : Entry) (c : Dev nD) (t : Fin cfg1.N) :
    (dat1 (F := Ideal) V c).flushed 6 t = ((cfg1.win 6).blk t).view.read (Elt Ideal) (layerArr V c) := by
  show (cfg1.win 6).cut (grid1.coords t) ((dat1 (F := Ideal) V c).after 6 t) = _
  rw [after1_6]
  unfold out1_6
  rw [View.canon_unit_zero zero_offsets]
  simp only [View.ld_unit_zero (S := S4000x64) zero_offsets, View.ld_unit_zero (S := S4000x1) zero_offsets, View.ld_unit_zero (S := S64x64) zero_offsets, View.ld_unit_zero (S := S1x64) zero_offsets]
  funext y
  obtain ⟨r, j, rfl⟩ : ∃ (r : Fin 4000) (j : Fin 64), y = ix2 r j := ⟨y 0, y 1, eq_ix2 y⟩
  obtain ⟨-, -, -, -, -, -, -, -, -, -, -, -, e60, e61⟩ := idx_facts t
  have ht : t.val < 25 := t.isLt
  have hr : r.val < 4000 := r.isLt
  obtain ⟨n, hn⟩ : ∃ n : Fin 100000, n.val = t.val * 4000 + r.val := ⟨⟨t.val * 4000 + r.val, by omega⟩, rfl⟩
  have hemb : ((cfg1.win 6).blk t).view.emb (ix2 r j) = ix2 n j := by
    funext a; apply Fin.ext
    match a with
    | ⟨0, _⟩ => show win1_6.index t (0 : Fin 2) * 4000 + 1 * r.val = n.val; omega
    | ⟨1, _⟩ => show win1_6.index t (1 : Fin 2) * 64 + 1 * j.val = j.val; omega
  show k1_pay1 (F := Ideal) (iblk1 V c 0 t) (iblk1 V c 5 t) (iblk1 V c 1 t) (iblk1 V c 2 t) (iblk1 V c 3 t) (iblk1 V c 4 t) (ix2 r j)
      = layerArr V c (((cfg1.win 6).blk t).view.emb (ix2 r j))
  rw [hemb]
  refine (tile1_apply (iblk1 V c 0 t) (iblk1 V c 5 t) (iblk1 V c 1 t) (iblk1 V c 2 t) (iblk1 V c 3 t) (iblk1 V c 4 t) r j).trans ?_
  show _ = layerAt V c n j
  unfold layerAt
  refine congrArg₂ max (congrArg₂ (· + ·) (congrArg₂ (· + ·) (Finset.sum_congr rfl fun k _ => ?_) (Finset.sum_congr rfl fun k _ => ?_)) ?_) rfl
  · rw [blk_agg V c t r k n hn, blk_rdiv V c t r n hn, blk_wl V c t k j]
  · rw [blk_x V c t r k n hn, blk_wr V c t k j]
  · exact blk_b V c t j

/-- An index of the output array is in point t's block iff each coordinate is in the block's range on its axis. -/
theorem mem_blk (t : Fin cfg1.N) (i : S100000x64.Idx) :
    i ∈ ((cfg1.win 6).blk t).view.set ↔ ∀ a : Fin 2, win1_6.index t a * S4000x64.size a ≤ (i a).val ∧ (i a).val < win1_6.index t a * S4000x64.size a + S4000x64.size a := by
  show i ∈ ((View.whole main_v28).slice (win1_6.rect t)).set ↔ _
  rw [View.set_slice_whole, Rect.mem_set_unit]
  exact Iff.rfl

/-- The 25 tiles cover the rows: row n is in the tile of point n / 4000. -/
theorem covered (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : grid1.N = 25 := N_1
  obtain ⟨t, ht⟩ : ∃ t : Fin cfg1.N, t.val = (i 0).val / 4000 :=
    ⟨⟨(i 0).val / 4000, by show (i 0).val / 4000 < grid1.N; rw [hN]; omega⟩, rfl⟩
  obtain ⟨-, -, -, -, -, -, -, -, -, -, -, -, e60, e61⟩ := idx_facts t
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 64 ≤ (i 1).val ∧ (i 1).val < win1_6.index t (1 : Fin 2) * 64 + 64; omega

/-- The output array after the 25 points is the layer's formula everywhere. -/
theorem final (V : Entry) (c : Dev nD) : (dat1 (F := Ideal) V c).arrAt 6 cfg1.N = layerArr V c :=
  (dat1 (F := Ideal) V c).arrAt_eq_of_cover 6 (layerArr V c) (fun t _ => flushed_eq V c t) covered

end Reg1

/-- REGION 1's output array at row n and column j, from the arrays the region is entered with. -/
theorem reg1_value (V : Entry) (c : Dev nD) (n : Fin 100000) (j : Fin 64) :
    r1_out V c (ix2 n j)
      = max ((∑ k : Fin 64, (a_v24 V c (ix2 n k) * a_v12 V c (ix2 n (0 : Fin 1))) * a_v26 V c (ix2 k j))
            + (∑ k : Fin 64, a_v20 V c (ix2 n k) * a_v27 V c (ix2 k j))
            + a_v25 V c (ix2 (0 : Fin 1) j)) 0 :=
  congrFun (Reg1.final V c) (ix2 n j)

end Cert.KernelIdeal.SageK

end
-- ==== Proof.KStage2.lean ====
/-
  The second layer of the tiled program: the first layer's stage again, reading the first layer's output where
  that read the node table, with the second layer's matrices and bias.
-/
import proofs.«425072_j22376779612323_3_alg».proof.Proof.KCarried
import proofs.«425072_j22376779612323_3_alg».proof.Proof.KCarryThrough
import proofs.«425072_j22376779612323_3_alg».proof.Proof.LibRowOps
import proofs.«425072_j22376779612323_3_alg».proof.Proof.LibTypedRef
import proofs.«425072_j22376779612323_3_alg».proof.Proof.KTake
import proofs.«425072_j22376779612323_3_alg».proof.Proof.KReg1
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-! ## The two host stretches of the layer, from any contents -/

set_option maxHeartbeats 1000000 in
/-- The take stretch leaves in its result buffer the rows taken from the previous layer's output by the source
    words: the stretch's operations composed are the take, the typed references' transports being identities. -/
theorem ops1_v21 (V : Valuation τ sig (Elt Ideal)) :
    (StableHlo.after hostOps1 V (Proc.devRef .tc main_v21) : S1600000x64.Idx → EReal)
      = takeK64 (V (Proc.devRef .tc main_v20)) (V (Proc.devRef .tc main_v1)) := by
  after_results_simp
  simp only [Cert.Lib.TypedRef.ofBuf_toBuf, Cert.Lib.TypedRef.toBuf_ofBuf]
  simp only [StableHlo.TRef.ofBuf, StableHlo.TRef.toBuf, cast_eq]
  unfold takeK64
  dsimp only

/-- The scatter stretch sums the taken rows into a zero table by the destination words. -/
theorem ops11_v24 (V : Valuation τ sig (Elt Ideal)) :
    (StableHlo.after hostOps1_1 V (Proc.devRef .tc main_v24) : S100000x64.Idx → EReal)
      = Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3)))
          (V (Proc.devRef .tc main_v21)) := by
  after_results

/-- It lays the bias out as a row. -/
theorem ops11_v25 (V : Valuation τ sig (Elt Ideal)) :
    (StableHlo.after hostOps1_1 V (Proc.devRef .tc main_v25) : S1x64.Idx → EReal)
      = shapeCast S1x64 (V (Proc.devRef .tc main_arg7) : S64.Idx → EReal) shapeCasts_S64_S1x64 := by
  after_results
  rfl

/-- It passes the two matrices through the narrowing, which is the identity on extended reals. -/
theorem ops11_v26 (V : Valuation τ sig (Elt Ideal)) :
    (StableHlo.after hostOps1_1 V (Proc.devRef .tc main_v26) : S64x64.Idx → EReal) = V (Proc.devRef .tc main_arg5) := by
  after_results
  rfl

theorem ops11_v27 (V : Valuation τ sig (Elt Ideal)) :
    (StableHlo.after hostOps1_1 V (Proc.devRef .tc main_v27) : S64x64.Idx → EReal) = V (Proc.devRef .tc main_arg6) := by
  after_results
  rfl

/-- Neither stretch writes the previous layer's output. -/
theorem ops1_v20 (V : Valuation τ sig (Elt Ideal)) :
    StableHlo.after hostOps1 V (Proc.devRef .tc main_v20) = V (Proc.devRef .tc main_v20) := by
  refine StableHlo.after_of_forall_not_mem _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

theorem ops11_v20 (V : Valuation τ sig (Elt Ideal)) :
    StableHlo.after hostOps1_1 V (Proc.devRef .tc main_v20) = V (Proc.devRef .tc main_v20) := by
  refine StableHlo.after_of_forall_not_mem _ _ (List.forall_iff_forall_mem.mp ?_)
  simp only [hostOps1_1, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)

/-! ## The layer's kernel's arrays at its entry -/

variable (m : (ℓ : Loc nD τ sig) → Buf (Elt Ideal) ℓ) (ρ : Dev nD → PrngReg)

/-- The aggregated table: the previous layer's output summed over each node's incoming edges. -/
theorem v24_V6 (c : Dev nD) (hsrc : SrcInRange (srcW m c)) (h1 : Fin NN → Fin 64 → EReal)
    (h : Carried m (V4 (F := Ideal) m ρ) c) (hv : a_v20 (V4 (F := Ideal) m ρ) c = arr2 h1) :
    a_v24 (V6 (F := Ideal) m ρ) c = arr2 (aggr (srcW m c) (dstW m c) h1) := by
  have e3 : (W5 (F := Ideal) m ρ c (Proc.devRef .tc main_v3) : S1600000.Idx → BitVec 32) = fun i => dstW m c (i 0) :=
    (carried_W5 m ρ c h).dst
  have e1 : (W4 (F := Ideal) m ρ c (Proc.devRef .tc main_v1) : S1600000.Idx → BitVec 32) = fun i => srcW m c (i 0) := h.src
  have e20 : (W4 (F := Ideal) m ρ c (Proc.devRef .tc main_v20) : S100000x64.Idx → EReal) = arr2 h1 := hv
  have e21 : (W5 (F := Ideal) m ρ c (Proc.devRef .tc main_v21) : S1600000x64.Idx → EReal)
      = takeK64 (arr2 h1) (fun i => srcW m c (i 0)) := by
    refine (ops1_v21 (W4 (F := Ideal) m ρ c)).trans ?_
    rw [e20, e1]
    rfl
  refine (ops11_v24 (W5 (F := Ideal) m ρ c)).trans ?_
  rw [e3, e21]
  exact aggK64_eq (arr2 h1) (fun i => srcW m c (i 0)) (fun i => dstW m c (i 0)) hsrc

/-- The bias row. -/
theorem v25_V6 (c : Dev nD) (h : Carried m (V4 (F := Ideal) m ρ) c) (j : Fin 64) :
    a_v25 (V6 (F := Ideal) m ρ) c (ix2 (0 : Fin 1) j) = cur1 (m_arg7 m c) j := by
  have e7 : (W5 (F := Ideal) m ρ c (Proc.devRef .tc main_arg7) : S64.Idx → EReal) = m_arg7 m c := (carried_W5 m ρ c h).arg7
  refine (congrFun (ops11_v25 (W5 (F := Ideal) m ρ c)) (ix2 (0 : Fin 1) j)).trans ?_
  rw [e7]
  exact shapeCast_a_1a_apply (m_arg7 m c) shapeCasts_S64_S1x64 0 j

/-- The two matrices. -/
theorem v26_V6 (c : Dev nD) (h : Carried m (V4 (F := Ideal) m ρ) c) : a_v26 (V6 (F := Ideal) m ρ) c = m_arg5 m c :=
  (ops11_v26 (W5 (F := Ideal) m ρ c)).trans (carried_W5 m ρ c h).arg5

theorem v27_V6 (c : Dev nD) (h : Carried m (V4 (F := Ideal) m ρ) c) : a_v27 (V6 (F := Ideal) m ρ) c = m_arg6 m c :=
  (ops11_v27 (W5 (F := Ideal) m ρ c)).trans (carried_W5 m ρ c h).arg6

/-- The previous layer's output, as the previous kernel left it. -/
theorem v20_V6 (c : Dev nD) : a_v20 (V6 (F := Ideal) m ρ) c = a_v20 (V4 (F := Ideal) m ρ) c :=
  (ops11_v20 (W5 (F := Ideal) m ρ c)).trans (ops1_v20 (W4 (F := Ideal) m ρ c))

/-- LAYER TWO: from the carried facts and the first layer's output at region 0's exit, the carried facts at region
    1's exit and the layer's output there. -/
theorem stage2 (c : Dev nD) (hsrc : SrcInRange (srcW m c)) (h1 : Fin NN → Fin 64 → EReal)
    (h : Carried m (V4 (F := Ideal) m ρ) c) (hv : a_v20 (V4 (F := Ideal) m ρ) c = arr2 h1) :
    Carried m (V7 (F := Ideal) m ρ) c
    ∧ a_v28 (V7 (F := Ideal) m ρ) c
        = arr2 (layerK (srcW m c) (dstW m c) h1 (cur2 (m_arg5 m c)) (cur2 (m_arg6 m c)) (cur1 (m_arg7 m c))) := by
  have h6 : Carried m (V6 (F := Ideal) m ρ) c := carried_V6 m ρ c (carried_W5 m ρ c h)
  refine ⟨carried_V7 m ρ c h6, ?_⟩
  have e28 : a_v28 (V7 (F := Ideal) m ρ) c = r1_out (V6 (F := Ideal) m ρ) c := W7_arr m ρ c 6
  rw [e28]
  funext i
  obtain ⟨n, j, rfl⟩ : ∃ (n : Fin 100000) (j : Fin 64), i = ix2 n j := ⟨i 0, i 1, eq_ix2 i⟩
  refine (reg1_value (V6 (F := Ideal) m ρ) c n j).trans ?_
  rw [v24_V6 m ρ c hsrc h1 h hv, h6.rdiv, v26_V6 m ρ c h, (v20_V6 m ρ c).trans hv, v27_V6 m ρ c h, v25_V6 m ρ c h j]
  rfl

end Cert.KernelIdeal.SageK

end
-- ==== Proof.KReg2.lean ====
/-
  The projection kernel, read as a value.  Grid point t of 25 takes rows 4000 t … 4000 t + 3999 of the table and
  the whole 64 x 40 matrix and stores, for row r and column j of its tile, sum_k h[r,k] · W[k,j]; the tiles
  partition the rows.
-/
import proofs.«425072_j22376779612323_3_alg».proof.Proof.KArr
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-- Region 2's output array after its 25 grid points. -/
abbrev r2_out (V : Entry) (c : Dev nD) : S100000x40.Idx → EReal := (dat2 (F := Ideal) V c).arrAt 2 cfg2.N

namespace Reg2

/-! ## The product at an index -/

theorem proj_lhs_0 (i : S4000x40.Idx) (q : dot_S4000x64_S64x40_S4000x40_1_0_0_1_n_n.contr.Idx) :
    (dot_S4000x64_S64x40_S4000x40_1_0_0_1_n_n.lhsIdx i q 0).val = (i 0).val := by
  unfold DotDims.lhsIdx
  rw [dif_neg (show ¬(0 : Fin S4000x64.rank) ∈ dot_S4000x64_S64x40_S4000x40_1_0_0_1_n_n.lhsBatch by decide), dif_pos (show (0 : Fin S4000x64.rank) ∈ dot_S4000x64_S64x40_S4000x40_1_0_0_1_n_n.lhsNonContracting by decide)]
  rfl
theorem proj_lhs_1 (i : S4000x40.Idx) (q : dot_S4000x64_S64x40_S4000x40_1_0_0_1_n_n.contr.Idx) :
    (dot_S4000x64_S64x40_S4000x40_1_0_0_1_n_n.lhsIdx i q 1).val = (q ⟨0, by decide⟩).val :=
  dot_S4000x64_S64x40_S4000x40_1_0_0_1_n_n.lhsIdx_val_of_single rfl i q
theorem proj_rhs_0 (i : S4000x40.Idx) (q : dot_S4000x64_S64x40_S4000x40_1_0_0_1_n_n.contr.Idx) :
    (dot_S4000x64_S64x40_S4000x40_1_0_0_1_n_n.rhsIdx i q 0).val = (q ⟨0, by decide⟩).val :=
  dot_S4000x64_S64x40_S4000x40_1_0_0_1_n_n.rhsIdx_val_of_single rfl i q
theorem proj_rhs_1 (i : S4000x40.Idx) (q : dot_S4000x64_S64x40_S4000x40_1_0_0_1_n_n.contr.Idx) :
    (dot_S4000x64_S64x40_S4000x40_1_0_0_1_n_n.rhsIdx i q 1).val = (i 1).val := by
  unfold DotDims.rhsIdx
  rw [dif_neg (show ¬(1 : Fin S64x40.rank) ∈ dot_S4000x64_S64x40_S4000x40_1_0_0_1_n_n.rhsBatch by decide), dif_pos (show (1 : Fin S64x40.rank) ∈ dot_S4000x64_S64x40_S4000x40_1_0_0_1_n_n.rhsNonContracting by decide)]
  rfl

/-- A tile's product into the zero accumulator, at row r and column j: the sum over the 64 inner indices. -/
theorem matmul_tile_apply (x : FVec Ideal S4000x64 .bf16) (w : FVec Ideal S64x40 .bf16) (r : Fin 4000) (j : Fin 40) :
    matmul dot_S4000x64_S64x40_S4000x40_1_0_0_1_n_n none x w (constant (F := Ideal) S4000x40 .f32 0x00000000#32) (ix2 r j)
      = ∑ k : Fin 64, x (ix2 r k) * w (ix2 k j) := by
  simp only [matmul]
  rw [Ideal.matmul_constant_zero_apply, ← Equiv.sum_comp (ValueIdx.contrEquiv1 dot_S4000x64_S64x40_S4000x40_1_0_0_1_n_n 64 rfl rfl).symm]
  refine Finset.sum_congr rfl fun k _ => ?_
  have hk := ValueIdx.contrEquiv1_symm_val dot_S4000x64_S64x40_S4000x40_1_0_0_1_n_n 64 rfl rfl k
  have el : dot_S4000x64_S64x40_S4000x40_1_0_0_1_n_n.lhsIdx (ix2 r j) ((ValueIdx.contrEquiv1 dot_S4000x64_S64x40_S4000x40_1_0_0_1_n_n 64 rfl rfl).symm k) = ix2 r k := funext fun a => Fin.ext (by
    match a with
    | ⟨0, _⟩ => exact proj_lhs_0 _ _
    | ⟨1, _⟩ => exact (proj_lhs_1 _ _).trans hk)
  have er : dot_S4000x64_S64x40_S4000x40_1_0_0_1_n_n.rhsIdx (ix2 r j) ((ValueIdx.contrEquiv1 dot_S4000x64_S64x40_S4000x40_1_0_0_1_n_n 64 rfl rfl).symm k) = ix2 k j := funext fun a => Fin.ext (by
    match a with
    | ⟨0, _⟩ => exact (proj_rhs_0 _ _).trans hk
    | ⟨1, _⟩ => exact proj_rhs_1 _ _)
  rw [el, er]

/-- The payload at row r and column j of the tile. -/
theorem pay2_apply (x0 : Vec Ideal S4000x64 .f32) (x1 : Vec Ideal S64x40 .bf16) (r : Fin 4000) (j : Fin 40) :
    k2_pay1 (F := Ideal) x0 x1 (ix2 r j) = ∑ k : Fin 64, x0 (ix2 r k) * x1 (ix2 k j) := by
  unfold k2_pay1
  simp only [shapeCast_self]
  exact matmul_tile_apply _ _ r j

/-! ## From the tiles to the array -/

theorem zero_offsets : (![0, 0] : Fin 2 → Nat) = fun _ => 0 := funext fun a => by fin_cases a <;> rfl

/-- The table the region leaves: row n of the second layer's table times the matrix. -/
abbrev proj (V : Entry) (c : Dev nD) : S100000x40.Idx → EReal :=
  arr2 fun n j => ∑ k : Fin 64, a_v28 V c (ix2 n k) * a_v29 V c (ix2 k j)

/-- The three index maps over the grid: the table's and the output's tile t is the t-th row tile, the matrix's is the
    whole matrix. -/
theorem tile_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The two input tiles at point t. -/
abbrev htile (V : Entry) (c : Dev nD) (t : Fin cfg2.N) : Vec Ideal S4000x64 .f32 := iblk2 (F := Ideal) V c 0 t
abbrev wtile (V : Entry) (c : Dev nD) (t : Fin cfg2.N) : Vec Ideal S64x40 .bf16 := iblk2 (F := Ideal) V c 1 t

/-- Row r of the table's tile at point t is row 4000 t + r of the table. -/
theorem tile_h (V : Entry) (c : Dev nD) (t : Fin cfg2.N) (r : Fin 4000) (k : Fin 64) (n : Fin 100000)
    (hn : n.val = t.val * 4000 + r.val) :
    htile V c t (ix2 r k) = a_v28 V c (ix2 n k) := by
  obtain ⟨e0, e1, -⟩ := tile_idx t
  show V c main_v28 (((cfg2.win 0).blk t).view.emb (ix2 r k)) = V c main_v28 (ix2 n k)
  refine congrArg (V c main_v28) ?_
  funext a; apply Fin.ext
  match a with
  | ⟨0, _⟩ => show win2_0.index t (0 : Fin 2) * 4000 + 1 * r.val = n.val; omega
  | ⟨1, _⟩ => show win2_0.index t (1 : Fin 2) * 64 + 1 * k.val = k.val; omega

/-- The matrix's tile at every point is the matrix. -/
theorem tile_w (V : Entry) (c : Dev nD) (t : Fin cfg2.N) (k : Fin 64) (j : Fin 40) :
    wtile V c t (ix2 k j) = a_v29 V c (ix2 k j) := by
  obtain ⟨-, -, e2, e3, -⟩ := tile_idx t
  show V c main_v29 (((cfg2.win 1).blk t).view.emb (ix2 k j)) = V c main_v29 (ix2 k j)
  refine congrArg (V c main_v29) ?_
  funext a; apply Fin.ext
  match a with
  | ⟨0, _⟩ => show win2_1.index t (0 : Fin 2) * 64 + 1 * k.val = k.val; omega
  | ⟨1, _⟩ => show win2_1.index t (1 : Fin 2) * 40 + 1 * j.val = j.val; omega

/-- What point t stores at an index of its tile is the table's entry at the index under it. -/
theorem tile_eq (V : Entry) (c : Dev nD) (t : Fin cfg2.N) (y : S4000x40.Idx) (i : S100000x40.Idx)
    (h0 : (i 0).val = t.val * 4000 + (y 0).val) (h1 : (i 1).val = (y 1).val) :
    k2_pay1 (F := Ideal) (htile V c t) (wtile V c t) y = proj V c i := by
  obtain ⟨r, j, rfl⟩ : ∃ (r : Fin 4000) (j : Fin 40), y = ix2 r j := ⟨y 0, y 1, eq_ix2 y⟩
  obtain ⟨n, j', rfl⟩ : ∃ (n : Fin 100000) (j' : Fin 40), i = ix2 n j' := ⟨i 0, i 1, eq_ix2 i⟩
  obtain rfl : j = j' := (Fin.ext h1).symm
  refine (pay2_apply (htile V c t) (wtile V c t) r j).trans ?_
  show _ = ∑ k : Fin 64, a_v28 V c (ix2 n k) * a_v29 V c (ix2 k j)
  exact Finset.sum_congr rfl fun k _ => congrArg₂ (fun a b : EReal => a * b) (tile_h V c t r k n h0) (tile_w V c t k j)

/-- What point t writes back is tile t of the table. -/
theorem flushed_eq (V : Entry) (c : Dev nD) (t : Fin cfg2.N) :
    (dat2 (F := Ideal) V c).flushed 2 t = ((cfg2.win 2).blk t).view.read (Elt Ideal) (proj V c) := by
  show (cfg2.win 2).cut (grid2.coords t) ((dat2 (F := Ideal) V c).after 2 t) = _
  rw [after2_2]
  unfold out2_2
  rw [View.canon_unit_zero zero_offsets]
  simp only [View.ld_unit_zero (S := S4000x64) zero_offsets, View.ld_unit_zero (S := S64x40) zero_offsets]
  obtain ⟨-, -, -, -, e4, e5⟩ := tile_idx t
  funext y
  refine tile_eq V c t y (((cfg2.win 2).blk t).view.emb y) ?_ ?_
  · show win2_2.index t (0 : Fin 2) * 4000 + 1 * (y 0).val = t.val * 4000 + (y 0).val; omega
  · show win2_2.index t (1 : Fin 2) * 40 + 1 * (y 1).val = (y 1).val; omega

/-- An index of the array is in point t's tile iff each coordinate is in the tile's range on its axis. -/
theorem mem_tile (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v30).slice (win2_2.rect t)).set ↔ _
  rw [View.set_slice_whole, Rect.mem_set_unit]
  exact Iff.rfl

/-- Row n lies in tile n / 4000. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 25 := by decide +kernel
  let t : Fin cfg2.N := ⟨(i 0).val / 4000, by rw [hN]; omega⟩
  obtain ⟨-, -, -, -, e4, e5⟩ := tile_idx t
  have ht : t.val = (i 0).val / 4000 := rfl
  refine ⟨t, flush2_2 t, ?_⟩
  rw [mem_tile]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 40 ≤ (i 1).val ∧ (i 1).val < win2_2.index t (1 : Fin 2) * 40 + 40; omega

end Reg2

/-- REGION 2's output array at row n and column j, from the arrays the region is entered with. -/
theorem reg2_value (V : Entry) (c : Dev nD) (n : Fin 100000) (j : Fin 40) :
    r2_out V c (ix2 n j) = ∑ k : Fin 64, a_v28 V c (ix2 n k) * a_v29 V c (ix2 k j) :=
  congrFun ((dat2 (F := Ideal) V c).arrAt_eq_of_cover 2 (Reg2.proj V c) (fun t _ => Reg2.flushed_eq V c t) Reg2.covered) (ix2 n j)

end Cert.KernelIdeal.SageK

end
-- ==== Proof.KReg3.lean ====
/-
  The last layer's tile kernel, read as a value.  Grid point t of 25 takes rows 4000 t … 4000 t + 3999 of the
  aggregated projected table, of the second layer's table and of the reciprocal-divisor column, and the whole
  64 x 40 matrix and the bias row.  For row r of its tile it forms
      u[r,j] = max ( aggp[r,j] · rdiv[r]  +  sum_k h[r,k] · Wr[k,j]  +  b[j] , 0 ),
  takes the row's maximum M (from minus infinity), and stores (u[r,j] - M) - log (sum_j' exp (u[r,j'] - M)).
  A row's 40 columns lie in one tile, so the row-wise step sees the whole row; the tiles partition the rows.
-/
import proofs.«425072_j22376779612323_3_alg».proof.Proof.KArr
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

/-- Region 3's output array after its 25 grid points. -/
abbrev r3_out (V : Entry) (c : Dev nD) : S100000x40.Idx → EReal := (dat3 (F := Ideal) V c).arrAt 5 cfg3.N

/-- The table region 3 applies the row-wise log-softmax to. -/
def r3_pre (V : Entry) (c : Dev nD) (n : Fin NN) (j : Fin 40) : EReal :=
  max ((a_v34 V c (ix2 n j) * a_v12 V c (ix2 n (0 : Fin 1)))
        + (∑ k : Fin 64, a_v28 V c (ix2 n k) * a_v36 V c (ix2 k j))
        + a_v35 V c (ix2 (0 : Fin 1) j)) 0

namespace Reg3

/-! ## Layout steps at an index -/

/-- A column [a, 1] broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The product at an index -/

theorem fin_lhs_0 (i : S4000x40.Idx) (q : dot_S4000x64_S64x40_S4000x40_1_0_0_1_n_n.contr.Idx) :
    (dot_S4000x64_S64x40_S4000x40_1_0_0_1_n_n.lhsIdx i q 0).val = (i 0).val := by
  unfold DotDims.lhsIdx
  rw [dif_neg (show ¬(0 : Fin S4000x64.rank) ∈ dot_S4000x64_S64x40_S4000x40_1_0_0_1_n_n.lhsBatch by decide), dif_pos (show (0 : Fin S4000x64.rank) ∈ dot_S4000x64_S64x40_S4000x40_1_0_0_1_n_n.lhsNonContracting by decide)]
  rfl
theorem fin_lhs_1 (i : S4000x40.Idx) (q : dot_S4000x64_S64x40_S4000x40_1_0_0_1_n_n.contr.Idx) :
    (dot_S4000x64_S64x40_S4000x40_1_0_0_1_n_n.lhsIdx i q 1).val = (q ⟨0, by decide⟩).val :=
  dot_S4000x64_S64x40_S4000x40_1_0_0_1_n_n.lhsIdx_val_of_single rfl i q
theorem fin_rhs_0 (i : S4000x40.Idx) (q : dot_S4000x64_S64x40_S4000x40_1_0_0_1_n_n.contr.Idx) :
    (dot_S4000x64_S64x40_S4000x40_1_0_0_1_n_n.rhsIdx i q 0).val = (q ⟨0, by decide⟩).val :=
  dot_S4000x64_S64x40_S4000x40_1_0_0_1_n_n.rhsIdx_val_of_single rfl i q
theorem fin_rhs_1 (i : S4000x40.Idx) (q : dot_S4000x64_S64x40_S4000x40_1_0_0_1_n_n.contr.Idx) :
    (dot_S4000x64_S64x40_S4000x40_1_0_0_1_n_n.rhsIdx i q 1).val = (i 1).val := by
  unfold DotDims.rhsIdx
  rw [dif_neg (show ¬(1 : Fin S64x40.rank) ∈ dot_S4000x64_S64x40_S4000x40_1_0_0_1_n_n.rhsBatch by decide), dif_pos (show (1 : Fin S64x40.rank) ∈ dot_S4000x64_S64x40_S4000x40_1_0_0_1_n_n.rhsNonContracting by decide)]
  rfl

/-- A tile's product into the zero accumulator, at row r and column j: the sum over the 64 inner indices. -/
theorem matmul_tile_apply (x : FVec Ideal S4000x64 .bf16) (w : FVec Ideal S64x40 .bf16) (r : Fin 4000) (j : Fin 40) :
    matmul dot_S4000x64_S64x40_S4000x40_1_0_0_1_n_n none x w (constant (F := Ideal) S4000x40 .f32 0x00000000#32) (ix2 r j)
      = ∑ k : Fin 64, x (ix2 r k) * w (ix2 k j) := by
  simp only [matmul]
  rw [Ideal.matmul_constant_zero_apply, ← Equiv.sum_comp (ValueIdx.contrEquiv1 dot_S4000x64_S64x40_S4000x40_1_0_0_1_n_n 64 rfl rfl).symm]
  refine Finset.sum_congr rfl fun k _ => ?_
  have hk := ValueIdx.contrEquiv1_symm_val dot_S4000x64_S64x40_S4000x40_1_0_0_1_n_n 64 rfl rfl k
  have el : dot_S4000x64_S64x40_S4000x40_1_0_0_1_n_n.lhsIdx (ix2 r j) ((ValueIdx.contrEquiv1 dot_S4000x64_S64x40_S4000x40_1_0_0_1_n_n 64 rfl rfl).symm k) = ix2 r k := funext fun a => Fin.ext (by
    match a with
    | ⟨0, _⟩ => exact fin_lhs_0 _ _
    | ⟨1, _⟩ => exact (fin_lhs_1 _ _).trans hk)
  have er : dot_S4000x64_S64x40_S4000x40_1_0_0_1_n_n.rhsIdx (ix2 r j) ((ValueIdx.contrEquiv1 dot_S4000x64_S64x40_S4000x40_1_0_0_1_n_n 64 rfl rfl).symm k) = ix2 k j := funext fun a => Fin.ext (by
    match a with
    | ⟨0, _⟩ => exact (fin_rhs_0 _ _).trans hk
    | ⟨1, _⟩ => exact fin_rhs_1 _ _)
  rw [el, er]

/-! ## The tile's table before the row-wise step -/

/-- Scaled aggregate plus product plus bias, clipped below at zero, at row r and column j of the tile. -/
theorem act_apply (x0 : FVec Ideal S4000x40 .f32) (x4 : FVec Ideal S4000x1 .f32) (x1 : FVec Ideal S4000x64 .f32)
    (x2 : FVec Ideal S64x40 .bf16) (x3 : FVec Ideal S1x40 .f32)
    (hb : S4000x1.Broadcasts S4000x40) (hb' : S1x40.Broadcasts S4000x40) (hlt : FTy.bits .bf16 < FTy.bits .f32)
    (r : Fin 4000) (j : Fin 40) :
    maximumf (addf (addf (mulf x0 (broadcastTo S4000x40 x4 hb))
          (matmul dot_S4000x64_S64x40_S4000x40_1_0_0_1_n_n none (truncf .bf16 x1 hlt) x2 (constant (F := Ideal) S4000x40 .f32 0x00000000#32)))
        (broadcastTo S4000x40 x3 hb')) (broadcast S4000x40 (Scalar.ofBits (F := Ideal) .f32 0x00000000#32)) (ix2 r j)
      = max (x0 (ix2 r j) * x4 (ix2 r (0 : Fin 1)) + (∑ k : Fin 64, x1 (ix2 r k) * x2 (ix2 k j)) + x3 (ix2 (0 : Fin 1) j)) 0 := by
  rw [maximumf_apply, addf_apply, addf_apply, mulf_apply, broadcast_apply]
  rw [broadcastTo_a1_ab_apply x4 hb r j, broadcastTo_1b_ab_apply x3 hb' r j, matmul_tile_apply (truncf .bf16 x1 hlt) x2 r j]
  show max _ (Ideal.ofBits .f32 0x00000000#32) = _
  rw [Ideal.ofBits_zero_f32]
  rfl

/-! ## The row-wise step -/

/-- The index over row r with column k put back. -/
theorem lift_row (h : S4000x40.Reduces [1] S4000) (r : Fin 4000) (k : Fin 40) : h.lift (ix1 r) k = ix2 r k :=
  funext fun a => Fin.ext (by match a with | ⟨0, _⟩ => rfl | ⟨1, _⟩ => rfl)

/-- A row's maximum, from minus infinity. -/
theorem rowmax_apply (w : FVec Ideal S4000x40 .f32) (h : S4000x40.Reduces [1] S4000) (hφ : FKind.Formats .f32)
    (hacc : (0xFF800000#32 : BitVec 32) = FKind.maximumf.neutral .f32 hφ) (r : Fin 4000) :
    multiReduction .maximumf [1] S4000 w 0xFF800000#32 h hφ hacc (ix1 r)
      = (Finset.univ : Finset (Fin 40)).fold max ⊥ (fun j => w (ix2 r j)) := by
  refine (Ideal.multiReduction_maximumf_single w 0xFF800000#32 h hφ hacc (ix1 r)).trans ?_
  show (Finset.univ : Finset (Fin 40)).fold max (Ideal.ofBits .f32 0xFF800000#32) (w ∘ h.lift (ix1 r)) = _
  rw [ofBits_neg_inf]
  exact congrArg (fun f : Fin 40 → EReal => (Finset.univ : Finset (Fin 40)).fold max ⊥ f) (funext fun k => congrArg w (lift_row h r k))

/-- A row's sum. -/
theorem rowsum_apply (w : FVec Ideal S4000x40 .f32) (h : S4000x40.Reduces [1] S4000) (hφ : FKind.Formats .f32)
    (hacc : (0x00000000#32 : BitVec 32) = FKind.add.neutral .f32 hφ) (r : Fin 4000) :
    multiReduction .add [1] S4000 w 0x00000000#32 h hφ hacc (ix1 r) = ∑ j : Fin 40, w (ix2 r j) := by
  refine (Ideal.multiReduction_add_single w 0x00000000#32 h hφ hacc (ix1 r)).trans ?_
  show ∑ k : Fin 40, w (h.lift (ix1 r) k) = _
  exact Finset.sum_congr rfl fun k _ => congrArg w (lift_row h r k)

/-- The row-wise step on a tile, at row r and column j: the entry less the row's maximum, less the logarithm of the row's sum
    of exponentials of the same differences. -/
theorem rowstep_apply (w : FVec Ideal S4000x40 .f32) (h : S4000x40.Reduces [1] S4000) (hc : S4000.ShapeCasts S4000x1)
    (hb : S4000x1.Broadcasts S4000x40) (hφ : FKind.Formats .f32)
    (hm : (0xFF800000#32 : BitVec 32) = FKind.maximumf.neutral .f32 hφ) (ha : (0x00000000#32 : BitVec 32) = FKind.add.neutral .f32 hφ)
    (r : Fin 4000) (j : Fin 40) :
    subf (subf w (broadcastTo S4000x40 (shapeCast S4000x1 (multiReduction .maximumf [1] S4000 w 0xFF800000#32 h hφ hm) hc) hb))
        (broadcastTo S4000x40 (log (shapeCast S4000x1 (multiReduction .add [1] S4000
          (exp (subf w (broadcastTo S4000x40 (shapeCast S4000x1 (multiReduction .maximumf [1] S4000 w 0xFF800000#32 h hφ hm) hc) hb)))
          0x00000000#32 h hφ ha) hc)) hb) (ix2 r j)
      = (w (ix2 r j) - (Finset.univ : Finset (Fin 40)).fold max ⊥ (fun j' => w (ix2 r j')))
          - Ideal.log (∑ j' : Fin 40, Ideal.exp (w (ix2 r j') - (Finset.univ : Finset (Fin 40)).fold max ⊥ (fun j'' => w (ix2 r j'')))) := by
  have hd : ∀ j' : Fin 40, subf w (broadcastTo S4000x40 (shapeCast S4000x1 (multiReduction .maximumf [1] S4000 w 0xFF800000#32 h hφ hm) hc) hb) (ix2 r j')
      = w (ix2 r j') - (Finset.univ : Finset (Fin 40)).fold max ⊥ (fun j'' => w (ix2 r j'')) := fun j' => by
    rw [subf_apply, broadcastTo_a1_ab_apply _ hb r j', shapeCast_a_a1_apply _ hc r 0, rowmax_apply w h hφ hm r]
  rw [subf_apply, hd j, broadcastTo_a1_ab_apply _ hb r j]
  show _ - FloatOps.log (shapeCast S4000x1 (multiReduction .add [1] S4000 _ 0x00000000#32 h hφ ha) hc (ix2 r (0 : Fin 1))) = _
  rw [shapeCast_a_a1_apply _ hc r 0, rowsum_apply _ h hφ ha r, Ideal.log_def]
  refine congrArg (fun s => _ - Ideal.log s) (Finset.sum_congr rfl fun j' _ => ?_)
  show FloatOps.exp (subf w _ (ix2 r j')) = _
  rw [hd j', Ideal.exp_def]

/-- The row-wise log-softmax of one row. -/
def lsmRow (u : Fin 40 → EReal) (j : Fin 40) : EReal :=
  (u j - (Finset.univ : Finset (Fin 40)).fold max ⊥ u) - Ideal.log (∑ j' : Fin 40, Ideal.exp (u j' - (Finset.univ : Finset (Fin 40)).fold max ⊥ u))

theorem lsm_eq_lsmRow (h : Fin NN → Fin 40 → EReal) (n : Fin NN) (j : Fin 40) : lsm h n j = lsmRow (h n) j := rfl

/-- The payload at row r and column j of the tile. -/
theorem pay3_apply (x0 : Vec Ideal S4000x40 .f32) (x4 : Vec Ideal S4000x1 .f32) (x1 : Vec Ideal S4000x64 .f32)
    (x2 : Vec Ideal S64x40 .bf16) (x3 : Vec Ideal S1x40 .f32) (r : Fin 4000) (j : Fin 40) :
    k3_pay1 (F := Ideal) x0 x4 x1 x2 x3 (ix2 r j)
      = lsmRow (fun j' => max (x0 (ix2 r j') * x4 (ix2 r (0 : Fin 1)) + (∑ k : Fin 64, x1 (ix2 r k) * x2 (ix2 k j')) + x3 (ix2 (0 : Fin 1) j')) 0) j := by
  unfold k3_pay1
  simp only [shapeCast_self]
  refine (rowstep_apply _ _ _ _ _ _ _ r j).trans ?_
  simp only [act_apply]
  rfl

/-! ## From the tiles to the array -/

theorem zero_offsets : (![0, 0] : Fin 2 → Nat) = fun _ => 0 := funext fun a => by fin_cases a <;> rfl

/-- The table the region leaves: the row-wise log-softmax of the table before it. -/
abbrev fin_out (V : Entry) (c : Dev nD) : S100000x40.Idx → EReal := arr2 (lsm (r3_pre V c))

/-- The six index maps over the grid: the three tables', the divisor column's and the output's tile t is the t-th row
    tile; the matrix's and the bias row's is the whole of it. -/
theorem tile_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- The five input tiles at point t. -/
abbrev aggtile (V : Entry) (c : Dev nD) (t : Fin cfg3.N) : Vec Ideal S4000x40 .f32 := iblk3 (F := Ideal) V c 0 t
abbrev htile (V : Entry) (c : Dev nD) (t : Fin cfg3.N) : Vec Ideal S4000x64 .f32 := iblk3 (F := Ideal) V c 1 t
abbrev wtile (V : Entry) (c : Dev nD) (t : Fin cfg3.N) : Vec Ideal S64x40 .bf16 := iblk3 (F := Ideal) V c 2 t
abbrev btile (V : Entry) (c : Dev nD) (t : Fin cfg3.N) : Vec Ideal S1x40 .f32 := iblk3 (F := Ideal) V c 3 t
abbrev dtile (V : Entry) (c : Dev nD) (t : Fin cfg3.N) : Vec Ideal S4000x1 .f32 := iblk3 (F := Ideal) V c 4 t

/-- Row r of the aggregated table's tile at point t is row 4000 t + r of the table. -/
theorem tile_agg (V : Entry) (c : Dev nD) (t : Fin cfg3.N) (r : Fin 4000) (j : Fin 40) (n : Fin 100000)
    (hn : n.val = t.val * 4000 + r.val) : aggtile V c t (ix2 r j) = a_v34 V c (ix2 n j) := by
  obtain ⟨e0, e1, -⟩ := tile_idx t
  show V c main_v34 (((cfg3.win 0).blk t).view.emb (ix2 r j)) = V c main_v34 (ix2 n j)
  refine congrArg (V c main_v34) ?_
  funext a; apply Fin.ext
  match a with
  | ⟨0, _⟩ => show win3_0.index t (0 : Fin 2) * 4000 + 1 * r.val = n.val; omega
  | ⟨1, _⟩ => show win3_0.index t (1 : Fin 2) * 40 + 1 * j.val = j.val; omega

/-- Row r of the second layer's table's tile at point t is row 4000 t + r of the table. -/
theorem tile_h (V : Entry) (c : Dev nD) (t : Fin cfg3.N) (r : Fin 4000) (k : Fin 64) (n : Fin 100000)
    (hn : n.val = t.val * 4000 + r.val) : htile V c t (ix2 r k) = a_v28 V c (ix2 n k) := by
  obtain ⟨-, -, e2, e3, -⟩ := tile_idx t
  show V c main_v28 (((cfg3.win 1).blk t).view.emb (ix2 r k)) = V c main_v28 (ix2 n k)
  refine congrArg (V c main_v28) ?_
  funext a; apply Fin.ext
  match a with
  | ⟨0, _⟩ => show win3_1.index t (0 : Fin 2) * 4000 + 1 * r.val = n.val; omega
  | ⟨1, _⟩ => show win3_1.index t (1 : Fin 2) * 64 + 1 * k.val = k.val; omega

/-- The matrix's tile at every point is the matrix. -/
theorem tile_w (V : Entry) (c : Dev nD) (t : Fin cfg3.N) (k : Fin 64) (j : Fin 40) :
    wtile V c t (ix2 k j) = a_v36 V c (ix2 k j) := by
  obtain ⟨-, -, -, -, e4, e5, -⟩ := tile_idx t
  show V c main_v36 (((cfg3.win 2).blk t).view.emb (ix2 k j)) = V c main_v36 (ix2 k j)
  refine congrArg (V c main_v36) ?_
  funext a; apply Fin.ext
  match a with
  | ⟨0, _⟩ => show win3_2.index t (0 : Fin 2) * 64 + 1 * k.val = k.val; omega
  | ⟨1, _⟩ => show win3_2.index t (1 : Fin 2) * 40 + 1 * j.val = j.val; omega

/-- The bias row's tile at every point is the bias row. -/
theorem tile_b (V : Entry) (c : Dev nD) (t : Fin cfg3.N) (j : Fin 40) :
    btile V c t (ix2 (0 : Fin 1) j) = a_v35 V c (ix2 (0 : Fin 1) j) := by
  obtain ⟨-, -, -, -, -, -, e6, e7, -⟩ := tile_idx t
  show V c main_v35 (((cfg3.win 3).blk t).view.emb (ix2 (0 : Fin 1) j)) = V c main_v35 (ix2 (0 : Fin 1) j)
  refine congrArg (V c main_v35) ?_
  funext a; apply Fin.ext
  match a with
  | ⟨0, _⟩ => show win3_3.index t (0 : Fin 2) * 1 + 1 * 0 = 0; omega
  | ⟨1, _⟩ => show win3_3.index t (1 : Fin 2) * 40 + 1 * j.val = j.val; omega

/-- Row r of the divisor column's tile at point t is row 4000 t + r of the column. -/
theorem tile_d (V : Entry) (c : Dev nD) (t : Fin cfg3.N) (r : Fin 4000) (n : Fin 100000)
    (hn : n.val = t.val * 4000 + r.val) : dtile V c t (ix2 r (0 : Fin 1)) = a_v12 V c (ix2 n (0 : Fin 1)) := by
  obtain ⟨-, -, -, -, -, -, -, -, e8, e9, -⟩ := tile_idx t
  show V c main_v12 (((cfg3.win 4).blk t).view.emb (ix2 r (0 : Fin 1))) = V c main_v12 (ix2 n (0 : Fin 1))
  refine congrArg (V c main_v12) ?_
  funext a; apply Fin.ext
  match a with
  | ⟨0, _⟩ => show win3_4.index t (0 : Fin 2) * 4000 + 1 * r.val = n.val; omega
  | ⟨1, _⟩ => show win3_4.index t (1 : Fin 2) * 1 + 1 * 0 = 0; omega

/-- What point t stores at an index of its tile is the table's entry at the index under it. -/
theorem tile_eq (V : Entry) (c : Dev nD) (t : Fin cfg3.N) (y : S4000x40.Idx) (i : S100000x40.Idx)
    (h0 : (i 0).val = t.val * 4000 + (y 0).val) (h1 : (i 1).val = (y 1).val) :
    k3_pay1 (F := Ideal) (aggtile V c t) (dtile V c t) (htile V c t) (wtile V c t) (btile V c t) y = fin_out V c i := by
  obtain ⟨r, j, rfl⟩ : ∃ (r : Fin 4000) (j : Fin 40), y = ix2 r j := ⟨y 0, y 1, eq_ix2 y⟩
  obtain ⟨n, j', rfl⟩ : ∃ (n : Fin 100000) (j' : Fin 40), i = ix2 n j' := ⟨i 0, i 1, eq_ix2 i⟩
  obtain rfl : j = j' := (Fin.ext h1).symm
  refine (pay3_apply (aggtile V c t) (dtile V c t) (htile V c t) (wtile V c t) (btile V c t) r j).trans ?_
  show _ = lsmRow (r3_pre V c n) j
  refine congrArg (fun u : Fin 40 → EReal => lsmRow u j) (funext fun j' => ?_)
  show _ = max ((a_v34 V c (ix2 n j') * a_v12 V c (ix2 n (0 : Fin 1)))
        + (∑ k : Fin 64, a_v28 V c (ix2 n k) * a_v36 V c (ix2 k j'))
        + a_v35 V c (ix2 (0 : Fin 1) j')) 0
  exact congrArg (fun a : EReal => max a 0)
    (congrArg₂ (fun a b : EReal => a + b)
      (congrArg₂ (fun a b : EReal => a + b)
        (congrArg₂ (fun a b : EReal => a * b) (tile_agg V c t r j' n h0) (tile_d V c t r n h0))
        (Finset.sum_congr rfl fun k _ => congrArg₂ (fun a b : EReal => a * b) (tile_h V c t r k n h0) (tile_w V c t k j')))
      (tile_b V c t j'))

/-- What point t writes back is tile t of the table. -/
theorem flushed_eq (V : Entry) (c : Dev nD) (t : Fin cfg3.N) :
    (dat3 (F := Ideal) V c).flushed 5 t = ((cfg3.win 5).blk t).view.read (Elt Ideal) (fin_out V c) := by
  show (cfg3.win 5).cut (grid3.coords t) ((dat3 (F := Ideal) V c).after 5 t) = _
  rw [after3_5]
  unfold out3_5
  rw [View.canon_unit_zero zero_offsets]
  simp only [View.ld_unit_zero (S := S4000x40) zero_offsets, View.ld_unit_zero (S := S4000x64) zero_offsets,
    View.ld_unit_zero (S := S64x40) zero_offsets, View.ld_unit_zero (S := S1x40) zero_offsets,
    View.ld_unit_zero (S := S4000x1) zero_offsets]
  obtain ⟨-, -, -, -, -, -, -, -, -, -, e10, e11⟩ := tile_idx t
  funext y
  refine tile_eq V c t y (((cfg3.win 5).blk t).view.emb y) ?_ ?_
  · show win3_5.index t (0 : Fin 2) * 4000 + 1 * (y 0).val = t.val * 4000 + (y 0).val; omega
  · show win3_5.index t (1 : Fin 2) * 40 + 1 * (y 1).val = (y 1).val; omega

/-- An index of the array is in point t's tile iff each coordinate is in the tile's range on its axis. -/
theorem mem_tile (t : Fin cfg3.N) (i : S100000x40.Idx) :
    i ∈ ((cfg3.win 5).blk t).view.set ↔ ∀ a : Fin 2, win3_5.index t a * S4000x40.size a ≤ (i a).val ∧ (i a).val < win3_5.index t a * S4000x40.size a + S4000x40.size a := by
  show i ∈ ((View.whole main_v37).slice (win3_5.rect t)).set ↔ _
  rw [View.set_slice_whole, Rect.mem_set_unit]
  exact Iff.rfl

/-- Row n lies in tile n / 4000. -/
theorem covered (i : S100000x40.Idx) :
    ∃ t : Fin cfg3.N, (cfg3.win 5).flush t = true ∧ i ∈ ((cfg3.win 5).blk t).view.set := by
  have hi0 : (i 0).val < 100000 := (i 0).isLt
  have hi1 : (i 1).val < 40 := (i 1).isLt
  have hN : cfg3.N = 25 := by decide +kernel
  let t : Fin cfg3.N := ⟨(i 0).val / 4000, by rw [hN]; omega⟩
  obtain ⟨-, -, -, -, -, -, -, -, -, -, e10, e11⟩ := tile_idx t
  have ht : t.val = (i 0).val / 4000 := rfl
  refine ⟨t, flush3_5 t, ?_⟩
  rw [mem_tile]
  intro a
  match a with
  | ⟨0, _⟩ => show win3_5.index t (0 : Fin 2) * 4000 ≤ (i 0).val ∧ (i 0).val < win3_5.index t (0 : Fin 2) * 4000 + 4000; omega
  | ⟨1, _⟩ => show win3_5.index t (1 : Fin 2) * 40 ≤ (i 1).val ∧ (i 1).val < win3_5.index t (1 : Fin 2) * 40 + 40; omega

end Reg3

/-- REGION 3's output array at row n and column j, from the arrays the region is entered with. -/
theorem reg3_value (V : Entry) (c : Dev nD) (n : Fin 100000) (j : Fin 40) :
    r3_out V c (ix2 n j) = lsm (r3_pre V c) n j :=
  congrFun ((dat3 (F := Ideal) V c).arrAt_eq_of_cover 5 (Reg3.fin_out V c) (fun t _ => Reg3.flushed_eq V c t) Reg3.covered) (ix2 n j)

end Cert.KernelIdeal.SageK

end
-- ==== Proof.KStage3.lean ====
/-
  The last layer of the tiled program: the projection kernel multiplies the second layer's table by Wl; the
  projected rows named by the source words are taken and summed into their destination nodes; the last tile
  kernel scales by the reciprocal divisor, adds the node's own row times Wr and the bias, clips at zero and
  applies the row-wise log-softmax.
-/
import proofs.«425072_j22376779612323_3_alg».proof.Proof.KCarried
import proofs.«425072_j22376779612323_3_alg».proof.Proof.LibRowOps
import proofs.«425072_j22376779612323_3_alg».proof.Proof.KReg2
import proofs.«425072_j22376779612323_3_alg».proof.Proof.KReg3
import proofs.«425072_j22376779612323_3_alg».proof.Proof.KTake
import proofs.«425072_j22376779612323_3_alg».proof.Proof.KCarryThrough
import proofs.«425072_j22376779612323_3_alg».proof.Proof.LibTypedRef
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The host stretches of this stage, each read as a value over the contents it finds -/

namespace St3

/-- The take stretch of layer three writes, into the taken-rows buffer, the take of the projected table by the source
    words, both as found at the stretch's entry. -/
theorem ops3_v31 (V : Valuation τ sig (Elt Ideal)) :
    (StableHlo.after hostOps3 V (Proc.devRef .tc main_v31) : S1600000x40.Idx → EReal)
      = takeK40 (V (Proc.devRef .tc main_v30)) (V (Proc.devRef .tc main_v1)) := by
  -- reading a buffer at its own type, and writing one, is the identity
  have e1 : ((StableHlo.TRef.of main_v1 : StableHlo.TRef sig ⟨S1600000, .i32⟩).ofBuf (V (Proc.devRef .tc main_v1)) : IVec S1600000 32)
      = V (Proc.devRef .tc main_v1) := rfl
  have e30 : ((StableHlo.TRef.of main_v30 : StableHlo.TRef sig ⟨S100000x40, .f32⟩).ofBuf (V (Proc.devRef .tc main_v30)) : FVec Ideal S100000x40 .f32)
      = V (Proc.devRef .tc main_v30) := rfl
  have e31 : ∀ X : FVec Ideal S1600000x40 .f32,
      (StableHlo.TRef.toBuf (Val := Elt Ideal) (StableHlo.TRef.of main_v31 : StableHlo.TRef sig ⟨S1600000x40, .f32⟩) X
        : S1600000x40.Idx → EReal) = X := fun _ => rfl
  after_results_simp
  simp only [Cert.Lib.TypedRef.ofBuf_toBuf, Cert.Lib.TypedRef.toBuf_ofBuf, e1, e30, e31, takeK40]

/-- The scatter stretch as a term of the taken rows and the destination words: the rows summed into a zero table at
    the nodes the destination words name. -/
def scat40 (u : FVec Ideal S1600000x40 .f32) (d : IVec S1600000 32) : FVec Ideal S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 d) u

/-- The aggregation stretch is the scatter stretch applied to the take stretch's rows. -/
theorem aggK40_eq_scat40 (x : FVec Ideal S100000x40 .f32) (s d : IVec S1600000 32) :
    aggK40 x s d = scat40 (takeK40 x s) d := rfl

/-- The scatter stretch of layer three writes, into the aggregated-table buffer, the scatter of the taken rows by the
    destination words, both as found at the stretch's entry. -/
theorem ops3_1_v34 (V : Valuation τ sig (Elt Ideal)) :
    (StableHlo.after hostOps3_1 V (Proc.devRef .tc main_v34) : S100000x40.Idx → EReal)
      = scat40 (V (Proc.devRef .tc main_v31)) (V (Proc.devRef .tc main_v3)) := by
  after_results
  rfl

/-- The scatter stretch writes the bias, laid out as one row, into the bias-row buffer. -/
theorem ops3_1_v35 (V : Valuation τ sig (Elt Ideal)) (j : Fin 40) :
    (StableHlo.after hostOps3_1 V (Proc.devRef .tc main_v35) : S1x40.Idx → EReal) (ix2 (0 : Fin 1) j)
      = (V (Proc.devRef .tc main_arg10) : S40.Idx → EReal) (ix1 j) := by
  have e : (StableHlo.after hostOps3_1 V (Proc.devRef .tc main_v35) : S1x40.Idx → EReal)
      = shapeCast S1x40 (V (Proc.devRef .tc main_arg10) : S40.Idx → EReal) shapeCasts_S40_S1x40 := by
    after_results
    rfl
  rw [e]
  exact shapeCast_a_1a_apply _ _ _ _

/-- The scatter stretch writes the third layer's second matrix, unchanged at the extended reals, into its
    narrow-format buffer. -/
theorem ops3_1_v36 (V : Valuation τ sig (Elt Ideal)) :
    (StableHlo.after hostOps3_1 V (Proc.devRef .tc main_v36) : S64x40.Idx → EReal)
      = V (Proc.devRef .tc main_arg9) := by
  after_results
  rfl

/-- The stretch before the projection kernel writes the third layer's first matrix, unchanged at the extended reals,
    into its narrow-format buffer. -/
theorem ops2_v29 (V : Valuation τ sig (Elt Ideal)) :
    (StableHlo.after hostOps2 V (Proc.devRef .tc main_v29) : S64x40.Idx → EReal)
      = V (Proc.devRef .tc main_arg8) := by
  after_results
  rfl

/-- The stretch before the projection kernel does not write the second layer's output. -/
theorem keep2_v28 (V : Valuation τ sig (Elt Ideal)) :
    StableHlo.after hostOps2 V (Proc.devRef .tc main_v28) = V (Proc.devRef .tc main_v28) :=
  StableHlo.after_of_forall_not_mem (b := Proc.devRef .tc main_v28) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The take stretch of layer three does not write the second layer's output. -/
theorem keep3_v28 (V : Valuation τ sig (Elt Ideal)) :
    StableHlo.after hostOps3 V (Proc.devRef .tc main_v28) = V (Proc.devRef .tc main_v28) :=
  StableHlo.after_of_forall_not_mem (b := Proc.devRef .tc main_v28) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The scatter stretch of layer three does not write the second layer's output. -/
theorem keep3_1_v28 (V : Valuation τ sig (Elt Ideal)) :
    StableHlo.after hostOps3_1 V (Proc.devRef .tc main_v28) = V (Proc.devRef .tc main_v28) :=
  StableHlo.after_of_forall_not_mem (b := Proc.devRef .tc main_v28) _ _ (List.forall_iff_forall_mem.mp (by
    simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end St3

open St3

/-- LAYER THREE AND THE LOG-SOFTMAX: from the carried facts and the second layer's output at region 1's exit, the
    result buffer at the last boundary. -/
theorem stage3 (c : Dev nD) (hsrc : SrcInRange (srcW m c)) (h2 : Fin NN → Fin 64 → EReal)
    (h : Carried m (V7 (F := Ideal) m ρ) c) (hv : a_v28 (V7 (F := Ideal) m ρ) c = arr2 h2) :
    a_v37 (V12 (F := Ideal) m ρ) c
      = arr2 (lsm (layerP (srcW m c) (dstW m c) h2 (cur2 (m_arg8 m c)) (cur2 (m_arg9 m c)) (cur1 (m_arg10 m c)))) := by
  -- what every boundary keeps, at the four boundaries of this stage
  have c8 := carried_V8 m ρ c h
  have c9 := carried_V9 m ρ c c8
  have c10 := carried_W10 m ρ c c9
  have c11 := carried_V11 m ρ c c10
  -- the second layer's output is read, never written, from here on
  have e28_8 : a_v28 (V8 (F := Ideal) m ρ) c = arr2 h2 := (keep2_v28 (W7 (F := Ideal) m ρ c)).trans hv
  have e28_9 : a_v28 (V9 (F := Ideal) m ρ) c = arr2 h2 :=
    ((W9_arr m ρ c 0).trans (((dat2 (V8 m ρ) c).arrAt_in 0 rfl _).trans (A_eq2 (V8 m ρ) c 0))).trans e28_8
  have e28_11 : a_v28 (V11 (F := Ideal) m ρ) c = arr2 h2 :=
    ((keep3_1_v28 (W10 (F := Ideal) m ρ c)).trans (keep3_v28 (W9 (F := Ideal) m ρ c))).trans e28_9
  -- the projection: the second layer's table times the third layer's first matrix
  have e29_8 : a_v29 (V8 (F := Ideal) m ρ) c = m_arg8 m c := (ops2_v29 (W7 (F := Ideal) m ρ c)).trans h.arg8
  have e30_9 : a_v30 (V9 (F := Ideal) m ρ) c = arr2 (tmul h2 (cur2 (m_arg8 m c))) := by
    refine (W9_arr m ρ c 2).trans ?_
    funext i
    obtain ⟨n, j, rfl⟩ : ∃ (n : Fin 100000) (j : Fin 40), i = ix2 n j := ⟨i 0, i 1, eq_ix2 i⟩
    refine (reg2_value (V8 m ρ) c n j).trans ?_
    rw [e28_8, e29_8]
    rfl
  -- the projected rows taken by the source words and summed into the destination nodes
  have hs : SrcInRange (fun e => a_v1 (V9 (F := Ideal) m ρ) c (ix1 e)) := by
    rw [c9.src]; exact hsrc
  have e31_10 : (W10 (F := Ideal) m ρ c (Proc.devRef .tc main_v31) : S1600000x40.Idx → EReal)
      = takeK40 (a_v30 (V9 (F := Ideal) m ρ) c) (a_v1 (V9 (F := Ideal) m ρ) c) := ops3_v31 (W9 (F := Ideal) m ρ c)
  have e34_11 : a_v34 (V11 (F := Ideal) m ρ) c
      = arr2 (aggr (srcW m c) (dstW m c) (tmul h2 (cur2 (m_arg8 m c)))) := by
    refine (ops3_1_v34 (W10 (F := Ideal) m ρ c)).trans ?_
    rw [e31_10, ← aggK40_eq_scat40, aggK40_eq _ _ _ hs, c9.src, e30_9]
    rw [show (W10 (F := Ideal) m ρ c (Proc.devRef .tc main_v3) : S1600000.Idx → BitVec 32)
      = fun i => dstW m c (i 0) from c10.dst]
    rfl
  -- the bias row and the third layer's second matrix
  have e35_11 : ∀ j : Fin 40, a_v35 (V11 (F := Ideal) m ρ) c (ix2 (0 : Fin 1) j) = m_arg10 m c (ix1 j) := fun j =>
    (ops3_1_v35 (W10 (F := Ideal) m ρ c) j).trans (congrFun c10.arg10 (ix1 j))
  have e36_11 : a_v36 (V11 (F := Ideal) m ρ) c = m_arg9 m c := (ops3_1_v36 (W10 (F := Ideal) m ρ c)).trans c10.arg9
  -- the table the last kernel applies the log-softmax to is the projected form of the layer
  have epre : r3_pre (V11 (F := Ideal) m ρ) c
      = layerP (srcW m c) (dstW m c) h2 (cur2 (m_arg8 m c)) (cur2 (m_arg9 m c)) (cur1 (m_arg10 m c)) := by
    funext n j
    unfold r3_pre layerP
    rw [e34_11, c11.rdiv, e28_11, e36_11, e35_11 j]
    rfl
  -- the last kernel's output
  refine (W12_arr m ρ c 5).trans ?_
  funext i
  obtain ⟨n, j, rfl⟩ : ∃ (n : Fin 100000) (j : Fin 40), i = ix2 n j := ⟨i 0, i 1, eq_ix2 i⟩
  refine (reg3_value (V11 m ρ) c n j).trans ?_
  rw [epre]
  rfl

end Cert.KernelIdeal.SageK

end
-- ==== Proof.KValue.lean ====
/-
  The tiled program's result as one function of its arguments: the three stages composed.
-/
import proofs.«425072_j22376779612323_3_alg».proof.Proof.KCarried
import proofs.«425072_j22376779612323_3_alg».proof.Proof.KStage0
import proofs.«425072_j22376779612323_3_alg».proof.Proof.KStage1
import proofs.«425072_j22376779612323_3_alg».proof.Proof.KStage2
import proofs.«425072_j22376779612323_3_alg».proof.Proof.KStage3
import Idealize.ShloMosaic.Lib.ValueIdx
import Idealize.ShloMosaic.Lib.Pipeline.Value
import Idealize.ShloMosaic.PureOps.Ideal.Laws

set_option maxRecDepth 16384

noncomputable section

namespace Cert.KernelIdeal.SageK

open Cert.KernelIdeal Cert.KernelIdeal.Gen Cert.Sage
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- THE RESULT BUFFER at the last boundary is the tiled network of the launched arguments, when every source word
    names a row of the table. -/
theorem kernel_value (c : Dev nD) (hsrc : SrcInRange (srcW m c)) :
    a_v37 (V12 (F := Ideal) m ρ) c
      = arr2 (outK (srcW m c) (dstW m c) (cur2 (m_arg0 m c))
          (cur2 (m_arg2 m c)) (cur2 (m_arg3 m c)) (cur1 (m_arg4 m c))
          (cur2 (m_arg5 m c)) (cur2 (m_arg6 m c)) (cur1 (m_arg7 m c))
          (cur2 (m_arg8 m c)) (cur2 (m_arg9 m c)) (cur1 (m_arg10 m c))) := by
  obtain ⟨hc4, hv20⟩ := stage1 m ρ c hsrc (carried_W1 m ρ c)
  obtain ⟨hc7, hv28⟩ := stage2 m ρ c hsrc _ hc4 hv20
  exact stage3 m ρ c hsrc _ hc7 hv28

end Cert.KernelIdeal.SageK

end
-- ==== Proof.RefRunValue.lean ====
/-
  The reference program's 121 host operations, folded over the launch contents, leave in the result buffer the
  last of the stages that read the program one operation at a time: each operation's result is its stage of the
  arguments, by induction along the program, a stretch of operations at a time.
-/
import proofs.«425072_j22376779612323_3_alg».proof.Proof.RefReadP
import Idealize.ShloMosaic.Lib.StableHlo.Run
import proofs.«425072_j22376779612323_3_alg».proof.Proof.LibTypedRef

set_option maxRecDepth 16384

noncomputable section

namespace Cert.ReferenceIdeal.SageR

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

namespace RunValue

/-! ## The fold of a concatenation -/

/-- The fold over a concatenation is the fold over the second list, started from the fold over the first. -/
theorem after_append' {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append' l₁ l₂]

/-! ## The five stretches of the program

The program is three layers of the same shape and a closing log-softmax. Every layer reads the source words
`main_v1`, the destination words `main_v3`, the layer before it (the features `main_arg0` for the first) and
its own three parameters; nothing else crosses from one layer to the next. So the list is cut after `main_v3`,
after each layer's output (`main_v29`, `main_v55`, `main_v81`), and the fold is taken one stretch at a time:
from ANY contents `W` that hold the right stages in the few buffers the stretch reads, the stretch leaves the
right stage in the buffer it hands on, and leaves alone every buffer it does not write. -/

/-- The two slices of the edge list and their reshapes: `main_v0 … main_v3`. -/
def A1 : List (HloOp τ sig (Elt F)) := (ops (F := F)).take 4
/-- Layer 1: the 34 operations from `main_c` to `main_v29`. -/
def A2 : List (HloOp τ sig (Elt F)) := ((ops (F := F)).drop 4).take 34
/-- Layer 2: the 34 operations from `main_c_4` to `main_v55`. -/
def A3 : List (HloOp τ sig (Elt F)) := ((ops (F := F)).drop 38).take 34
/-- Layer 3: the 34 operations from `main_c_10` to `main_v81`. -/
def A4 : List (HloOp τ sig (Elt F)) := ((ops (F := F)).drop 72).take 34
/-- The log-softmax: the last 15 operations, to `main_v82`. -/
def A5 : List (HloOp τ sig (Elt F)) := (ops (F := F)).drop 106

/-- The program is its five stretches in order. -/
theorem ops_cut : (ops (F := F)) = A1 ++ (A2 ++ (A3 ++ (A4 ++ A5))) := rfl

/-! ### Stretch 1: the source and destination words -/

theorem S1_v1 (W : Valuation τ sig (Elt F)) :
    after (A1 (F := F)) W (Proc.devRef .tc main_v1) = val_main_v1 (F := F) (W (Proc.devRef .tc main_arg1)) := by
  simp only [A1, ops, List.drop_succ_cons, List.drop_zero, List.take_succ_cons, List.take_zero]
  after_results_simp
  rfl

theorem S1_v3 (W : Valuation τ sig (Elt F)) :
    after (A1 (F := F)) W (Proc.devRef .tc main_v3) = val_main_v3 (F := F) (W (Proc.devRef .tc main_arg1)) := by
  simp only [A1, ops, List.drop_succ_cons, List.drop_zero, List.take_succ_cons, List.take_zero]
  after_results_simp
  rfl

/-- Stretch 1 writes none of the other arguments. -/
theorem S1_frame (W : Valuation τ sig (Elt F)) :
    after (A1 (F := F)) W (Proc.devRef .tc main_arg0) = W (Proc.devRef .tc main_arg0)
    ∧ after (A1 (F := F)) W (Proc.devRef .tc main_arg2) = W (Proc.devRef .tc main_arg2)
    ∧ after (A1 (F := F)) W (Proc.devRef .tc main_arg3) = W (Proc.devRef .tc main_arg3)
    ∧ after (A1 (F := F)) W (Proc.devRef .tc main_arg4) = W (Proc.devRef .tc main_arg4)
    ∧ after (A1 (F := F)) W (Proc.devRef .tc main_arg5) = W (Proc.devRef .tc main_arg5)
    ∧ after (A1 (F := F)) W (Proc.devRef .tc main_arg6) = W (Proc.devRef .tc main_arg6)
    ∧ after (A1 (F := F)) W (Proc.devRef .tc main_arg7) = W (Proc.devRef .tc main_arg7)
    ∧ after (A1 (F := F)) W (Proc.devRef .tc main_arg8) = W (Proc.devRef .tc main_arg8)
    ∧ after (A1 (F := F)) W (Proc.devRef .tc main_arg9) = W (Proc.devRef .tc main_arg9)
    ∧ after (A1 (F := F)) W (Proc.devRef .tc main_arg10) = W (Proc.devRef .tc main_arg10) := by
  simp only [A1, ops, List.drop_succ_cons, List.drop_zero, List.take_succ_cons, List.take_zero]
  refine ⟨?_, ?_, ?_, ?_, ?_, ?_, ?_, ?_, ?_, ?_⟩ <;> after_results_simp

/-! ### Stretch 2: layer 1 -/

theorem S2_v29 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F))
    (h1 : W (Proc.devRef .tc main_v1) = val_main_v1 (F := F) x1) (h3 : W (Proc.devRef .tc main_v3) = val_main_v3 (F := F) x1)
    (a0 : W (Proc.devRef .tc main_arg0) = x0) (a2 : W (Proc.devRef .tc main_arg2) = x2)
    (a3 : W (Proc.devRef .tc main_arg3) = x3) (a4 : W (Proc.devRef .tc main_arg4) = x4) :
    after (A2 (F := F)) W (Proc.devRef .tc main_v29) = val_main_v29 (F := F) x0 x1 x2 x3 x4 := by
  simp only [A2, ops, List.drop_succ_cons, List.drop_zero, List.take_succ_cons, List.take_zero]
  after_results_simp
  rw [h1, h3, a0, a2, a3, a4]
  unfold val_main_v29 val_main_call0_v0 val_main_call0_cst val_main_v28 val_main_v27 val_main_v26 val_main_v25 val_main_v24 val_main_v23 val_main_v22 val_main_v21 val_main_v20 val_main_v19 val_main_v18 val_main_cst_3 val_main_v17 val_main_v16 val_main_v15 val_main_cst_2 val_main_v14 val_main_cst_1 val_main_v13 val_main_v12 val_main_v11 val_main_cst val_main_v10 val_main_v9 val_main_v8 val_main_v7 val_main_v6 val_main_c_0 val_main_v5 val_main_v4 val_main_c
  simp only [TRef.ofBuf, TRef.toBuf, cast_eq]

/-- Layer 1 writes neither the edge words nor the later layers' parameters. -/
theorem S2_frame (W : Valuation τ sig (Elt F)) :
    after (A2 (F := F)) W (Proc.devRef .tc main_v1) = W (Proc.devRef .tc main_v1)
    ∧ after (A2 (F := F)) W (Proc.devRef .tc main_v3) = W (Proc.devRef .tc main_v3)
    ∧ after (A2 (F := F)) W (Proc.devRef .tc main_arg5) = W (Proc.devRef .tc main_arg5)
    ∧ after (A2 (F := F)) W (Proc.devRef .tc main_arg6) = W (Proc.devRef .tc main_arg6)
    ∧ after (A2 (F := F)) W (Proc.devRef .tc main_arg7) = W (Proc.devRef .tc main_arg7)
    ∧ after (A2 (F := F)) W (Proc.devRef .tc main_arg8) = W (Proc.devRef .tc main_arg8)
    ∧ after (A2 (F := F)) W (Proc.devRef .tc main_arg9) = W (Proc.devRef .tc main_arg9)
    ∧ after (A2 (F := F)) W (Proc.devRef .tc main_arg10) = W (Proc.devRef .tc main_arg10) := by
  simp only [A2, ops, List.drop_succ_cons, List.drop_zero, List.take_succ_cons, List.take_zero]
  refine ⟨?_, ?_, ?_, ?_, ?_, ?_, ?_, ?_⟩ <;> after_results_simp

/-! ### Stretch 3: layer 2 -/

theorem S3_v55 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64x64, .f32⟩ : BufTy).Contents (Elt F)) (x7 : (⟨S64, .f32⟩ : BufTy).Contents (Elt F))
    (h1 : W (Proc.devRef .tc main_v1) = val_main_v1 (F := F) x1) (h3 : W (Proc.devRef .tc main_v3) = val_main_v3 (F := F) x1)
    (h29 : W (Proc.devRef .tc main_v29) = val_main_v29 (F := F) x0 x1 x2 x3 x4)
    (a5 : W (Proc.devRef .tc main_arg5) = x5) (a6 : W (Proc.devRef .tc main_arg6) = x6) (a7 : W (Proc.devRef .tc main_arg7) = x7) :
    after (A3 (F := F)) W (Proc.devRef .tc main_v55) = val_main_v55 (F := F) x0 x1 x2 x3 x4 x5 x6 x7 := by
  simp only [A3, ops, List.drop_succ_cons, List.drop_zero, List.take_succ_cons, List.take_zero]
  after_results_simp
  rw [h1, h3, h29, a5, a6, a7]
  unfold val_main_v55 val_main_call1_v0 val_main_call1_cst val_main_v54 val_main_v53 val_main_v52 val_main_v51 val_main_v50 val_main_v49 val_main_v48 val_main_v47 val_main_v46 val_main_v45 val_main_v44 val_main_cst_9 val_main_v43 val_main_v42 val_main_v41 val_main_cst_8 val_main_v40 val_main_cst_7 val_main_v39 val_main_v38 val_main_v37 val_main_cst_6 val_main_v36 val_main_v35 val_main_v34 val_main_v33 val_main_v32 val_main_c_5 val_main_v31 val_main_v30 val_main_c_4
  simp only [TRef.ofBuf, TRef.toBuf, cast_eq]

/-- Layer 2 writes neither the edge words nor the last layer's parameters. -/
theorem S3_frame (W : Valuation τ sig (Elt F)) :
    after (A3 (F := F)) W (Proc.devRef .tc main_v1) = W (Proc.devRef .tc main_v1)
    ∧ after (A3 (F := F)) W (Proc.devRef .tc main_v3) = W (Proc.devRef .tc main_v3)
    ∧ after (A3 (F := F)) W (Proc.devRef .tc main_arg8) = W (Proc.devRef .tc main_arg8)
    ∧ after (A3 (F := F)) W (Proc.devRef .tc main_arg9) = W (Proc.devRef .tc main_arg9)
    ∧ after (A3 (F := F)) W (Proc.devRef .tc main_arg10) = W (Proc.devRef .tc main_arg10) := by
  simp only [A3, ops, List.drop_succ_cons, List.drop_zero, List.take_succ_cons, List.take_zero]
  refine ⟨?_, ?_, ?_, ?_, ?_⟩ <;> after_results_simp

/-! ### Stretch 4: layer 3 -/

theorem S4_v81 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64x64, .f32⟩ : BufTy).Contents (Elt F)) (x7 : (⟨S64, .f32⟩ : BufTy).Contents (Elt F)) (x8 : (⟨S64x40, .f32⟩ : BufTy).Contents (Elt F)) (x9 : (⟨S64x40, .f32⟩ : BufTy).Contents (Elt F)) (x10 : (⟨S40, .f32⟩ : BufTy).Contents (Elt F))
    (h1 : W (Proc.devRef .tc main_v1) = val_main_v1 (F := F) x1) (h3 : W (Proc.devRef .tc main_v3) = val_main_v3 (F := F) x1)
    (h55 : W (Proc.devRef .tc main_v55) = val_main_v55 (F := F) x0 x1 x2 x3 x4 x5 x6 x7)
    (a8 : W (Proc.devRef .tc main_arg8) = x8) (a9 : W (Proc.devRef .tc main_arg9) = x9) (a10 : W (Proc.devRef .tc main_arg10) = x10) :
    after (A4 (F := F)) W (Proc.devRef .tc main_v81) = val_main_v81 (F := F) x0 x1 x2 x3 x4 x5 x6 x7 x8 x9 x10 := by
  simp only [A4, ops, List.drop_succ_cons, List.drop_zero, List.take_succ_cons, List.take_zero]
  after_results_simp
  rw [h1, h3, h55, a8, a9, a10]
  unfold val_main_v81 val_main_call2_v0 val_main_call2_cst val_main_v80 val_main_v79 val_main_v78 val_main_v77 val_main_v76 val_main_v75 val_main_v74 val_main_v73 val_main_v72 val_main_v71 val_main_v70 val_main_cst_15 val_main_v69 val_main_v68 val_main_v67 val_main_cst_14 val_main_v66 val_main_cst_13 val_main_v65 val_main_v64 val_main_v63 val_main_cst_12 val_main_v62 val_main_v61 val_main_v60 val_main_v59 val_main_v58 val_main_c_11 val_main_v57 val_main_v56 val_main_c_10
  simp only [TRef.ofBuf, TRef.toBuf, cast_eq]

/-! ### Stretch 5: the log-softmax -/

theorem S5_v82 (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64x64, .f32⟩ : BufTy).Contents (Elt F)) (x7 : (⟨S64, .f32⟩ : BufTy).Contents (Elt F)) (x8 : (⟨S64x40, .f32⟩ : BufTy).Contents (Elt F)) (x9 : (⟨S64x40, .f32⟩ : BufTy).Contents (Elt F)) (x10 : (⟨S40, .f32⟩ : BufTy).Contents (Elt F))
    (h81 : W (Proc.devRef .tc main_v81) = val_main_v81 (F := F) x0 x1 x2 x3 x4 x5 x6 x7 x8 x9 x10) :
    after (A5 (F := F)) W (Proc.devRef .tc main_v82) = val_main_v82 (F := F) x0 x1 x2 x3 x4 x5 x6 x7 x8 x9 x10 := by
  simp only [A5, ops, List.drop_succ_cons, List.drop_zero, List.take_succ_cons, List.take_zero]
  after_results_simp
  rw [h81]
  simp only [Cert.Lib.TypedRef.ofBuf_toBuf]
  unfold val_main_v82 val_main_call3_v10 val_main_call3_v9 val_main_call3_v8 val_main_call3_v7 val_main_call3_cst_1 val_main_call3_v6 val_main_call3_v5 val_main_call3_v4 val_main_call3_v3 val_main_call3_v2 val_main_call3_v1 val_main_call3_cst_0 val_main_call3_v0 val_main_call3_cst
  rfl

/-! ## The stretches in order -/

/-- The fold over the whole program is the five stretches' folds, one after the other. -/
theorem after_ops_cut (V : Valuation τ sig (Elt F)) :
    after (ops (F := F)) V = after A5 (after A4 (after A3 (after A2 (after A1 V)))) := by
  rw [ops_cut, after_append', after_append', after_append', after_append']

/-- From any contents that hold the arguments, the five stretches in order leave the last stage in the result
    buffer: each stretch's output is the next one's input, and the edge words and the parameters not yet used
    are carried through the stretches that do not write them. -/
theorem fold_result (W : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64x64, .f32⟩ : BufTy).Contents (Elt F)) (x7 : (⟨S64, .f32⟩ : BufTy).Contents (Elt F)) (x8 : (⟨S64x40, .f32⟩ : BufTy).Contents (Elt F)) (x9 : (⟨S64x40, .f32⟩ : BufTy).Contents (Elt F)) (x10 : (⟨S40, .f32⟩ : BufTy).Contents (Elt F))
    (a0 : W (Proc.devRef .tc main_arg0) = x0) (a1 : W (Proc.devRef .tc main_arg1) = x1) (a2 : W (Proc.devRef .tc main_arg2) = x2) (a3 : W (Proc.devRef .tc main_arg3) = x3) (a4 : W (Proc.devRef .tc main_arg4) = x4) (a5 : W (Proc.devRef .tc main_arg5) = x5) (a6 : W (Proc.devRef .tc main_arg6) = x6) (a7 : W (Proc.devRef .tc main_arg7) = x7) (a8 : W (Proc.devRef .tc main_arg8) = x8) (a9 : W (Proc.devRef .tc main_arg9) = x9) (a10 : W (Proc.devRef .tc main_arg10) = x10) :
    after (A5 (F := F)) (after A4 (after A3 (after A2 (after A1 W)))) (Proc.devRef .tc main_v82)
      = val_main_v82 (F := F) x0 x1 x2 x3 x4 x5 x6 x7 x8 x9 x10 := by
  -- after the slices: the edge words are in place, the other arguments untouched
  obtain ⟨f0, f2, f3, f4, f5, f6, f7, f8, f9, f10⟩ := S1_frame W
  have h1 : after (A1 (F := F)) W (Proc.devRef .tc main_v1) = val_main_v1 (F := F) x1 := by rw [S1_v1, a1]
  have h3 : after (A1 (F := F)) W (Proc.devRef .tc main_v3) = val_main_v3 (F := F) x1 := by rw [S1_v3, a1]
  -- after layer 1
  obtain ⟨g1, g3, g5, g6, g7, g8, g9, g10⟩ := S2_frame (after (A1 (F := F)) W)
  have h29 := S2_v29 (after (A1 (F := F)) W) x0 x1 x2 x3 x4 h1 h3
    (f0.trans a0) (f2.trans a2) (f3.trans a3) (f4.trans a4)
  -- after layer 2
  obtain ⟨k1, k3, k8, k9, k10⟩ := S3_frame (after (A2 (F := F)) (after A1 W))
  have h55 := S3_v55 (after (A2 (F := F)) (after A1 W)) x0 x1 x2 x3 x4 x5 x6 x7 (g1.trans h1) (g3.trans h3) h29
    (g5.trans (f5.trans a5)) (g6.trans (f6.trans a6)) (g7.trans (f7.trans a7))
  -- after layer 3
  have h81 := S4_v81 (after (A3 (F := F)) (after A2 (after A1 W))) x0 x1 x2 x3 x4 x5 x6 x7 x8 x9 x10
    (k1.trans (g1.trans h1)) (k3.trans (g3.trans h3)) h55
    (k8.trans (g8.trans (f8.trans a8))) (k9.trans (g9.trans (f9.trans a9))) (k10.trans (g10.trans (f10.trans a10)))
  -- the log-softmax
  exact S5_v82 _ x0 x1 x2 x3 x4 x5 x6 x7 x8 x9 x10 h81

end RunValue

/-- THE FOLD AT THE RESULT BUFFER is the last stage of the launched arguments. -/
theorem after_ops_result (m : (ℓ : Loc nD τ sig) → Buf (Elt F) ℓ) (c : Dev nD) :
    after (ops (F := F)) (launchContents m c) (Proc.devRef .tc main_v82)
      = val_main_v82 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  rw [RunValue.after_ops_cut]
  exact RunValue.fold_result (launchContents m c) _ _ _ _ _ _ _ _ _ _ _ rfl rfl rfl rfl rfl rfl rfl rfl rfl rfl rfl

end Cert.ReferenceIdeal.SageR

end
-- ==== Proof.RefLsm.lean ====
/-
  The reference program's closing row-wise log-softmax, read as a value.  From the last layer's table u it takes
  each row's maximum (from minus infinity, and once more against minus infinity, which changes nothing), subtracts
  it, exponentiates, sums each row, takes the logarithm and subtracts that: at (n, c) it leaves
      (u[n,c] - M_n) - log (sum_c' exp (u[n,c'] - M_n)),   M_n = max_c' u[n,c'].
-/
import proofs.«425072_j22376779612323_3_alg».proof.Defs
import proofs.«425072_j22376779612323_3_alg».proof.Proof.Gen.ReferenceIdeal
import proofs.«425072_j22376779612323_3_alg».proof.Proof.RefReadP
import proofs.«425072_j22376779612323_3_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.SageR

open Cert.ReferenceIdeal Cert.ReferenceIdeal.Gen Cert.ReferenceIdeal.ReadP Cert.Sage
open Idealize.ShloMosaic Idealize.ShloMosaic.TcCoe Idealize.ShloMosaic.ValueIdx Idealize.SL.Sem

namespace Lsm

section
variable (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x40, .f32⟩ : BufTy).Contents (Elt Ideal)) (x10 : (⟨S40, .f32⟩ : BufTy).Contents (Elt Ideal))
    (u : Fin NN → Fin 40 → EReal)

/-- The index over row n with column k put back. -/
theorem lift_row (h : S100000x40.Reduces [1] S100000) (n : Fin 100000) (k : Fin 40) : h.lift (ix1 n) k = ix2 n k :=
  funext fun a => Fin.ext (by match a with | ⟨0, _⟩ => rfl | ⟨1, _⟩ => rfl)

/-- The row maximum the program takes is the row's largest entry from minus infinity. -/
theorem rowmax_eq (hu : val_main_v81 (F := Ideal) x0 x1 x2 x3 x4 x5 x6 x7 x8 x9 x10 = arr2 u) (n : Fin 100000) :
    val_main_call3_v0 (F := Ideal) x0 x1 x2 x3 x4 x5 x6 x7 x8 x9 x10 (ix1 n) = rowMax u n := by
  unfold val_main_call3_v0
  rw [hu]
  refine (Host.reduce_eq_fold_single (FloatOps.maximumf (F := Ideal) (φ := .f32)) (arr2 u) (val_main_call3_cst (F := Ideal))
    reducesTo_S100000x40_S100000_d1 (by decide) h_S_ (ix1 n)).trans ?_
  show (Finset.univ : Finset (Fin 40)).fold max (Ideal.ofBits .f32 0xFF800000#32) _ = _
  rw [ofBits_neg_inf]
  unfold rowMax
  exact congrArg (fun f : Fin 40 → EReal => (Finset.univ : Finset (Fin 40)).fold max ⊥ f)
    (funext fun k => congrArg (arr2 u) (lift_row _ n k))

/-- The shifted table: the entry less its row's maximum. -/
theorem shift_eq (hu : val_main_v81 (F := Ideal) x0 x1 x2 x3 x4 x5 x6 x7 x8 x9 x10 = arr2 u) (n : Fin 100000) (j : Fin 40) :
    val_main_call3_v5 (F := Ideal) x0 x1 x2 x3 x4 x5 x6 x7 x8 x9 x10 (ix2 n j) = u n j - rowMax u n := by
  have e : idx_main_call3_v3 (idx_main_call3_v4 (ix2 n j)) = ix1 n :=
    funext fun a => Fin.ext (by match a with | ⟨0, _⟩ => rfl)
  rw [val_main_call3_v5_apply, val_main_call3_v4_apply, val_main_call3_v3_apply, val_main_call3_v2_apply,
    val_main_call3_v1_apply, val_main_call3_cst_0_apply, e, rowmax_eq x0 x1 x2 x3 x4 x5 x6 x7 x8 x9 x10 u hu n, hu]
  show arr2 u (ix2 n j) - max (Ideal.ofBits .f32 0xFF800000#32) (rowMax u n) = _
  rw [ofBits_neg_inf, max_bot_left]
  rfl

end

end Lsm

/-- THE LOG-SOFTMAX TAIL: if the last layer's stage is the table u, the program's last stage is its row-wise log-softmax. -/
theorem ref_lsm (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x40, .f32⟩ : BufTy).Contents (Elt Ideal)) (x10 : (⟨S40, .f32⟩ : BufTy).Contents (Elt Ideal))
    (u : Fin NN → Fin 40 → EReal) (hu : val_main_v81 (F := Ideal) x0 x1 x2 x3 x4 x5 x6 x7 x8 x9 x10 = arr2 u) :
    val_main_v82 (F := Ideal) x0 x1 x2 x3 x4 x5 x6 x7 x8 x9 x10 = arr2 (lsm u) := by
  funext i
  obtain ⟨n, j, rfl⟩ : ∃ (n : Fin 100000) (j : Fin 40), i = ix2 n j := ⟨i 0, i 1, eq_ix2 i⟩
  have e : idx_main_call3_v8 (idx_main_call3_v10 (ix2 n j)) = ix1 n :=
    funext fun a => Fin.ext (by match a with | ⟨0, _⟩ => rfl)
  have ek : ∀ k : Fin 40, idx_main_call3_v7 (ix1 n) k = ix2 n k := fun k =>
    funext fun a => Fin.ext (by match a with | ⟨0, _⟩ => rfl | ⟨1, _⟩ => rfl)
  rw [val_main_v82_apply, val_main_call3_v10_apply, val_main_call3_v9_apply, val_main_call3_v8_apply, e,
    val_main_call3_v7_apply, val_main_call3_cst_1_apply, Lsm.shift_eq x0 x1 x2 x3 x4 x5 x6 x7 x8 x9 x10 u hu n j]
  rw [Ideal.subf_def, Ideal.hostUnary_log_def, Ideal.ofBits_def, Ideal.ofBits_zero_f32, zero_add, arr2_ix2]
  unfold lsm
  refine congrArg (fun s : EReal => (u n j - rowMax u n) - Ideal.log s) (Finset.sum_congr rfl fun k _ => ?_)
  rw [ek k, val_main_call3_v6_apply, Lsm.shift_eq x0 x1 x2 x3 x4 x5 x6 x7 x8 x9 x10 u hu n k, Ideal.hostUnary_exp_def]

end Cert.ReferenceIdeal.SageR

end
-- ==== Proof.RefValue.lean ====
/-
  The reference program's result as the plain network (Spec.lean's outR) of its arguments.  Per layer the
  reference wraps the source words, gathers the rows they name, sums them into their destination nodes by an
  accumulating scatter, counts the degrees by a scatter of ones, divides the aggregated table by the clamped
  degree, multiplies by Wl, adds the table times Wr and the bias, and clips at zero; it ends in a row-wise
  log-softmax whose row maximum is taken from minus infinity (and once more against minus infinity, which
  changes nothing).

  The three indexed operations (row gather, accumulating row scatter, scatter of ones) are first read at an index
  over abstract operands: a start word array that is the wrapped source words, a destination word array, a table
  that is zero.  The mean aggregation of any table h then reads  aggr h / dmax  at (n, c).  Each layer is its
  stage read at (n, c): two sums over the 64 columns, the bias, the clip; the second and third layers are stated
  over the previous layer's table, so no stage is opened twice.  The closing log-softmax is the companion module's.
-/
import proofs.«425072_j22376779612323_3_alg».proof.Defs
import proofs.«425072_j22376779612323_3_alg».proof.Proof.Gen.ReferenceIdeal
import proofs.«425072_j22376779612323_3_alg».proof.Proof.RefReadP
import proofs.«425072_j22376779612323_3_alg».proof.Proof.Spec
import proofs.«425072_j22376779612323_3_alg».proof.Proof.LibRowOps
import proofs.«425072_j22376779612323_3_alg».proof.Proof.RefLsm
import Idealize.ShloMosaic.Lib.ValueIdx
import Idealize.ShloMosaic.Lib.Pipeline.Value
import Idealize.ShloMosaic.PureOps.Ideal.Laws

set_option maxRecDepth 16384

noncomputable section

namespace Cert.ReferenceIdeal.SageR

open Cert.ReferenceIdeal Cert.ReferenceIdeal.Gen Cert.ReferenceIdeal.ReadP Cert.Sage
open Idealize.ShloMosaic Idealize.ShloMosaic.TcCoe Idealize.ShloMosaic.ValueIdx Idealize.SL.Sem

namespace Layers

/-! ## The edge words at an index -/

/-- The edge array's first row at e is the source word of e. -/
theorem v1_at (x1 : (⟨S2x1600000, .i32⟩ : BufTy).Contents (Elt Ideal)) (e : Fin 1600000) :
    val_main_v1 (F := Ideal) x1 (ix1 e) = srcOf x1 e := by
  rw [val_main_v1_apply, val_main_v0_apply]
  refine congrArg x1 (funext fun a => Fin.ext ?_)
  match a with
  | ⟨0, _⟩ => rfl
  | ⟨1, _⟩ => exact Nat.mod_eq_of_lt e.isLt

/-- The edge array's second row at e is the destination word of e. -/
theorem v3_at (x1 : (⟨S2x1600000, .i32⟩ : BufTy).Contents (Elt Ideal)) (e : Fin 1600000) :
    val_main_v3 (F := Ideal) x1 (ix1 e) = dstOf x1 e := by
  rw [val_main_v3_apply, val_main_v2_apply]
  refine congrArg x1 (funext fun a => Fin.ext ?_)
  match a with
  | ⟨0, _⟩ => rfl
  | ⟨1, _⟩ => exact Nat.mod_eq_of_lt e.isLt

/-- The wrapped source word of e. -/
theorem v8_at (x1 : (⟨S2x1600000, .i32⟩ : BufTy).Contents (Elt Ideal)) (e : Fin 1600000) :
    val_main_v8 (F := Ideal) x1 (ix1 e) = wrapW (srcOf x1 e) := by
  rw [val_main_v8_apply, val_main_v5_apply, val_main_v7_apply, val_main_v4_apply, val_main_v6_apply,
    val_main_c_apply, val_main_c_0_apply, v1_at]
  rfl

theorem v9_at (x1 : (⟨S2x1600000, .i32⟩ : BufTy).Contents (Elt Ideal)) (e : Fin 1600000) :
    val_main_v9 (F := Ideal) x1 (ix2 e (0 : Fin 1)) = wrapW (srcOf x1 e) := by
  rw [val_main_v9_apply, ← v8_at]
  refine congrArg (val_main_v8 (F := Ideal) x1) (funext fun a => Fin.ext ?_)
  match a with
  | ⟨0, _⟩ => rfl

theorem v12_at (x1 : (⟨S2x1600000, .i32⟩ : BufTy).Contents (Elt Ideal)) (e : Fin 1600000) :
    val_main_v12 (F := Ideal) x1 (ix2 e (0 : Fin 1)) = dstOf x1 e := by
  rw [val_main_v12_apply, ← v3_at]
  refine congrArg (val_main_v3 (F := Ideal) x1) (funext fun a => Fin.ext ?_)
  match a with
  | ⟨0, _⟩ => rfl

theorem v16_at (x1 : (⟨S2x1600000, .i32⟩ : BufTy).Contents (Elt Ideal)) (e : Fin 1600000) :
    val_main_v16 (F := Ideal) x1 (ix2 e (0 : Fin 1)) = dstOf x1 e := by
  rw [val_main_v16_apply, ← v3_at]
  refine congrArg (val_main_v3 (F := Ideal) x1) (funext fun a => Fin.ext ?_)
  match a with
  | ⟨0, _⟩ => rfl

/-! ## The three indexed operations over abstract operands -/

theorem g64_eq : gather_S100000x64_S1600000x1_S1600000x64_1_0_n_n_0_1_164
    = RowOps.rowGather 100000 1600000 64 gather_S100000x64_S1600000x1_S1600000x64_1_0_n_n_0_1_164_wf := rfl

theorem sc64_eq : scatter_S100000x64_S1600000x1_S1600000x64_1_0_0_1
    = RowOps.rowScatter 100000 1600000 64 scatter_S100000x64_S1600000x1_S1600000x64_1_0_0_1_wf := rfl

theorem sc1_eq : scatter_S100000_S1600000x1_S1600000_n_0_0_1
    = RowOps.vecScatter 100000 1600000 scatter_S100000_S1600000x1_S1600000_n_0_0_1_wf := rfl

/-- The row gather of a table by start words that are the wrapped source words, at (e, c): the table at the source
    row of e. -/
theorem gather64_at (h : (⟨2, ![100000, 64]⟩ : Shape).Idx → EReal) (idx : IVec (⟨2, ![1600000, 1]⟩ : Shape) 32)
    (src : Fin NE → BitVec 32) (e : Fin 1600000) (c : Fin 64) (hidx : idx (ix2 e (0 : Fin 1)) = wrapW (src e)) :
    Host.gather gather_S100000x64_S1600000x1_S1600000x64_1_0_n_n_0_1_164 h idx (ix2 e c)
      = h (ix2 (srcRow src e) c) := by
  rw [g64_eq, RowOps.rowGather_apply (by decide)]
  refine congrArg h (congrArg (fun r : Fin 100000 => ix2 r c) (Fin.ext ?_))
  show min (idx (ix2 e (0 : Fin 1))).toInt.toNat (100000 - 1) = min (wrapW (src e)).toInt.toNat 99999
  rw [hidx]

/-- The accumulating row scatter into a table that is zero at (n, c), with destination words dst and update column
    g: the sum of g over the edges that feed n. -/
theorem scatter64_at (x : (⟨2, ![100000, 64]⟩ : Shape).Idx → EReal) (idx : IVec (⟨2, ![1600000, 1]⟩ : Shape) 32)
    (upd : (⟨2, ![1600000, 64]⟩ : Shape).Idx → EReal)
    (dst : Fin NE → BitVec 32) (g : Fin NE → EReal) (n : Fin 100000) (c : Fin 64)
    (hx : x (ix2 n c) = 0) (hidx : ∀ e : Fin 1600000, idx (ix2 e (0 : Fin 1)) = dst e)
    (hg : ∀ e : Fin 1600000, upd (ix2 e c) = g e) :
    Ideal.hostScatterAdd scatter_S100000x64_S1600000x1_S1600000x64_1_0_0_1 x idx upd (ix2 n c)
      = ∑ e ∈ inEdges dst n, g e := by
  rw [sc64_eq, RowOps.rowScatterAdd_apply, hx, zero_add]
  unfold inEdges
  exact Finset.sum_congr (Finset.filter_congr fun e _ => by rw [hidx]) fun e _ => hg e

/-- The accumulating scatter of ones into a vector that is zero at n, with destination words dst: the degree of n. -/
theorem scatter1_at (x : (⟨1, ![100000]⟩ : Shape).Idx → EReal) (idx : IVec (⟨2, ![1600000, 1]⟩ : Shape) 32)
    (upd : (⟨1, ![1600000]⟩ : Shape).Idx → EReal) (dst : Fin NE → BitVec 32) (n : Fin 100000)
    (hx : x (ix1 n) = 0) (hidx : ∀ e : Fin 1600000, idx (ix2 e (0 : Fin 1)) = dst e)
    (hu : ∀ e : Fin 1600000, upd (ix1 e) = 1) :
    Ideal.hostScatterAdd scatter_S100000_S1600000x1_S1600000_n_0_0_1 x idx upd (ix1 n) = deg dst n := by
  rw [sc1_eq, RowOps.vecScatterAdd_apply, hx, zero_add]
  unfold deg inEdges
  exact Finset.sum_congr (Finset.filter_congr fun e _ => by rw [hidx]) fun e _ => hu e

/-- Over abstract operands: the accumulating scatter, by destination words d, of the rows gathered from h by the
    wrapped source words s, into a table that is zero at (n, c): the aggregate of h at (n, c). -/
theorem aggr_generic (h z : (⟨2, ![100000, 64]⟩ : Shape).Idx → EReal) (idxD idxS : IVec (⟨2, ![1600000, 1]⟩ : Shape) 32)
    (s d : Fin NE → BitVec 32) (n : Fin 100000) (c : Fin 64)
    (hz : z (ix2 n c) = 0) (hD : ∀ e : Fin 1600000, idxD (ix2 e (0 : Fin 1)) = d e)
    (hS : ∀ e : Fin 1600000, idxS (ix2 e (0 : Fin 1)) = wrapW (s e)) :
    Host.scatterAdd (F := Ideal) (φ := .f32) scatter_S100000x64_S1600000x1_S1600000x64_1_0_0_1 z idxD (Host.gather gather_S100000x64_S1600000x1_S1600000x64_1_0_n_n_0_1_164 h idxS) (ix2 n c)
      = aggr s d (cur2 h) n c := by
  simp only [Host.scatterAdd, Ideal.hostScatterAdd_def]
  unfold aggr
  exact scatter64_at z idxD (Host.gather gather_S100000x64_S1600000x1_S1600000x64_1_0_n_n_0_1_164 h idxS) d (fun e => cur2 h (srcRow s e) c) n c hz hD
    (fun e => gather64_at h idxS s e c (hS e))

/-- Over abstract operands: that aggregate divided by a table that is the divisor of n at (n, c). -/
theorem mean_generic (h z dv : (⟨2, ![100000, 64]⟩ : Shape).Idx → EReal) (idxD idxS : IVec (⟨2, ![1600000, 1]⟩ : Shape) 32)
    (s d : Fin NE → BitVec 32) (n : Fin 100000) (c : Fin 64)
    (hz : z (ix2 n c) = 0) (hD : ∀ e : Fin 1600000, idxD (ix2 e (0 : Fin 1)) = d e)
    (hS : ∀ e : Fin 1600000, idxS (ix2 e (0 : Fin 1)) = wrapW (s e)) (hdv : dv (ix2 n c) = dmax d n) :
    Host.divf (F := Ideal) (φ := .f32) (Host.scatterAdd (F := Ideal) (φ := .f32) scatter_S100000x64_S1600000x1_S1600000x64_1_0_0_1 z idxD (Host.gather gather_S100000x64_S1600000x1_S1600000x64_1_0_n_n_0_1_164 h idxS)) dv (ix2 n c)
      = Ideal.div (aggr s d (cur2 h) n c) (dmax d n) := by
  simp only [Host.divf, Ideal.hostDivf_def]
  rw [aggr_generic h z idxD idxS s d n c hz hD hS, hdv]

/-- Over abstract operands: the scatter of ones, by destination words d, into a vector that is zero at n. -/
theorem deg_generic (z : (⟨1, ![100000]⟩ : Shape).Idx → EReal) (idxD : IVec (⟨2, ![1600000, 1]⟩ : Shape) 32)
    (ones : (⟨1, ![1600000]⟩ : Shape).Idx → EReal) (d : Fin NE → BitVec 32) (n : Fin 100000)
    (hz : z (ix1 n) = 0) (hD : ∀ e : Fin 1600000, idxD (ix2 e (0 : Fin 1)) = d e)
    (h1 : ∀ e : Fin 1600000, ones (ix1 e) = 1) :
    Host.scatterAdd (F := Ideal) (φ := .f32) scatter_S100000_S1600000x1_S1600000_n_0_0_1 z idxD ones (ix1 n) = deg d n := by
  simp only [Host.scatterAdd, Ideal.hostScatterAdd_def]
  exact scatter1_at z idxD ones d n hz hD h1

/-! ## The reference's operands at an index -/

theorem v11_at (i : S100000x64.Idx) : val_main_v11 (F := Ideal) i = 0 := by
  rw [val_main_v11_apply, val_main_cst_apply, Ideal.ofBits_def, Ideal.ofBits_zero_f32]

theorem v15_at (i : S100000.Idx) : val_main_v15 (F := Ideal) i = 0 := by
  rw [val_main_v15_apply, val_main_cst_2_apply, Ideal.ofBits_def, Ideal.ofBits_zero_f32]

theorem v14_at (i : S1600000.Idx) : val_main_v14 (F := Ideal) i = 1 := by
  rw [val_main_v14_apply, val_main_cst_1_apply, Ideal.ofBits_def, ofBits_one]

theorem v18_at (i : S100000.Idx) : val_main_v18 (F := Ideal) i = 1 := by
  rw [val_main_v18_apply, val_main_cst_3_apply, Ideal.ofBits_def, ofBits_one]

/-- The scatter of ones into the zero vector, at n: the degree of n. -/
theorem v17_at (x1 : (⟨S2x1600000, .i32⟩ : BufTy).Contents (Elt Ideal)) (n : Fin 100000) :
    val_main_v17 (F := Ideal) x1 (ix1 n) = deg (dstOf x1) n := by
  unfold val_main_v17
  exact deg_generic (val_main_v15 (F := Ideal)) (val_main_v16 (F := Ideal) x1) (val_main_v14 (F := Ideal))
    (dstOf x1) n (v15_at _) (fun e => v16_at x1 e) (fun e => v14_at _)

/-- The clamped degree, broadcast along the columns, at (n, c): the divisor of n. -/
theorem v21_at (x1 : (⟨S2x1600000, .i32⟩ : BufTy).Contents (Elt Ideal)) (n : Fin 100000) (c : Fin 64) :
    val_main_v21 (F := Ideal) x1 (ix2 n c) = dmax (dstOf x1) n := by
  rw [val_main_v21_apply, val_main_v20_apply]
  have hi : idx_main_v20 (idx_main_v21 (ix2 n c)) = ix1 n := funext fun a => Fin.ext (by
    match a with
    | ⟨0, _⟩ => rfl)
  rw [hi, val_main_v19_apply, v17_at, v18_at, Ideal.maximumf_def]
  rfl

/-- The mean aggregation of a table h, at (n, c). -/
theorem mean_at (h : (⟨S100000x64, .f32⟩ : BufTy).Contents (Elt Ideal)) (x1 : (⟨S2x1600000, .i32⟩ : BufTy).Contents (Elt Ideal)) (n : Fin 100000) (c : Fin 64) :
    Host.divf (F := Ideal) (φ := .f32) (Host.scatterAdd (F := Ideal) (φ := .f32) scatter_S100000x64_S1600000x1_S1600000x64_1_0_0_1 (val_main_v11 (F := Ideal))
        (val_main_v12 (F := Ideal) x1)
        (Host.gather gather_S100000x64_S1600000x1_S1600000x64_1_0_n_n_0_1_164 h (val_main_v9 (F := Ideal) x1)))
        (val_main_v21 (F := Ideal) x1) (ix2 n c)
      = Ideal.div (aggr (srcOf x1) (dstOf x1) (cur2 h) n c) (dmax (dstOf x1) n) :=
  mean_generic h (val_main_v11 (F := Ideal)) (val_main_v21 (F := Ideal) x1) (val_main_v12 (F := Ideal) x1)
    (val_main_v9 (F := Ideal) x1) (srcOf x1) (dstOf x1) n c (v11_at _) (fun e => v12_at x1 e) (fun e => v9_at x1 e)
    (v21_at x1 n c)

/-! ## The three layers -/

local macro "idx2" : tactic =>
  `(tactic| exact funext fun a => Fin.ext (by match a with | ⟨0, _⟩ => rfl | ⟨1, _⟩ => rfl))

/-- The first layer's mean aggregation is that of the input table. -/
theorem val_main_v22_at (x0 : (⟨S100000x64, .f32⟩ : BufTy).Contents (Elt Ideal)) (x1 : (⟨S2x1600000, .i32⟩ : BufTy).Contents (Elt Ideal)) (n : Fin 100000) (k : Fin 64) :
    val_main_v22 (F := Ideal) x0 x1 (ix2 n k)
      = Ideal.div (aggr (srcOf x1) (dstOf x1) (cur2 x0) n k) (dmax (dstOf x1) n) := by
  unfold val_main_v22 val_main_v13 val_main_v10
  exact mean_at x0 x1 n k

/-- THE FIRST LAYER. -/
theorem val_main_v29_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) :
    val_main_v29 (F := Ideal) x0 x1 x2 x3 x4
      = arr2 (layerR (srcOf x1) (dstOf x1) (cur2 x0) (cur2 x2) (cur2 x3) (cur1 x4)) := by
  funext i
  obtain ⟨n, c, rfl⟩ : ∃ (n : Fin 100000) (c : Fin 64), i = ix2 n c := ⟨i 0, i 1, eq_ix2 i⟩
  rw [val_main_v29_apply, val_main_v28_apply, val_main_v25_apply, val_main_v23_apply, val_main_v24_apply,
    val_main_v27_apply, val_main_v26_apply, val_main_call0_v0_apply, val_main_call0_cst_apply,
    Ideal.ofBits_def, Ideal.ofBits_zero_f32, Ideal.maximumf_def, Ideal.addf_def, Ideal.addf_def]
  have s1 : ∑ k : Fin 64, val_main_v22 (F := Ideal) x0 x1 (lidx_main_v23 (ix2 n c) k) * x2 (ridx_main_v23 (ix2 n c) k)
      = ∑ k : Fin 64, Ideal.div (aggr (srcOf x1) (dstOf x1) (cur2 x0) n k) (dmax (dstOf x1) n) * cur2 x2 k c :=
    Finset.sum_congr rfl fun k _ => by
      have hl : lidx_main_v23 (ix2 n c) k = ix2 n k := by idx2
      have hr : ridx_main_v23 (ix2 n c) k = ix2 k c := by idx2
      rw [hl, hr, val_main_v22_at]
      rfl
  have s2 : ∑ k : Fin 64, x0 (lidx_main_v24 (ix2 n c) k) * x3 (ridx_main_v24 (ix2 n c) k)
      = ∑ k : Fin 64, cur2 x0 n k * cur2 x3 k c :=
    Finset.sum_congr rfl fun k _ => by
      have hl : lidx_main_v24 (ix2 n c) k = ix2 n k := by idx2
      have hr : ridx_main_v24 (ix2 n c) k = ix2 k c := by idx2
      rw [hl, hr]
      rfl
  have hb : idx_main_v26 (idx_main_v27 (ix2 n c)) = ix1 c := funext fun a => Fin.ext (by
    match a with
    | ⟨0, _⟩ => rfl)
  rw [s1, s2, hb]
  rfl

theorem val_main_v35_eq (x1 : (⟨S2x1600000, .i32⟩ : BufTy).Contents (Elt Ideal)) : val_main_v35 (F := Ideal) x1 = val_main_v9 (F := Ideal) x1 := rfl
theorem val_main_v37_eq : val_main_v37 (F := Ideal) = val_main_v11 (F := Ideal) := rfl
theorem val_main_v38_eq (x1 : (⟨S2x1600000, .i32⟩ : BufTy).Contents (Elt Ideal)) : val_main_v38 (F := Ideal) x1 = val_main_v12 (F := Ideal) x1 := rfl
theorem val_main_v47_eq (x1 : (⟨S2x1600000, .i32⟩ : BufTy).Contents (Elt Ideal)) : val_main_v47 (F := Ideal) x1 = val_main_v21 (F := Ideal) x1 := rfl

/-- The second layer's mean aggregation is that of the previous layer's table. -/
theorem val_main_v48_at (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) (n : Fin 100000) (k : Fin 64) :
    val_main_v48 (F := Ideal) x0 x1 x2 x3 x4 (ix2 n k)
      = Ideal.div (aggr (srcOf x1) (dstOf x1) (cur2 (val_main_v29 (F := Ideal) x0 x1 x2 x3 x4)) n k) (dmax (dstOf x1) n) := by
  unfold val_main_v48 val_main_v39 val_main_v36
  rw [val_main_v35_eq, val_main_v37_eq, val_main_v38_eq, val_main_v47_eq]
  exact mean_at (val_main_v29 (F := Ideal) x0 x1 x2 x3 x4) x1 n k

/-- THE SECOND LAYER, over the previous layer's table. -/
theorem val_main_v55_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) :
    val_main_v55 (F := Ideal) x0 x1 x2 x3 x4 x5 x6 x7
      = arr2 (layerR (srcOf x1) (dstOf x1) (cur2 (val_main_v29 (F := Ideal) x0 x1 x2 x3 x4)) (cur2 x5) (cur2 x6) (cur1 x7)) := by
  funext i
  obtain ⟨n, c, rfl⟩ : ∃ (n : Fin 100000) (c : Fin 64), i = ix2 n c := ⟨i 0, i 1, eq_ix2 i⟩
  rw [val_main_v55_apply, val_main_v54_apply, val_main_v51_apply, val_main_v49_apply, val_main_v50_apply,
    val_main_v53_apply, val_main_v52_apply, val_main_call1_v0_apply, val_main_call1_cst_apply,
    Ideal.ofBits_def, Ideal.ofBits_zero_f32, Ideal.maximumf_def, Ideal.addf_def, Ideal.addf_def]
  have s1 : ∑ k : Fin 64, val_main_v48 (F := Ideal) x0 x1 x2 x3 x4 (lidx_main_v49 (ix2 n c) k) * x5 (ridx_main_v49 (ix2 n c) k)
      = ∑ k : Fin 64, Ideal.div (aggr (srcOf x1) (dstOf x1) (cur2 (val_main_v29 (F := Ideal) x0 x1 x2 x3 x4)) n k) (dmax (dstOf x1) n) * cur2 x5 k c :=
    Finset.sum_congr rfl fun k _ => by
      have hl : lidx_main_v49 (ix2 n c) k = ix2 n k := by idx2
      have hr : ridx_main_v49 (ix2 n c) k = ix2 k c := by idx2
      rw [hl, hr, val_main_v48_at]
      rfl
  have s2 : ∑ k : Fin 64, (val_main_v29 (F := Ideal) x0 x1 x2 x3 x4) (lidx_main_v50 (ix2 n c) k) * x6 (ridx_main_v50 (ix2 n c) k)
      = ∑ k : Fin 64, cur2 (val_main_v29 (F := Ideal) x0 x1 x2 x3 x4) n k * cur2 x6 k c :=
    Finset.sum_congr rfl fun k _ => by
      have hl : lidx_main_v50 (ix2 n c) k = ix2 n k := by idx2
      have hr : ridx_main_v50 (ix2 n c) k = ix2 k c := by idx2
      rw [hl, hr]
      rfl
  have hb : idx_main_v52 (idx_main_v53 (ix2 n c)) = ix1 c := funext fun a => Fin.ext (by
    match a with
    | ⟨0, _⟩ => rfl)
  rw [s1, s2, hb]
  rfl

theorem val_main_v61_eq (x1 : (⟨S2x1600000, .i32⟩ : BufTy).Contents (Elt Ideal)) : val_main_v61 (F := Ideal) x1 = val_main_v9 (F := Ideal) x1 := rfl
theorem val_main_v63_eq : val_main_v63 (F := Ideal) = val_main_v11 (F := Ideal) := rfl
theorem val_main_v64_eq (x1 : (⟨S2x1600000, .i32⟩ : BufTy).Contents (Elt Ideal)) : val_main_v64 (F := Ideal) x1 = val_main_v12 (F := Ideal) x1 := rfl
theorem val_main_v73_eq (x1 : (⟨S2x1600000, .i32⟩ : BufTy).Contents (Elt Ideal)) : val_main_v73 (F := Ideal) x1 = val_main_v21 (F := Ideal) x1 := rfl

/-- The third layer's mean aggregation is that of the previous layer's table. -/
theorem val_main_v74_at (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (n : Fin 100000) (k : Fin 64) :
    val_main_v74 (F := Ideal) x0 x1 x2 x3 x4 x5 x6 x7 (ix2 n k)
      = Ideal.div (aggr (srcOf x1) (dstOf x1) (cur2 (val_main_v55 (F := Ideal) x0 x1 x2 x3 x4 x5 x6 x7)) n k) (dmax (dstOf x1) n) := by
  unfold val_main_v74 val_main_v65 val_main_v62
  rw [val_main_v61_eq, val_main_v63_eq, val_main_v64_eq, val_main_v73_eq]
  exact mean_at (val_main_v55 (F := Ideal) x0 x1 x2 x3 x4 x5 x6 x7) x1 n k

/-- THE THIRD LAYER, over the previous layer's table. -/
theorem val_main_v81_eq (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x40, .f32⟩ : BufTy).Contents (Elt Ideal)) (x10 : (⟨S40, .f32⟩ : BufTy).Contents (Elt Ideal)) :
    val_main_v81 (F := Ideal) x0 x1 x2 x3 x4 x5 x6 x7 x8 x9 x10
      = arr2 (layerR (srcOf x1) (dstOf x1) (cur2 (val_main_v55 (F := Ideal) x0 x1 x2 x3 x4 x5 x6 x7)) (cur2 x8) (cur2 x9) (cur1 x10)) := by
  funext i
  obtain ⟨n, c, rfl⟩ : ∃ (n : Fin 100000) (c : Fin 40), i = ix2 n c := ⟨i 0, i 1, eq_ix2 i⟩
  rw [val_main_v81_apply, val_main_v80_apply, val_main_v77_apply, val_main_v75_apply, val_main_v76_apply,
    val_main_v79_apply, val_main_v78_apply, val_main_call2_v0_apply, val_main_call2_cst_apply,
    Ideal.ofBits_def, Ideal.ofBits_zero_f32, Ideal.maximumf_def, Ideal.addf_def, Ideal.addf_def]
  have s1 : ∑ k : Fin 64, val_main_v74 (F := Ideal) x0 x1 x2 x3 x4 x5 x6 x7 (lidx_main_v75 (ix2 n c) k) * x8 (ridx_main_v75 (ix2 n c) k)
      = ∑ k : Fin 64, Ideal.div (aggr (srcOf x1) (dstOf x1) (cur2 (val_main_v55 (F := Ideal) x0 x1 x2 x3 x4 x5 x6 x7)) n k) (dmax (dstOf x1) n) * cur2 x8 k c :=
    Finset.sum_congr rfl fun k _ => by
      have hl : lidx_main_v75 (ix2 n c) k = ix2 n k := by idx2
      have hr : ridx_main_v75 (ix2 n c) k = ix2 k c := by idx2
      rw [hl, hr, val_main_v74_at]
      rfl
  have s2 : ∑ k : Fin 64, (val_main_v55 (F := Ideal) x0 x1 x2 x3 x4 x5 x6 x7) (lidx_main_v76 (ix2 n c) k) * x9 (ridx_main_v76 (ix2 n c) k)
      = ∑ k : Fin 64, cur2 (val_main_v55 (F := Ideal) x0 x1 x2 x3 x4 x5 x6 x7) n k * cur2 x9 k c :=
    Finset.sum_congr rfl fun k _ => by
      have hl : lidx_main_v76 (ix2 n c) k = ix2 n k := by idx2
      have hr : ridx_main_v76 (ix2 n c) k = ix2 k c := by idx2
      rw [hl, hr]
      rfl
  have hb : idx_main_v78 (idx_main_v79 (ix2 n c)) = ix1 c := funext fun a => Fin.ext (by
    match a with
    | ⟨0, _⟩ => rfl)
  rw [s1, s2, hb]
  rfl

/-- The third layer's table is the three plain layers of the arguments. -/
theorem v81_value (x0 : (⟨S100000x64, .f32⟩ : BufTy).Contents (Elt Ideal)) (x1 : (⟨S2x1600000, .i32⟩ : BufTy).Contents (Elt Ideal)) (x2 x3 : (⟨S64x64, .f32⟩ : BufTy).Contents (Elt Ideal)) (x4 : (⟨S64, .f32⟩ : BufTy).Contents (Elt Ideal)) (x5 x6 : (⟨S64x64, .f32⟩ : BufTy).Contents (Elt Ideal)) (x7 : (⟨S64, .f32⟩ : BufTy).Contents (Elt Ideal)) (x8 x9 : (⟨S64x40, .f32⟩ : BufTy).Contents (Elt Ideal)) (x10 : (⟨S40, .f32⟩ : BufTy).Contents (Elt Ideal)) :
    val_main_v81 (F := Ideal) x0 x1 x2 x3 x4 x5 x6 x7 x8 x9 x10
      = arr2 (layerR (srcOf x1) (dstOf x1)
          (layerR (srcOf x1) (dstOf x1) (layerR (srcOf x1) (dstOf x1) (cur2 x0) (cur2 x2) (cur2 x3) (cur1 x4))
            (cur2 x5) (cur2 x6) (cur1 x7))
          (cur2 x8) (cur2 x9) (cur1 x10)) := by
  rw [val_main_v81_eq, val_main_v55_eq, val_main_v29_eq]
  simp only [cur2_arr2]

end Layers

/-- THE REFERENCE'S LAST STAGE is the plain network of its arguments. -/
theorem ref_value (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 x9 : (⟨S64x40, .f32⟩ : BufTy).Contents (Elt Ideal)) (x10 : (⟨S40, .f32⟩ : BufTy).Contents (Elt Ideal)) :
    val_main_v82 (F := Ideal) x0 x1 x2 x3 x4 x5 x6 x7 x8 x9 x10
      = arr2 (outR (srcOf x1) (dstOf x1) (cur2 x0) (cur2 x2) (cur2 x3) (cur1 x4) (cur2 x5) (cur2 x6) (cur1 x7)
          (cur2 x8) (cur2 x9) (cur1 x10)) := by
  unfold outR
  exact ref_lsm x0 x1 x2 x3 x4 x5 x6 x7 x8 x9 x10 _ (Layers.v81_value x0 x1 x2 x3 x4 x5 x6 x7 x8 x9 x10)

end Cert.ReferenceIdeal.SageR

end
-- ==== Proof.SpecLaw.lean ====
/-
  The algebra that joins the three ways of computing a layer (Spec.lean).

  Multiplying by the reciprocal of the divisor is dividing by it, on every extended real, because the divisor is
  at least one.  Projecting the table before aggregating is aggregating before projecting when every entry of
  the table and of the matrix is a real number: both are the same finite double sum, and the reciprocal of the
  divisor, a real number, distributes over it.  A layer of real tables is a real table, so the property is
  carried through the layers.
-/
import proofs.«425072_j22376779612323_3_alg».proof.Proof.Spec

noncomputable section

namespace Cert.Sage

open Idealize.ShloMosaic

/-! ## Real numbers among the extended reals -/

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

theorem isReal_max {a b : EReal} (ha : IsReal a) (hb : IsReal b) : IsReal (max a b) := by
  rcases le_total a b with h | h
  · rw [max_eq_right h]; exact hb
  · rw [max_eq_left h]; exact ha

theorem isReal_sum {ι : Type*} (s : Finset ι) (f : ι → EReal) (hf : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (hf a (Finset.mem_insert_self a s))
      (ih fun i hi => hf i (Finset.mem_insert_of_mem hi))

/-- A finite sum of real numbers, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ## The divisor -/

/-- The divisor is at least one. -/
theorem one_le_dmax (dst : Fin NE → BitVec 32) (n : Fin NN) : (1 : EReal) ≤ dmax dst n :=
  le_max_right _ _

/-- The degree, hence the divisor, is a real number. -/
theorem isReal_dmax (dst : Fin NE → BitVec 32) (n : Fin NN) : IsReal (dmax dst n) :=
  isReal_max (isReal_sum _ _ fun _ _ => isReal_one) isReal_one

/-- The divisor is a nonzero real number (it is at least one). -/
theorem dmax_real (dst : Fin NE → BitVec 32) (n : Fin NN) :
    ∃ r : ℝ, r ≠ 0 ∧ dmax dst n = (r : EReal) := by
  obtain ⟨r, hr⟩ := isReal_dmax dst n
  refine ⟨r, ?_, hr⟩
  have h1 : (1 : EReal) ≤ (r : EReal) := hr ▸ one_le_dmax dst n
  rw [← EReal.coe_one, EReal.coe_le_coe_iff] at h1
  intro h0
  rw [h0] at h1
  exact absurd h1 (by norm_num)

/-- Times the reciprocal of the divisor is divided by the divisor, for every extended real. -/
theorem mul_div_one_dmax (dst : Fin NE → BitVec 32) (n : Fin NN) (a : EReal) :
    a * Ideal.div 1 (dmax dst n) = Ideal.div a (dmax dst n) := by
  obtain ⟨r, hr0, hr⟩ := dmax_real dst n
  rw [hr, Ideal.div_coe hr0, Ideal.div_coe hr0, one_mul]

/-- The reciprocal of the divisor is a real number. -/
theorem isReal_div_one_dmax (dst : Fin NE → BitVec 32) (n : Fin NN) : IsReal (Ideal.div 1 (dmax dst n)) := by
  obtain ⟨r, hr0, hr⟩ := dmax_real dst n
  rw [hr, Ideal.div_coe hr0, one_mul]
  exact isReal_coe _

/-! ## The layers -/

/-- The reciprocal form of the layer is the layer. -/
theorem layerK_eq_layerR {C : Nat} (src dst : Fin NE → BitVec 32) (h : Fin NN → Fin 64 → EReal)
    (Wl Wr : Fin 64 → Fin C → EReal) (b : Fin C → EReal) :
    layerK src dst h Wl Wr b = layerR src dst h Wl Wr b := by
  funext n c
  simp only [layerK, layerR, mul_div_one_dmax]

/-- Over the reals: the sum over edges of the projected rows, scaled by d, is the projection of the
    scaled sum of the rows (exchange the two finite sums, then distribute). -/
theorem real_project {ι : Type*} (S : Finset ι) (row : ι → Fin NN) (hr : Fin NN → Fin 64 → ℝ) (w : Fin 64 → ℝ) (d : ℝ) :
    (∑ e ∈ S, ∑ k : Fin 64, hr (row e) k * w k) * d = ∑ k : Fin 64, ((∑ e ∈ S, hr (row e) k) * d) * w k := by
  rw [Finset.sum_comm, Finset.sum_mul]
  refine Finset.sum_congr rfl fun k _ => ?_
  rw [← Finset.sum_mul]
  ring

/-- The projected form of the layer is the layer, on real tables. -/
theorem layerP_eq_layerR {C : Nat} (src dst : Fin NE → BitVec 32) (h : Fin NN → Fin 64 → EReal)
    (Wl Wr : Fin 64 → Fin C → EReal) (b : Fin C → EReal) (hh : IsReal2 h) (hWl : IsReal2 Wl) :
    layerP src dst h Wl Wr b = layerR src dst h Wl Wr b := by
  funext n c
  obtain ⟨r, hr0, hr⟩ := dmax_real dst n
  choose hr' hhr using hh
  choose w hw using hWl
  have key : aggr src dst (tmul h Wl) n c * Ideal.div 1 (dmax dst n)
      = ∑ k : Fin 64, Ideal.div (aggr src dst h n k) (dmax dst n) * Wl k c := by
    have e1 : ∀ k : Fin 64, Ideal.div (aggr src dst h n k) (dmax dst n)
        = aggr src dst h n k * Ideal.div 1 (dmax dst n) := fun k => (mul_div_one_dmax dst n _).symm
    simp only [e1]
    rw [hr, Ideal.div_coe hr0, one_mul]
    simp only [aggr, tmul, hhr, hw]
    simp only [← EReal.coe_mul, ← coe_sum]
    exact congrArg _ (real_project _ _ _ _ _)
  simp only [layerP, layerR, key]

/-- A layer of real tables is a real table. -/
theorem isReal2_layerR {C : Nat} (src dst : Fin NE → BitVec 32) (h : Fin NN → Fin 64 → EReal)
    (Wl Wr : Fin 64 → Fin C → EReal) (b : Fin C → EReal) (hh : IsReal2 h) (hWl : IsReal2 Wl) (hWr : IsReal2 Wr)
    (hb : IsReal1 b) : IsReal2 (layerR src dst h Wl Wr b) := by
  intro n c
  refine isReal_max (isReal_add (isReal_add (isReal_sum _ _ fun k _ => ?_) (isReal_sum _ _ fun k _ => ?_)) (hb c))
    isReal_zero
  · rw [← mul_div_one_dmax]
    exact isReal_mul (isReal_mul (isReal_sum _ _ fun e _ => hh _ _) (isReal_div_one_dmax dst n)) (hWl k c)
  · exact isReal_mul (hh n k) (hWr k c)

/-- THE TWO NETWORKS ARE ONE FUNCTION of real inputs. -/
theorem outK_eq_outR (src dst : Fin NE → BitVec 32) (x : Fin NN → Fin 64 → EReal)
    (Wl1 Wr1 : Fin 64 → Fin 64 → EReal) (b1 : Fin 64 → EReal)
    (Wl2 Wr2 : Fin 64 → Fin 64 → EReal) (b2 : Fin 64 → EReal)
    (Wl3 Wr3 : Fin 64 → Fin 40 → EReal) (b3 : Fin 40 → EReal)
    (hx : IsReal2 x) (hWl1 : IsReal2 Wl1) (hWr1 : IsReal2 Wr1) (hb1 : IsReal1 b1)
    (hWl2 : IsReal2 Wl2) (hWr2 : IsReal2 Wr2) (hb2 : IsReal1 b2) (hWl3 : IsReal2 Wl3) :
    outK src dst x Wl1 Wr1 b1 Wl2 Wr2 b2 Wl3 Wr3 b3 = outR src dst x Wl1 Wr1 b1 Wl2 Wr2 b2 Wl3 Wr3 b3 := by
  unfold outK outR
  rw [layerK_eq_layerR, layerK_eq_layerR]
  rw [layerP_eq_layerR src dst _ Wl3 Wr3 b3
    (isReal2_layerR src dst _ Wl2 Wr2 b2 (isReal2_layerR src dst x Wl1 Wr1 b1 hx hWl1 hWr1 hb1) hWl2 hWr2 hb2) hWl3]

end Cert.Sage

end
-- ==== Proof.PreDecode.lean ====
/-
  The precondition, decoded.  It is the conjunction of ten statements "every entry of this float array has
  absolute value below plus infinity" and one statement "every source word w of the edge array has
  -100000 <= w < 100000 (read signed)".  An extended real whose absolute value is below plus infinity is a real
  number; so under the precondition the ten float arrays are real tables and every source word names a row of
  the node table, directly or after one wrap.
-/
import proofs.«425072_j22376779612323_3_alg».proof.Proof.Gen.Pre_finite_inputs
import proofs.«425072_j22376779612323_3_alg».proof.Proof.Spec
import Idealize.ShloMosaic.Lib.ReduceAll
import Idealize.ShloMosaic.Lib.StableHlo.Predicate
import Idealize.ShloMosaic.Lib.ValueIdx
import Idealize.ShloMosaic.Lib.Pipeline.Value

noncomputable section

namespace Cert.Sage.Pre

open Cert.Pre_finite_inputs Cert.Sage
open Idealize.ShloMosaic Idealize.ShloMosaic.ValueIdx

/-- The scalar shape has one index. -/
instance : Subsingleton S_.Idx := ⟨fun a b => funext fun d => d.elim0⟩

/-- An extended real whose absolute value is below plus infinity is a real number. -/
theorem isReal_of_abs_lt_top (a : EReal) (h : max a (-a) < ⊤) : IsReal a := by
  induction a using EReal.rec with
  | bot => simp at h
  | coe r => exact ⟨r, rfl⟩
  | top => simp at h

/-- The word 0x7F800000 encodes plus infinity. -/
theorem ofBits_inf : Ideal.ofBits .f32 0x7F800000#32 = ⊤ := by
  simp [Ideal.ofBits, Ideal.ieee]

/-- A conjunction of two one-bit arrays, read at an index. -/
theorem vandi_one {s : Shape} (a b : IVec s 1) (i : s.Idx) : andi a b i = 1#1 ↔ a i = 1#1 ∧ b i = 1#1 :=
  IntOp.andi_eq_one

/-- ALL ENTRIES BELOW PLUS INFINITY IN ABSOLUTE VALUE: then every entry is a real number. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant S_ .f32 0x7F800000#32)))
      (constantI S_ 1 1#1) hr hu ix0 = 1#1) (i : s.Idx) : IsReal (x i) := by
  have hi := Host.reduce_andi_all _ _ hr hu ix0 h i
  rw [cmpf_apply, StableHlo.Predicate.bcast_scalar hb hu, constant_apply, ofBits_inf] at hi
  refine isReal_of_abs_lt_top (x i) ?_
  have hi' : BitVec.ofBool (decide (max (x i) (-(x i)) < ⊤)) = 1#1 := hi
  exact of_decide_eq_true ((StableHlo.Predicate.ofBool_eq_one_iff _).1 hi')

/-- Row 0 of the edge array, sliced out and flattened, read at edge e. -/
theorem src_read (x1 : IVec S2x1600000 32) (hs : S2x1600000.Slices ![0, 0] S1x1600000) (hc : S1x1600000.ShapeCasts S1600000)
    (e : Fin NE) :
    shapeCast S1600000 (extractStridedSlice S1x1600000 ![0, 0] x1 hs) hc (ix1 e) = x1 (ix2 (0 : Fin 2) e) := by
  rw [shapeCast_apply _ hc (ix1 e) (ix2 (0 : Fin 1) e)
    (by rw [Shape.rowMajor_val_two, Shape.rowMajor_val_one]; show 0 * 1600000 + e.val = e.val; omega)]
  exact extractStridedSlice_apply ![0, 0] x1 hs (ix2 (0 : Fin 1) e) (ix2 (0 : Fin 2) e) (fun a => match a with
    | ⟨0, _⟩ => by show (0 : Nat) = 0 + 0; omega
    | ⟨1, _⟩ => by show e.val = 0 + e.val; omega)

/-- ALL SOURCE WORDS BETWEEN -100000 AND 100000: the words of row 0 are in range. -/
theorem src_in_range (x1 : IVec S2x1600000 32) (hs : S2x1600000.Slices ![0, 0] S1x1600000) (hc : S1x1600000.ShapeCasts S1600000)
    (hb : S_.BroadcastsInDim S1600000 ![]) (hr : S1600000.ReducesTo [0] S_) (hu : 0 < S_.numel)
    (h : Host.reduce IntOp.andi
      (andi (cmpi .sge (shapeCast S1600000 (extractStridedSlice S1x1600000 ![0, 0] x1 hs) hc)
                (broadcastInDim S1600000 ![] hb (constantI S_ 32 4294867296#32)))
            (cmpi .slt (shapeCast S1600000 (extractStridedSlice S1x1600000 ![0, 0] x1 hs) hc)
                (broadcastInDim S1600000 ![] hb (constantI S_ 32 100000#32))))
      (constantI S_ 1 1#1) hr hu ix0 = 1#1) : SrcInRange (srcOf x1) := by
  intro e
  have he := Host.reduce_andi_all _ _ hr hu ix0 h (ix1 e)
  have hrd := src_read x1 hs hc e
  have hb1 := StableHlo.Predicate.bcast_scalar hb hu (constantI S_ 32 4294867296#32) (ix1 e)
  have hb2 := StableHlo.Predicate.bcast_scalar hb hu (constantI S_ 32 100000#32) (ix1 e)
  generalize shapeCast S1600000 (extractStridedSlice S1x1600000 ![0, 0] x1 hs) hc = sv at he hrd
  generalize broadcastInDim S1600000 ![] hb (constantI S_ 32 4294867296#32) = b1 at he hb1
  generalize broadcastInDim S1600000 ![] hb (constantI S_ 32 100000#32) = b2 at he hb2
  obtain ⟨hge, hlt⟩ := (vandi_one _ _ _).1 he
  have h1 : (b1 (ix1 e)).toInt ≤ (sv (ix1 e)).toInt := IntOp.cmpi_sge.1 hge
  have h2 : (sv (ix1 e)).toInt < (b2 (ix1 e)).toInt := IntOp.cmpi_slt.1 hlt
  have c1 : (b1 (ix1 e)).toInt = -100000 := by rw [hb1]; show (4294867296#32 : BitVec 32).toInt = -100000; decide
  have c2 : (b2 (ix1 e)).toInt = 100000 := by rw [hb2]; show (100000#32 : BitVec 32).toInt = 100000; decide
  rw [c1, hrd] at h1
  rw [c2, hrd] at h2
  exact ⟨h1, h2⟩

/-- THE PRECONDITION DECODED: real tables, and source words in range. -/
theorem pre_decode (x0 : FVec Ideal S100000x64 .f32) (x1 : IVec S2x1600000 32) (x2 x3 : FVec Ideal S64x64 .f32)
    (x4 : FVec Ideal S64 .f32) (x5 x6 : FVec Ideal S64x64 .f32) (x7 : FVec Ideal S64 .f32)
    (x8 x9 : FVec Ideal S64x40 .f32) (x10 : FVec Ideal S40 .f32)
    (h : Cert.Pre_finite_inputs.fn (F := Ideal) x0 x1 x2 x3 x4 x5 x6 x7 x8 x9 x10 = fun _ => 1#1) :
    IsReal2 (cur2 x0) ∧ IsReal2 (cur2 x2) ∧ IsReal2 (cur2 x3) ∧ IsReal1 (cur1 x4)
    ∧ IsReal2 (cur2 x5) ∧ IsReal2 (cur2 x6) ∧ IsReal1 (cur1 x7) ∧ IsReal2 (cur2 x8)
    ∧ SrcInRange (srcOf x1) := by
  have h0 := congrFun h ix0
  dsimp only [fn, fn_part1, fn_part2, fn_part3] at h0
  simp only [vandi_one] at h0
  obtain ⟨⟨⟨⟨⟨⟨⟨⟨⟨⟨h_0, h_2⟩, h_3⟩, h_4⟩, h_5⟩, h_6⟩, h_7⟩, h_8⟩, h_9⟩, h_10⟩, h_s⟩ := h0
  refine ⟨fun a b => all_real x0 _ _ _ h_0 (ix2 a b), fun a b => all_real x2 _ _ _ h_2 (ix2 a b),
    fun a b => all_real x3 _ _ _ h_3 (ix2 a b), fun a => all_real x4 _ _ _ h_4 (ix1 a),
    fun a b => all_real x5 _ _ _ h_5 (ix2 a b), fun a b => all_real x6 _ _ _ h_6 (ix2 a b),
    fun a => all_real x7 _ _ _ h_7 (ix1 a), fun a b => all_real x8 _ _ _ h_8 (ix2 a b),
    src_in_range x1 _ _ _ _ _ h_s⟩

end Cert.Sage.Pre

end
-- ==== Proof.lean ====
/-
  Three layers of mean-aggregating graph convolution on 100000 nodes and 1600000 edges, then a row-wise
  log-softmax: a tiled program (four tile kernels among host gathers and scatter-adds) against the plain
  program, over the extended reals.

  The plain program computes each layer as  relu( (sum over incoming edges of the source rows) / max(deg, 1) · Wl
  + h · Wr + b ).  The tiled program multiplies by the reciprocal of max(deg, 1) instead of dividing (the same on
  every extended real, the divisor being at least one) and, in the last layer, multiplies the table by Wl BEFORE
  it aggregates (the same double sum when the table and Wl are real, which they are: the inputs are finite and a
  layer of real tables is real).  Its row gathers replace a row whose wrapped source word falls outside the table
  by a fill value; the precondition says every source word w has -100000 <= w < 100000, where the plain
  program's own row read is in range, so no row is replaced.
-/
import proofs.«425072_j22376779612323_3_alg».proof.Defs
import proofs.«425072_j22376779612323_3_alg».proof.Proof.Gen.Kernel
import proofs.«425072_j22376779612323_3_alg».proof.Proof.Gen.Kernel.Frame
import proofs.«425072_j22376779612323_3_alg».proof.Proof.Gen.KernelIdeal
import proofs.«425072_j22376779612323_3_alg».proof.Proof.Gen.KernelIdeal.Frame
import proofs.«425072_j22376779612323_3_alg».proof.Proof.Gen.ReferenceIdeal
import proofs.«425072_j22376779612323_3_alg».proof.Proof.Gen.Pre_finite_inputs
import proofs.«425072_j22376779612323_3_alg».proof.Proof.KRun
import proofs.«425072_j22376779612323_3_alg».proof.Proof.KValue
import proofs.«425072_j22376779612323_3_alg».proof.Proof.RefRunP
import proofs.«425072_j22376779612323_3_alg».proof.Proof.RefRunValue
import proofs.«425072_j22376779612323_3_alg».proof.Proof.RefValue
import proofs.«425072_j22376779612323_3_alg».proof.Proof.SpecLaw
import proofs.«425072_j22376779612323_3_alg».proof.Proof.PreDecode
import Idealize.ShloMosaic.Adequacy
import Idealize.ShloMosaic.Init

noncomputable section

namespace Cert.Proof

open Idealize.ShloMosaic Idealize.SL.Sem Cert.Sage

/-- The tiled program at the word level runs and leaves its arguments. -/
theorem frame_k : Cert.frame_Kernel := fun m ρ _ => Cert.Kernel.Gen.frame m ρ

/-- The tiled program over the extended reals runs and leaves its arguments. -/
theorem frame_ki : Cert.frame_KernelIdeal := fun m ρ _ => Cert.KernelIdeal.Gen.frame m ρ

/-- The plain program runs and leaves its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two programs end with the same table: the tiled network of the arguments (the tiled program's run, read
    stage by stage), which is the plain network of the arguments (the algebra), which the plain program's run ends
    at (its operations read one at a time). -/
theorem algebraic : Cert.algebraic_KernelIdeal_ReferenceIdeal := by
  intro m ρ m' ρ' hpre hagree
  refine ⟨fun c => Cert.KernelIdeal.SageK.a_v37 (Cert.KernelIdeal.Gen.V12 (F := Ideal) m ρ) c, ?_, ?_⟩
  · exact Cert.KernelIdeal.GenRun.run_result (F := Ideal) m ρ
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10⟩ := hagree c
    obtain ⟨r0, r2, r3, r4, r5, r6, r7, r8, hsrc⟩ := Cert.Sage.Pre.pre_decode _ _ _ _ _ _ _ _ _ _ _ (hpre c)
    rw [Cert.ReferenceIdeal.SageR.after_ops_result, Cert.ReferenceIdeal.SageR.ref_value, h0, h1, h2, h3, h4, h5, h6, h7, h8, h9, h10]
    refine Eq.trans ?_ (Cert.KernelIdeal.SageK.kernel_value m ρ c hsrc).symm
    exact congrArg arr2 (Cert.Sage.outK_eq_outR _ _ _ _ _ _ _ _ _ _ _ _ r0 r2 r3 r4 r5 r6 r7 r8).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
